-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8192x256 .f32) (main_arg1 : FVec F S8192x8192 .f32) (main_arg2 : FVec F S8192x8192 .f32) (main_arg3 : FVec F S256x128 .f32) (main_arg4 : FVec F S128 .f32) (main_arg5 : FVec F S128x64 .f32) (main_arg6 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S8192x128 : Shape := ⟨2, ![8192, 128]⟩
abbrev S512x512 : Shape := ⟨2, ![512, 512]⟩
abbrev S512x128 : Shape := ⟨2, ![512, 128]⟩
abbrev S1x64 : Shape := ⟨2, ![1, 64]⟩
abbrev S8192x64 : Shape := ⟨2, ![8192, 64]⟩
abbrev S512x64 : Shape := ⟨2, ![512, 64]⟩

abbrev nBuf : Space → Nat
  | .hbm => 13
  | .vmem => 31
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S1x64, .f32⟩
  | .hbm, ⟨12, _⟩ => ⟨S8192x64, .f32⟩
  | .local _ .vmem, ⟨0, _⟩ => ⟨S8192x256, .f32⟩
  | .local _ .vmem, ⟨1, _⟩ => ⟨S256x128, .f32⟩
  | .local _ .vmem, ⟨2, _⟩ => ⟨S1x128, .f32⟩
  | .local _ .vmem, ⟨3, _⟩ => ⟨S8192x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S128x64, .f32⟩
  | .local _ .vmem, ⟨27, _⟩ => ⟨S1x64, .f32⟩
  | .local _ .vmem, ⟨28, _⟩ => ⟨S512x64, .f32⟩
  | .local _ .vmem, ⟨29, _⟩ => ⟨S512x64, .f32⟩
  | .local _ .vmem, ⟨30, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := .none

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_15 : BitVec 32 := 0#32
  let v21 : BitVec 1 := Scalar.cmpi .ne v20 c0_i32_15
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v12 : BitVec 1 := Scalar.cmpi .eq arg1 c15_i32
  let v13 : BitVec 32 := Scalar.extui v12
  let c0_i32_8 : BitVec 32 := 0#32
  let v14 : BitVec 1 := Scalar.cmpi .ne v13 c0_i32_8
  v14

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S128_S1x128 : S128.ShapeCasts S1x128
  inb_S8192x256_S8192x256_0_0 : ∀ a, (![0, 0] : Fin 2 → Nat) a + S8192x256.size a ≤ S8192x256.size a
  h_S8192x256 : 0 < S8192x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x512_S512x512_0_0 : ∀ a, (![0, 0] : Fin 2 → Nat) a + S512x512.size a ≤ S512x512.size a
  h_S512x512 : 0 < S512x512.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S8192x256_S256x128_S8192x128_1_0_0_1_n_n_wf : DotDims.WF S8192x256 S256x128 S8192x128 [1] [0] [0] [1] [] []
  dot_S512x512_S512x128_S512x128_1_0_0_1_n_n_wf : DotDims.WF S512x512 S512x128 S512x128 [1] [0] [0] [1] [] []
  dot_S512x128_S128x64_S512x64_1_0_0_1_n_n_wf : DotDims.WF S512x128 S128x64 S512x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x8192.size a
  hwx1_1 : ∀ i : grid1.Coords, EltTy.bits .f32 = 32 ∨ (Rect.block (s := S8192x8192) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .f32 = 32 ∨ (Rect.block (s := S8192x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S8192x128.size a
  hwx1_5 : ∀ i : grid1.Coords, EltTy.bits .f32 = 32 ∨ (Rect.block (s := S8192x128) S512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S8192x128.size a
  hwx2_1 : ∀ i : grid2.Coords, EltTy.bits .f32 = 32 ∨ (Rect.block (s := S8192x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S8192x128.size a
  hwx2_2 : ∀ i : grid2.Coords, EltTy.bits .f32 = 32 ∨ (Rect.block (s := S8192x128) S512x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S8192x64.size a
  hwx2_6 : ∀ i : grid2.Coords, EltTy.bits .f32 = 32 ∨ (Rect.block (s := S8192x64) S512x64.size (cc2_transform_6 i) (hinb2_6 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S512x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S8192x128 : Shape := ⟨2, ![8192, 128]⟩
abbrev S1x128 : Shape := ⟨2, ![1, 128]⟩
abbrev S_ : Shape := ⟨0, ![]⟩
abbrev S8192x64 : Shape := ⟨2, ![8192, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x64, .f32⟩
  | .hbm, ⟨41, _⟩ => ⟨S1x64, .f32⟩
  | .hbm, ⟨42, _⟩ => ⟨S8192x64, .f32⟩
  | .hbm, ⟨43, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.K.R0.lean ====
import proofs.«167914_g71622874628668_fold_wed_m_490_1_alg».proof.Proof.Gen.Kernel.Launch
import proofs.«167914_g71622874628668_fold_wed_m_490_1_alg».proof.Proof.Gen.Kernel.Skeleton
import proofs.«167914_g71622874628668_fold_wed_m_490_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The first call: one matrix product plus a row bias, on whole blocks

The first call has no grid: a single point, at which each of its four windows is its whole array.
The body reads the activations `x` (8192 x 256), the weights (256 x 128) and the bias row (1 x 128)
whole, and writes `x * W + bias` (the row repeated down the 8192 rows) over the whole output
(8192 x 128). Everything here is stated at the contents `V` the buffers hold when the call begins. -/

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call begins
variable (V : (c : Dev nD) → (b : Ref sig .tc) → Buf (Elt F) ((c : Thread nD τ).loc b))

/-! ## The four blocks -/

/-- Window `w`'s block at the point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Whole-buffer accesses

Every load and the one store of the body go through the rectangle that is the whole buffer: offsets zero, sizes
the buffer's own. A load through it reads the contents; a store through it leaves its payload everywhere. -/

/-- Both offsets of every access are zero. -/
theorem offs0 : (![0, 0] : Fin 2 → ℕ) = fun _ => 0 := funext fun a => by fin_cases a <;> rfl

abbrev rectX : Rect S8192x256 := Rect.unit (s := S8192x256) ![0, 0] S8192x256.size inb_S8192x256_S8192x256_0_0
abbrev rectW : Rect S256x128 := Rect.unit (s := S256x128) ![0, 0] S256x128.size inb_S256x128_S256x128_0_0
abbrev rectB : Rect S1x128 := Rect.unit (s := S1x128) ![0, 0] S1x128.size inb_S1x128_S1x128_0_0
abbrev rectH : Rect S8192x128 := Rect.unit (s := S8192x128) ![0, 0] S8192x128.size inb_S8192x128_S8192x128_0_0

/-- The output buffer after the body's one store, as the store leaves it: the payload of what the three loads read. -/
def stored0 (x : Vec F S8192x256 .f32) (w : Vec F S256x128 .f32) (b : Vec F S1x128 .f32) : Vec F S8192x128 .f32 :=
  View.canon [⟨rectH, k0_pay1 (View.ld x rectX) (View.ld w rectW) (View.ld b rectB)⟩]

/-- The store's rectangle is the whole output buffer, so its one piece covers every index. -/
theorem coverH (p : Vec F S8192x128 .f32) (y : S8192x128.Idx) :
    ∃ pc ∈ ([⟨rectH, p⟩] : List (View.Piece (Elt F) S8192x128 .f32)), y ∈ pc.1.set :=
  ⟨_, List.mem_singleton_self _, View.mem_set_unit_zero offs0 inb_S8192x128_S8192x128_0_0 y⟩

/-- Whole loads read the contents and the whole store leaves its payload: the output buffer ends at the product of
    the activations and the weights plus the bias row, of the three input buffers as they stand. -/
theorem stored0_eq (x : Vec F S8192x256 .f32) (w : Vec F S256x128 .f32) (b : Vec F S1x128 .f32) :
    stored0 x w b = k0_pay1 x w b := by
  unfold stored0
  rw [View.canon_unit_zero offs0, View.ld_unit_zero offs0, View.ld_unit_zero offs0, View.ld_unit_zero offs0]

/-! ## The body's triple -/

set_option maxHeartbeats 1000000 in
/-- The body on four whole buffers — the inputs holding `x`, `w`, `b`, the output holding anything — runs to the
    continuation with the inputs as they were and the output at `k0_pay1 x w b`. The body is its sequence of three
    input loads, one (unused) load of the output, and one store, which the symbolic executor runs. -/
theorem sound_kernel0 (c : Dev nD) (E : Set ℕ)
    (arg0 : Memref sig .tc .vmem S8192x256 .f32) (harg0 : arg0.IsWhole) (arg1 : Memref sig .tc .vmem S256x128 .f32) (harg1 : arg1.IsWhole)
    (arg2 : Memref sig .tc .vmem S1x128 .f32) (harg2 : arg2.IsWhole) (arg3 : Memref sig .tc .vmem S8192x128 .f32) (harg3 : arg3.IsWhole)
    (x : Vec F S8192x256 .f32) (w : Vec F S256x128 .f32) (b : Vec F S1x128 .f32) (K : PUnit → sProp 𝕄) :
    iprop(owns (c : Thread nD τ) arg0 fullShare x ∗ owns (c : Thread nD τ) arg1 fullShare w ∗ owns (c : Thread nD τ) arg2 fullShare b
        ∗ (∃ d, owns (c : Thread nD τ) arg3 fullShare d)
        ∗ (iprop(owns (c : Thread nD τ) arg0 fullShare x ∗ owns (c : Thread nD τ) arg1 fullShare w ∗ owns (c : Thread nD τ) arg2 fullShare b
              ∗ owns (c : Thread nD τ) arg3 fullShare (k0_pay1 x w b)) -∗ K ⟨⟩))
      ⊢ wp frame (wpE (defs₀ (F := F)) Variants.none c none) E (cc0__h_kernel arg0 harg0 arg1 harg1 arg2 harg2 arg3 harg3) K := by
  rw [← stored0_eq x w b]
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverH _)

/-! ## The call's data -/

/-- The call's data on core `c`: the arrays as found (`V`); after the body each of the three inputs still holds
    its block, and the output holds the product-plus-bias of the three input blocks; the untouched remainder is the
    invariant; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => Gen.k0_pay1 (iblk0 V c 0 t) (iblk0 V c 1 t) (iblk0 V c 2 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window: each input its block, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- and the output the product-plus-bias of the three input blocks. -/
theorem after0_3 (c : Dev nD) (t : Fin cfg0.N) : (dat0 V c).after 3 t = Gen.k0_pay1 (iblk0 V c 0 t) (iblk0 V c 1 t) (iblk0 V c 2 t) := by
  dsimp only [dat0]

/-- Each input is fetched at the one point, and a fetch of an uncut window fills the whole staging buffer with the
    block: so the body finds each input's staging buffer at its block. -/
theorem before0_0 (c : Dev nD) (t : Fin cfg0.N) (d) : (dat0 V c).before 0 t d = iblk0 V c 0 t := by
  rw [(dat0 V c).before_fetched 0 t (fetch0_0 t) d]
  unfold Dat.fetched Dat.blockOf iblk0; rw [A_eq0]; rfl
theorem before0_1 (c : Dev nD) (t : Fin cfg0.N) (d) : (dat0 V c).before 1 t d = iblk0 V c 1 t := by
  rw [(dat0 V c).before_fetched 1 t (fetch0_1 t) d]
  unfold Dat.fetched Dat.blockOf iblk0; rw [A_eq0]; rfl
theorem before0_2 (c : Dev nD) (t : Fin cfg0.N) (d) : (dat0 V c).before 2 t d = iblk0 V c 2 t := by
  rw [(dat0 V c).before_fetched 2 t (fetch0_2 t) d]
  unfold Dat.fetched Dat.blockOf iblk0; rw [A_eq0]; rfl

/-! ## The body obligation -/

/-- What the body is called with at the point `t`: the invariant, what is owed, and the four staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at the point: the three input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at the call's one point. -/
theorem body_obligation0 (c : Dev nD) : BodyObligation (dat0 (F := F) V c) (defs₀ (F := F)) Variants.none () Set.univ := fun t => by
  rw [bigSep_W0, bigSep_W0]
  exact sound_body0 V c t

end Cert.Kernel.Hand
-- ==== Proof.K.Shares.lean ====
/-
  The shares at which the second and third kernel calls hold their windowed arrays.

  The second call reads the array `h` through TWO input windows (its contraction block and its row block),
  the third call reads `Y1` the same way. A window's array is held at one points-to per window, so an array
  that two input windows read is held at the two halves of the full share, one half per window; every other
  window holds its array at the full share. The halves compose back to the full share
  (`PosShare.mem_left_op_right`), which is what lets the array be split when the call is entered and rejoined
  when it is left.
-/
import Idealize.SL.RA.TreeShare

namespace Cert.Kernel.Hand

open Idealize.SL.RA

/-- Second call, six windows: windows 2 and 3 both read `h`. -/
abbrev q1 : Fin 6 → PosShare TreeShare
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨_ + 6, h⟩ => absurd h (Nat.not_lt.2 (Nat.le_add_left _ _))

/-- Third call, seven windows: windows 1 and 2 both read `Y1`. -/
abbrev q2 : Fin 7 → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨_ + 7, h⟩ => absurd h (Nat.not_lt.2 (Nat.le_add_left _ _))

end Cert.Kernel.Hand
-- ==== Proof.K.R1.lean ====
import proofs.«167914_g71622874628668_fold_wed_m_490_1_alg».proof.Proof.Gen.Kernel.Launch
import proofs.«167914_g71622874628668_fold_wed_m_490_1_alg».proof.Proof.Gen.Kernel.Skeleton
import proofs.«167914_g71622874628668_fold_wed_m_490_1_alg».proof.Proof.Gen.Kernel.Points
import proofs.«167914_g71622874628668_fold_wed_m_490_1_alg».proof.Proof.K.Shares
import Idealize.ShloMosaic.Lib.Pipeline.FrameBody
import Idealize.ShloMosaic.Lib.Pipeline.Kit
import Idealize.ShloMosaic.Lib.Pipeline.Value
import Idealize.ShloMosaic.Lib.Tactic

/-! # The second call: two block products accumulated along the contraction axis

The second call runs on a 16 x 16 grid. Write a position as n = 16 * i + k: i is the row block and k the
contraction block, k moving fastest. At position n the body holds a 512 x 512 block of the matrix `A`
(window 0) and of the matrix `D` (window 1), both at block (i, k), the 512 x 128 block k of `h` (window 2)
and the 512 x 128 block i of `h` (window 3). Two 512 x 128 accumulators are carried from position to
position:

* at k = 0 both are reset to zero;
* at every k the first gains `A(i,k) * h(k)`, the second `D(i,k) * h(k)`;
* at k = 15 the second is written out as block i of `D h` (window 5), and
  `1/2 * h(i) + 1/2 * (first) + 1/2 * (second)` as block i of `Y1` (window 4).

So three kinds of position occur: k = 0 (reset, then accumulate), 0 < k < 15 (accumulate), k = 15
(accumulate, then write out); 16 > 1, so no position is both the first and the last of its row block.
Everything is stated at the contents `V` the buffers hold when the call begins, and for any arithmetic `F`. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call begins
variable (V : (c : Dev nD) → (b : Ref sig .tc) → Buf (Elt F) ((c : Thread nD τ).loc b))

/-! ## The blocks and the two accumulations -/

/-- Window `w`'s block at position `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first accumulator after position `n`: the block of `A` at `n` times the contraction block of `h` at `n`,
    added to zero when `n` opens a row block (`n % 16 = 0`) and to the accumulator after `n - 1` otherwise. -/
def accA1 (c : Dev nD) : (n : ℕ) → n < cfg1.N → Vec F S512x128 .f32
  | 0, hn => Gen.k1_pay4 (iblk1 V c 2 ⟨0, hn⟩) (Gen.k1_pay1 : Vec F S512x128 .f32) (iblk1 V c 0 ⟨0, hn⟩)
  | n + 1, hn => Gen.k1_pay4 (iblk1 V c 2 ⟨n + 1, hn⟩)
      (if (n + 1) % 16 = 0 then (Gen.k1_pay1 : Vec F S512x128 .f32) else accA1 c n (Nat.lt_of_succ_lt hn))
      (iblk1 V c 0 ⟨n + 1, hn⟩)

/-- The second accumulator after position `n`: the same with the block of `D`. -/
def accD1 (c : Dev nD) : (n : ℕ) → n < cfg1.N → Vec F S512x128 .f32
  | 0, hn => Gen.k1_pay5 (iblk1 V c 2 ⟨0, hn⟩) (Gen.k1_pay2 : Vec F S512x128 .f32) (iblk1 V c 1 ⟨0, hn⟩)
  | n + 1, hn => Gen.k1_pay5 (iblk1 V c 2 ⟨n + 1, hn⟩)
      (if (n + 1) % 16 = 0 then (Gen.k1_pay2 : Vec F S512x128 .f32) else accD1 c n (Nat.lt_of_succ_lt hn))
      (iblk1 V c 1 ⟨n + 1, hn⟩)

/-- The first accumulator at a position that opens a row block starts from zero. -/
theorem accA1_reset (c : Dev nD) (t : Fin cfg1.N) (h : t.val % 16 = 0) :
    accA1 V c t.val t.isLt = Gen.k1_pay4 (iblk1 V c 2 t) (Gen.k1_pay1 : Vec F S512x128 .f32) (iblk1 V c 0 t) := by
  obtain ⟨n, hn⟩ := t
  cases n with
  | zero => rfl
  | succ n => exact congrArg (fun z => Gen.k1_pay4 (iblk1 V c 2 ⟨n + 1, hn⟩) z (iblk1 V c 0 ⟨n + 1, hn⟩)) (if_pos h)

/-- At any other position it continues from the position before. -/
theorem accA1_step (c : Dev nD) (t : Fin cfg1.N) (h : ¬t.val % 16 = 0) :
    accA1 V c t.val t.isLt = Gen.k1_pay4 (iblk1 V c 2 t)
      (accA1 V c (t.val - 1) (Nat.lt_of_le_of_lt (Nat.sub_le _ _) t.isLt)) (iblk1 V c 0 t) := by
  obtain ⟨n, hn⟩ := t
  cases n with
  | zero => exact absurd (Nat.zero_mod _) h
  | succ n => exact congrArg (fun z => Gen.k1_pay4 (iblk1 V c 2 ⟨n + 1, hn⟩) z (iblk1 V c 0 ⟨n + 1, hn⟩)) (if_neg h)

/-- The second accumulator at a position that opens a row block starts from zero. -/
theorem accD1_reset (c : Dev nD) (t : Fin cfg1.N) (h : t.val % 16 = 0) :
    accD1 V c t.val t.isLt = Gen.k1_pay5 (iblk1 V c 2 t) (Gen.k1_pay2 : Vec F S512x128 .f32) (iblk1 V c 1 t) := by
  obtain ⟨n, hn⟩ := t
  cases n with
  | zero => rfl
  | succ n => exact congrArg (fun z => Gen.k1_pay5 (iblk1 V c 2 ⟨n + 1, hn⟩) z (iblk1 V c 1 ⟨n + 1, hn⟩)) (if_pos h)

/-- At any other position it continues from the position before. -/
theorem accD1_step (c : Dev nD) (t : Fin cfg1.N) (h : ¬t.val % 16 = 0) :
    accD1 V c t.val t.isLt = Gen.k1_pay5 (iblk1 V c 2 t)
      (accD1 V c (t.val - 1) (Nat.lt_of_le_of_lt (Nat.sub_le _ _) t.isLt)) (iblk1 V c 1 t) := by
  obtain ⟨n, hn⟩ := t
  cases n with
  | zero => exact absurd (Nat.zero_mod _) h
  | succ n => exact congrArg (fun z => Gen.k1_pay5 (iblk1 V c 2 ⟨n + 1, hn⟩) z (iblk1 V c 1 ⟨n + 1, hn⟩)) (if_neg h)

/-! ## The invariant -/

/-- The two accumulators as whole buffers. -/
abbrev scA1 : Memref sig .tc .vmem S512x128 .f32 := Memref.whole cc1_scratch0
abbrev scD1 : Memref sig .tc .vmem S512x128 .f32 := Memref.whole cc1_scratch1

/-- The invariant before position `n`. Before the first position: every buffer the call does not stage, at any
    contents, and the generator register at some state. Afterwards the same, except that the two accumulators hold
    what the position before left in them. -/
def Phi1 (c : Dev nD) : (n : ℕ) → n ≤ cfg1.N → sProp 𝕄
  | 0, _ => Pipeline.ΦA spec1 c
  | n + 1, hn => iprop(owns (c : Thread nD τ) scA1 fullShare (accA1 V c n hn)
      ∗ owns (c : Thread nD τ) scD1 fullShare (accD1 V c n hn)
      ∗ Pipeline.scopedRestBut (Ix := Unit) (Name := ℕ) (U := UR sig nD τ) (Lvl := ℕ) (Val := Elt F) spec1 c [cc1_scratch0, cc1_scratch1]
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scA1 fullShare (accA1 V c n hn)
      ∗ owns (c : Thread nD τ) scD1 fullShare (accD1 V c n hn)
      ∗ Pipeline.scopedRestBut (Ix := Unit) (Name := ℕ) (U := UR sig nD τ) (Lvl := ℕ) (Val := Elt F) spec1 c [cc1_scratch0, cc1_scratch1]
      ∗ (∃ r, prngReg c r)) := rfl

theorem Phi1_pos (c : Dev nD) (n : ℕ) (h : n ≤ cfg1.N) (hz : n ≠ 0) :
    Phi1 V c n h = iprop(owns (c : Thread nD τ) scA1 fullShare (accA1 V c (n - 1) (by omega))
      ∗ owns (c : Thread nD τ) scD1 fullShare (accD1 V c (n - 1) (by omega))
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

/-! ## The call's data -/

/-- The call's data on core `c`: the arrays as found (`V`); after the body at position `t` each of the four inputs
    still holds its block, window 5 holds the second accumulator and window 4 the half-weighted sum of the row block
    of `h` and the two accumulators (both are read only where the position closes a row block); the invariant
    `Phi1`; nothing owed; `h`, which windows 2 and 3 both read, held at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Gen.k1_pay6 (accD1 V c t.val t.isLt) (iblk1 V c 3 t) (accA1 V c t.val t.isLt)
    | ⟨5, _⟩ => accD1 V c t.val t.isLt
  Φ t := Phi1 V c t.val (Nat.le_of_lt_succ t.isLt)
  q := q1
  owed _ := 0

/-- The data's arrays are the entry contents. -/
theorem A_eq1 (c : Dev nD) (w : Fin cfg1.W) : (dat1 V c).A w = V c (Pipeline.arrRef spec1 w) := by
  dsimp only [dat1]

/-- The data's shares. -/
theorem q_eq1 (c : Dev nD) : (dat1 V c).q = q1 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) (h : t.val % 16 = 15) :
    (dat1 V c).after 4 t = Gen.k1_pay6 (accD1 V c t.val t.isLt) (iblk1 V c 3 t) (accA1 V c t.val t.isLt) := by
  dsimp only [dat1]
theorem after1_5 (c : Dev nD) (t : Fin cfg1.N) (h : t.val % 16 = 15) :
    (dat1 V c).after 5 t = accD1 V c t.val t.isLt := by
  dsimp only [dat1]

/-! ## The two conditions of the body, in closed form -/

/-- The zero offsets of a whole-block access, however they are spelt. -/
theorem hz1 : (![0, 0] : Fin 2 → Nat) = fun _ => 0 := funext fun a => by fin_cases a <;> rfl

/-- The first condition of the body: the contraction index is 0. -/
abbrev cond1_0 (i : grid1.Coords) : Prop :=
  (Scalar.cmpi .ne (Scalar.extui (Scalar.cmpi .eq (BitVec.ofNat 32 (i 1).val) 0#32)) 0#32) = 1#1
/-- It holds exactly at the positions that open a row block. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second condition of the body: the contraction index is 15, the last. -/
abbrev cond1_1 (i : grid1.Coords) : Prop := k1_cond2 i = 1#1
/-- It holds exactly at the positions that close a row block. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The body on any whole buffers, case by case

In each case the buffers the case does not touch are left out: they stay with the caller. A whole-block store
leaves its payload, a whole-block load reads the contents, and a load that follows a store reads the stored payload. -/

set_option maxHeartbeats 1000000 in
/-- A position that opens a row block (k = 0): both accumulators, whatever they held, are reset to zero and then
    gain the position's products. -/
theorem run1_first (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x128 .f32) (harg9 : arg9.IsWhole)
    (hc0 : cond1_0 i) (hc1 : ¬cond1_1 i)
    (xA xD : Vec F S512x512 .f32) (xk : Vec F S512x128 .f32) (E : Set ℕ) (K : PUnit → sProp 𝕄) :
    iprop(owns (c : Thread nD τ) arg2 fullShare xA ∗ owns (c : Thread nD τ) arg3 fullShare xD ∗ owns (c : Thread nD τ) arg4 fullShare xk
        ∗ (∃ d, owns (c : Thread nD τ) arg8 fullShare d) ∗ (∃ d, owns (c : Thread nD τ) arg9 fullShare d)
        ∗ (iprop(owns (c : Thread nD τ) arg2 fullShare xA ∗ owns (c : Thread nD τ) arg3 fullShare xD ∗ owns (c : Thread nD τ) arg4 fullShare xk
            ∗ owns (c : Thread nD τ) arg8 fullShare (Gen.k1_pay4 xk (Gen.k1_pay1 : Vec F S512x128 .f32) xA)
            ∗ owns (c : Thread nD τ) arg9 fullShare (Gen.k1_pay5 xk (Gen.k1_pay2 : Vec F S512x128 .f32) xD)) -∗ K ⟨⟩))
      ⊢ wp frame (wpE (defs₀ (F := F)) Variants.none c none) E
          (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f2, %hf2, H2⟩, ⟨%f3, %hf3, H3⟩, ⟨%f4, %hf4, H4⟩, ⟨%d8, %f8, -, H8⟩, ⟨%d9, %f9, -, H9⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  iexists _; isplitr
  swap; · iexact H9
  ipureintro
  sl_unfold_run_names
  refine (View.read_writes_eq_canon _ _ _ (fun y => ⟨_, List.mem_cons_self, View.mem_set_unit_zero hz1 inb_S512x128_S512x128_0_0 y⟩)).trans ?_
  rw [View.canon_cons_unit_zero (S := S512x128) hz1]
  simp only [View.readAt_eq_ld, harg2.read_unread, harg3.read_unread, harg4.read_unread, harg5.read_unread, harg8.read_unread, harg9.read_unread,
    View.ld_unit_zero (S := S512x128) hz1, View.ld_unit_zero (S := S512x512) hz1, View.readCov_unit_zero (S := S512x128) _ hz1]

set_option maxHeartbeats 1000000 in
/-- A position inside a row block (0 < k < 15): each accumulator gains the position's product. -/
theorem run1_mid (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x128 .f32) (harg9 : arg9.IsWhole)
    (hc0 : ¬cond1_0 i) (hc1 : ¬cond1_1 i)
    (xA xD : Vec F S512x512 .f32) (xk xs0 xs1 : Vec F S512x128 .f32) (E : Set ℕ) (K : PUnit → sProp 𝕄) :
    iprop(owns (c : Thread nD τ) arg2 fullShare xA ∗ owns (c : Thread nD τ) arg3 fullShare xD ∗ owns (c : Thread nD τ) arg4 fullShare xk
        ∗ owns (c : Thread nD τ) arg8 fullShare xs0 ∗ owns (c : Thread nD τ) arg9 fullShare xs1
        ∗ (iprop(owns (c : Thread nD τ) arg2 fullShare xA ∗ owns (c : Thread nD τ) arg3 fullShare xD ∗ owns (c : Thread nD τ) arg4 fullShare xk
            ∗ owns (c : Thread nD τ) arg8 fullShare (Gen.k1_pay4 xk xs0 xA)
            ∗ owns (c : Thread nD τ) arg9 fullShare (Gen.k1_pay5 xk xs1 xD)) -∗ K ⟨⟩))
      ⊢ wp frame (wpE (defs₀ (F := F)) Variants.none c none) E
          (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f2, %hf2, H2⟩, ⟨%f3, %hf3, H3⟩, ⟨%f4, %hf4, H4⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  iexists _; isplitr
  swap; · iexact H9
  ipureintro
  sl_unfold_run_names
  refine (View.read_writes_eq_canon _ _ _ (fun y => ⟨_, List.mem_cons_self, View.mem_set_unit_zero hz1 inb_S512x128_S512x128_0_0 y⟩)).trans ?_
  rw [View.canon_cons_unit_zero (S := S512x128) hz1]
  simp only [View.readAt_eq_ld, harg2.read_unread, harg3.read_unread, harg4.read_unread, harg5.read_unread, harg8.read_unread, harg9.read_unread,
    View.ld_unit_zero (S := S512x128) hz1, View.ld_unit_zero (S := S512x512) hz1, View.readCov_unit_zero (S := S512x128) _ hz1]

set_option maxHeartbeats 1000000 in
/-- A position that closes a row block (k = 15): each accumulator gains the position's product; then window 5's
    buffer receives the second accumulator, and window 4's the half-weighted sum of the row block of `h` and the
    two accumulators. -/
theorem run1_last (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x128 .f32) (harg9 : arg9.IsWhole)
    (hc0 : ¬cond1_0 i) (hc1 : cond1_1 i)
    (xA xD : Vec F S512x512 .f32) (xk xi xs0 xs1 : Vec F S512x128 .f32) (E : Set ℕ) (K : PUnit → sProp 𝕄) :
    iprop(owns (c : Thread nD τ) arg2 fullShare xA ∗ owns (c : Thread nD τ) arg3 fullShare xD ∗ owns (c : Thread nD τ) arg4 fullShare xk ∗ owns (c : Thread nD τ) arg5 fullShare xi
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg2 fullShare xA ∗ owns (c : Thread nD τ) arg3 fullShare xD ∗ owns (c : Thread nD τ) arg4 fullShare xk ∗ owns (c : Thread nD τ) arg5 fullShare xi
            ∗ owns (c : Thread nD τ) arg6 fullShare (Gen.k1_pay6 (Gen.k1_pay5 xk xs1 xD) xi (Gen.k1_pay4 xk xs0 xA))
            ∗ owns (c : Thread nD τ) arg7 fullShare (Gen.k1_pay5 xk xs1 xD)
            ∗ owns (c : Thread nD τ) arg8 fullShare (Gen.k1_pay4 xk xs0 xA)
            ∗ owns (c : Thread nD τ) arg9 fullShare (Gen.k1_pay5 xk xs1 xD)) -∗ K ⟨⟩))
      ⊢ wp frame (wpE (defs₀ (F := F)) Variants.none c none) E
          (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  isplitl [H7]
  · iexists _; isplitr
    swap; · iexact H7
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  isplitl [H8]
  · iexists _; isplitr
    swap; · iexact H8
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  iexists _; isplitr
  swap; · iexact H9
  ipureintro
  sl_unfold_run_names
  refine (View.read_writes_eq_canon _ _ _ (fun y => ⟨_, List.mem_cons_self, View.mem_set_unit_zero hz1 inb_S512x128_S512x128_0_0 y⟩)).trans ?_
  rw [View.canon_cons_unit_zero (S := S512x128) hz1]
  simp only [View.readAt_eq_ld, harg2.read_unread, harg3.read_unread, harg4.read_unread, harg5.read_unread, harg8.read_unread, harg9.read_unread,
    View.ld_unit_zero (S := S512x128) hz1, View.ld_unit_zero (S := S512x512) hz1, View.readCov_unit_zero (S := S512x128) _ hz1]

/-! ## The staging buffers, and where windows 4 and 5 are written -/

/-- Each window's current staging buffer at position `t`, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)

/-- The four input windows are written at every position. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- Windows 4 and 5 are left alone, and not written back, at a position that does not close a row block; -/
theorem idleAt1_4 (t : Fin cfg1.N) (h : ¬t.val % 16 = 15) : cfg1.idle 4 (grid1.coords t) = true := by
  have hne : ¬(k1_cond2 (grid1.coords t) = 1#1) := fun e => h ((hcond1_1 t).mp e)
  show (!(k1_cond2 (grid1.coords t) == 1#1)) = true
  rw [beq_false_of_ne hne]; rfl
theorem idleAt1_5 (t : Fin cfg1.N) (h : ¬t.val % 16 = 15) : cfg1.idle 5 (grid1.coords t) = true := by
  have hne : ¬(k1_cond2 (grid1.coords t) = 1#1) := fun e => h ((hcond1_1 t).mp e)
  show (!(k1_cond2 (grid1.coords t) == 1#1)) = true
  rw [beq_false_of_ne hne]; rfl
theorem noFlush1_4 (t : Fin cfg1.N) (h : ¬t.val % 16 = 15) : (cfg1.win 4).flush t = false := by
  cases hf : (cfg1.win 4).flush t
  · rfl
  · exact absurd ((flush1_4 t).mp hf) h
theorem noFlush1_5 (t : Fin cfg1.N) (h : ¬t.val % 16 = 15) : (cfg1.win 5).flush t = false := by
  cases hf : (cfg1.win 5).flush t
  · rfl
  · exact absurd ((flush1_5 t).mp hf) h
/-- and written at a position that does. -/
theorem liveAt1_4 (t : Fin cfg1.N) (h : t.val % 16 = 15) : cfg1.idle 4 (grid1.coords t) = false := by
  have he : k1_cond2 (grid1.coords t) = 1#1 := (hcond1_1 t).mpr h
  show (!(k1_cond2 (grid1.coords t) == 1#1)) = false
  rw [he]; rfl
theorem liveAt1_5 (t : Fin cfg1.N) (h : t.val % 16 = 15) : cfg1.idle 5 (grid1.coords t) = false := by
  have he : k1_cond2 (grid1.coords t) = 1#1 := (hcond1_1 t).mpr h
  show (!(k1_cond2 (grid1.coords t) == 1#1)) = false
  rw [he]; rfl

/-! ## What the input buffers hold when the body runs -/

/-- Each input's current staging buffer holds its block at every position, fetched there or not: where it is not
    fetched its block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The invariant opened -/

/-- The buffers the call does not stage, with its two accumulators singled out. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- What the call is entered with, the two accumulators as whole buffers at some contents. -/
theorem PhiA1_eq (c : Dev nD) :
    (Pipeline.ΦA spec1 c : sProp 𝕄)
      = iprop(iprop(iprop((∃ d, owns (c : Thread nD τ) scA1 fullShare d) ∗ (∃ d, owns (c : Thread nD τ) scD1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scA1, scD1, owns_whole]; try rfl

/-- The invariant at a position's start, restated at `t.val`. -/
theorem Phi1_castSucc (c : Dev nD) (t : Fin cfg1.N) :
    (dat1 V c).Φ t.castSucc = Phi1 V c t.val (Nat.le_of_lt t.isLt) := rfl

/-! ## The body obligation, at a generic position -/

/-- What the body is called with at position `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any position. The inputs' buffers hold their blocks; the position's remainder mod 16 says which of
    the three cases it is in; the invariant hands the body the two accumulators at what the position before left
    (at anything, at the very first position) and takes them back at this position's accumulations; where the
    position does not close a row block the buffers of windows 4 and 5 go back as they came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 16 = 0
  · have h15 : ¬t.val % 16 = 15 := by omega
    rw [Dat.leavesExact_idle (dat1 V c) 4 t (idleAt1_4 t h15) (noFlush1_4 t h15),
      Dat.leavesExact_idle (dat1 V c) 5 t (idleAt1_5 t h15) (noFlush1_5 t h15)]
    rw [accA1_reset V c t h0, accD1_reset V c t h0]
    by_cases hz : t.val = 0
    · rw [Phi1_castSucc V c t, Phi1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (run1_first c (grid1.coords t) _ _ _ _ _ _ _ _ _ _ _ _ _ _ _ _ ((hcond1_0 t).mpr h0) (fun h => h15 ((hcond1_1 t).mp h)) (iblk1 V c 0 t) (iblk1 V c 1 t) (iblk1 V c 2 t) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi1_castSucc V c t, Phi1_pos V c _ _ hz]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run1_first c (grid1.coords t) _ _ _ _ _ _ _ _ _ _ _ _ _ _ _ _ ((hcond1_0 t).mpr h0) (fun h => h15 ((hcond1_1 t).mp h)) (iblk1 V c 0 t) (iblk1 V c 1 t) (iblk1 V c 2 t) Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    rw [accA1_step V c t h0, accD1_step V c t h0]
    rw [Phi1_castSucc V c t, Phi1_pos V c _ _ hz]
    by_cases h15 : t.val % 16 = 15
    · rw [show (dat1 V c).leavesExact 4 t = owns (c : Thread nD τ) (ms1_4 t) fullShare ((dat1 V c).after 4 t) from by
        unfold Dat.leavesExact; rw [liveAt1_4 t h15], after1_4 V c t h15]
      rw [show (dat1 V c).leavesExact 5 t = owns (c : Thread nD τ) (ms1_5 t) fullShare ((dat1 V c).after 5 t) from by
        unfold Dat.leavesExact; rw [liveAt1_5 t h15], after1_5 V c t h15]
      rw [accA1_step V c t h0, accD1_step V c t h0]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run1_last c (grid1.coords t) _ _ _ _ _ _ _ _ _ _ _ _ _ _ _ _ (fun h => h0 ((hcond1_0 t).mp h)) ((hcond1_1 t).mpr h15) (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idleAt1_4 t h15) (noFlush1_4 t h15),
        Dat.leavesExact_idle (dat1 V c) 5 t (idleAt1_5 t h15) (noFlush1_5 t h15)]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run1_mid c (grid1.coords t) _ _ _ _ _ _ _ _ _ _ _ _ _ _ _ _ (fun h => h0 ((hcond1_0 t).mp h)) (fun h => h15 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-! ## The three statements the run of the whole program takes -/

/-- The body's obligation at every position. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first position. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any position but the first the invariant gives back what the call was entered with: what the two
    accumulators hold is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

/-- The same after the last position. -/
theorem hout1 (c : Dev nD) : (dat1 V c).Φ (Fin.last cfg1.N) ⊢ Pipeline.ΦA spec1 c :=
  Phi1_out V c _ (by rw [Fin.val_last]; have : cfg1.N = 256 := N_1; omega)

end Cert.Kernel.Hand
-- ==== Proof.K.R2.lean ====
import proofs.«167914_g71622874628668_fold_wed_m_490_1_alg».proof.Proof.Gen.Kernel.Launch
import proofs.«167914_g71622874628668_fold_wed_m_490_1_alg».proof.Proof.Gen.Kernel.Skeleton
import proofs.«167914_g71622874628668_fold_wed_m_490_1_alg».proof.Proof.Gen.Kernel.Points
import proofs.«167914_g71622874628668_fold_wed_m_490_1_alg».proof.Proof.K.Shares
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

/-! # The third call: the second propagation step, accumulated over sixteen column blocks, with the last layer fused

The grid is 16 x 16; the position `n` of a point is `16 * i + k` with `k = n % 16` innermost. At the point
`(i, k)` the body sees the block `(i, k)` of the propagation matrix `A` (512 x 512), the row block `k` of `Y1`
(512 x 128, the contraction operand), and — constant along `k` — the row block `i` of `Y1` and of `D h`, the
whole last-layer weights (128 x 64) and the whole bias row (1 x 64).

One accumulator (512 x 128) is carried from point to point: at `k = 0` it is reset to zero, at every point the
product of the `A` block with the `Y1` contraction block is added to it, and at `k = 15` — when it holds row block
`i` of `A * Y1` — the output block `i` (512 x 64) is written:
`max (1/2 * Y1_i + 1/2 * acc + 1/2 * (D h)_i) 0 * W + bias`. At the other points the output's buffer is not touched.

So a point is in one of three cases: `k = 0` (reset, then accumulate), `0 < k < 15` (accumulate), `k = 15`
(accumulate, then write the output block). `Y1` is read through two windows, so its array is held at the two halves
of the full share, one per window. Everything is stated at the contents `V` the buffers hold when the call begins. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the buffer contents when the call begins
variable (V : (c : Dev nD) → (b : Ref sig .tc) → Buf (Elt F) ((c : Thread nD τ).loc b))

/-! ## The two conditions of the body, in closed form -/

/-- The condition of the reset: the column block index `k` is zero. -/
abbrev cond2_0 (i : grid2.Coords) : Prop := (Scalar.cmpi .ne (Scalar.extui (Scalar.cmpi .eq (BitVec.ofNat 32 (i 1).val) 0#32)) 0#32) = 1#1
/-- The reset's condition holds exactly at the positions that are multiples of 16. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the output's store: `k` is the last column block, 15. -/
abbrev cond2_1 (i : grid2.Coords) : Prop := k2_cond2 i = 1#1
/-- The condition of the output's store holds exactly at the positions that are 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are written -/

/-- The six inputs are read at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
/-- At a point off the last column block the body stores nothing into the output's buffer. -/
theorem idleAt2_6 : ∀ t : Fin cfg2.N, ¬cond2_1 (grid2.coords t) → cfg2.idle 6 (grid2.coords t) = true := by decide +kernel
/-- At a point off the last column block the output's block is not written back to its array. -/
theorem noFlush2_6 : ∀ t : Fin cfg2.N, ¬cond2_1 (grid2.coords t) → (cfg2.win 6).flush t = false := by decide +kernel
/-- At a point of the last column block the body stores into the output's buffer. -/
theorem liveAt2_6 : ∀ t : Fin cfg2.N, cond2_1 (grid2.coords t) → cfg2.idle 6 (grid2.coords t) = false := by decide +kernel

/-! ## The buffers the body is called with -/

/-- Each window's current buffer at the point `t`, and that it is a whole buffer. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x64 .f32 := win2_6.stage (cfg2.slots t 6)
abbrev hs2_6 (t : Fin cfg2.N) : (ms2_6 t).IsWhole := hstage2_6 ((cfg2.slots t 6).cast nbuf2_6)
/-- The carried accumulator, as a memref on its whole buffer. -/
abbrev scM2 : Memref sig .tc .vmem S512x128 .f32 := Memref.whole cc2_scratch0
abbrev hscM2 : scM2.IsWhole := Memref.isWhole_whole _

/-- Every load and store of the body is through the whole-block rectangle at offsets zero. -/
theorem hz2 : (![0, 0] : Fin 2 → Nat) = fun _ => 0 := funext fun a => by
  match a with
  | ⟨0, _⟩ => rfl
  | ⟨1, _⟩ => rfl

/-! ## The body's run in each of the three cases

Each is stated on any whole buffers: the inputs the case reads at given contents, the accumulator at given
contents (at anything where the case resets it first), the output's buffer at anything where the case stores into
it; the body runs to the same inputs, and the buffers it stored into with the stores written, as the list of pieces
the run finds (last store first). -/

set_option maxHeartbeats 1000000 in
/-- `k = 0`: the accumulator is reset, then the product of the `A` block `x0` and the contraction block `x1` is added. -/
noncomputable def kernelRun2_A (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__pass2_kernel i arg2 harg2 arg3 harg3 arg4 harg4 arg5 harg5 arg6 harg6 arg7 harg7 arg8 harg8 arg9 harg9) K } := by
  refine ⟨?_, fun E K => ?run⟩
  case run =>
    simp only [cc2__pass2_kernel_eq_skeleton]; unfold cc2__pass2_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- `0 < k < 15`: the product of the `A` block `x0` and the contraction block `x1` is added to the accumulator's `xs`. -/
noncomputable def kernelRun2_B (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__pass2_kernel i arg2 harg2 arg3 harg3 arg4 harg4 arg5 harg5 arg6 harg6 arg7 harg7 arg8 harg8 arg9 harg9) K } := by
  refine ⟨?_, fun E K => ?run⟩
  case run =>
    simp only [cc2__pass2_kernel_eq_skeleton]; unfold cc2__pass2_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- `k = 15`: the product is added to the accumulator's `xs`; then the output block is stored, computed from the row
    blocks `x2` of `Y1` and `x3` of `D h`, the finished accumulator, the weights `x4` and the bias row `x5`. -/
noncomputable def kernelRun2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32) :
    Σ' (L6 : List (View.Piece (Elt F) S512x64 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc2__pass2_kernel i arg2 harg2 arg3 harg3 arg4 harg4 arg5 harg5 arg6 harg6 arg7 harg7 arg8 harg8 arg9 harg9) K } := by
  refine ⟨?_, ?_, fun E K => ?run⟩
  case run =>
    simp only [cc2__pass2_kernel_eq_skeleton]; unfold cc2__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

/-! ## What each case leaves, read back

The pieces a case's run finds cover the buffer (each store is of the whole block), so whatever the buffer held
before, it reads afterwards as the last store's value; a load of the accumulator after a store of the same run
reads that store's value. -/

theorem scover2_A (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32) (y : S512x128.Idx) :
    ∃ pc ∈ (kernelRun2_A c i arg2 harg2 arg3 harg3 arg4 harg4 arg5 harg5 arg6 harg6 arg7 harg7 arg8 harg8 arg9 harg9 hc0 hc1 x0 x1).1, y ∈ pc.1.set :=
  View.cover_of_tiledL (kernelRun2_A c i arg2 harg2 arg3 harg3 arg4 harg4 arg5 harg5 arg6 harg6 arg7 harg7 arg8 harg8 arg9 harg9 hc0 hc1 x0 x1).1 S512x128.size (by sl_kernel_rfl) y

theorem scover2_B (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (xs : Vec F S512x128 .f32) (y : S512x128.Idx) :
    ∃ pc ∈ (kernelRun2_B c i arg2 harg2 arg3 harg3 arg4 harg4 arg5 harg5 arg6 harg6 arg7 harg7 arg8 harg8 arg9 harg9 hc0 hc1 x0 x1 xs).1, y ∈ pc.1.set :=
  View.cover_of_tiledL (kernelRun2_B c i arg2 harg2 arg3 harg3 arg4 harg4 arg5 harg5 arg6 harg6 arg7 harg7 arg8 harg8 arg9 harg9 hc0 hc1 x0 x1 xs).1 S512x128.size (by sl_kernel_rfl) y

theorem cover2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32) (y : S512x64.Idx) :
    ∃ pc ∈ (kernelRun2_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs).1 S512x64.size (by sl_kernel_rfl) y

theorem scover2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32) (y : S512x128.Idx) :
    ∃ pc ∈ (kernelRun2_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs).2.1 S512x128.size (by sl_kernel_rfl) y

/-- `k = 0` leaves the accumulator at zero plus the product of the two blocks. -/
theorem sread2_A (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32)
    {κ : Kind} {sp : Space} (v : View sig κ sp S512x128 .f32) (f : v.ty.Contents (Elt F)) :
    v.read (Elt F) (v.writes (Elt F) f (kernelRun2_A c i arg2 harg2 arg3 harg3 arg4 harg4 arg5 harg5 arg6 harg6 arg7 harg7 arg8 harg8 arg9 harg9 hc0 hc1 x0 x1).1) = Gen.k2_pay2 (Gen.k2_pay1 (F := F)) x0 x1 := by
  rw [View.read_writes_eq_canon _ _ _ (scover2_A c i arg2 harg2 arg3 harg3 arg4 harg4 arg5 harg5 arg6 harg6 arg7 harg7 arg8 harg8 arg9 harg9 hc0 hc1 x0 x1)]
  unfold kernelRun2_A
  dsimp only
  try sl_unfold_words
  rw [View.canon_cons_unit_zero (S := S512x128) hz2]
  simp only [View.readAt_eq_ld, harg2.read_unread, harg3.read_unread, View.ld_unit_zero (S := S512x512) hz2, View.ld_unit_zero (S := S512x128) hz2, View.readCov_unit_zero (S := S512x128) _ hz2]

/-- `0 < k < 15` leaves the accumulator at what it held plus the product of the two blocks. -/
theorem sread2_B (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (xs : Vec F S512x128 .f32)
    {κ : Kind} {sp : Space} (v : View sig κ sp S512x128 .f32) (f : v.ty.Contents (Elt F)) :
    v.read (Elt F) (v.writes (Elt F) f (kernelRun2_B c i arg2 harg2 arg3 harg3 arg4 harg4 arg5 harg5 arg6 harg6 arg7 harg7 arg8 harg8 arg9 harg9 hc0 hc1 x0 x1 xs).1) = Gen.k2_pay2 xs x0 x1 := by
  rw [View.read_writes_eq_canon _ _ _ (scover2_B c i arg2 harg2 arg3 harg3 arg4 harg4 arg5 harg5 arg6 harg6 arg7 harg7 arg8 harg8 arg9 harg9 hc0 hc1 x0 x1 xs)]
  unfold kernelRun2_B
  dsimp only
  try sl_unfold_words
  rw [View.canon_unit_zero (S := S512x128) hz2]
  simp only [View.readAt_eq_ld, harg2.read_unread, harg3.read_unread, harg9.read_unread, View.ld_unit_zero (S := S512x512) hz2, View.ld_unit_zero (S := S512x128) hz2]

/-- `k = 15` leaves the accumulator at what it held plus the product of the two blocks. -/
theorem sread2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32)
    {κ : Kind} {sp : Space} (v : View sig κ sp S512x128 .f32) (f : v.ty.Contents (Elt F)) :
    v.read (Elt F) (v.writes (Elt F) f (kernelRun2_C c i arg2 harg2 arg3 harg3 arg4 harg4 arg5 harg5 arg6 harg6 arg7 harg7 arg8 harg8 arg9 harg9 hc0 hc1 x0 x1 x2 x3 x4 x5 xs).2.1) = Gen.k2_pay2 xs x0 x1 := by
  rw [View.read_writes_eq_canon _ _ _ (scover2_C c i arg2 harg2 arg3 harg3 arg4 harg4 arg5 harg5 arg6 harg6 arg7 harg7 arg8 harg8 arg9 harg9 hc0 hc1 x0 x1 x2 x3 x4 x5 xs)]
  unfold kernelRun2_C
  dsimp only
  try sl_unfold_words
  rw [View.canon_unit_zero (S := S512x128) hz2]
  simp only [View.readAt_eq_ld, harg2.read_unread, harg3.read_unread, harg9.read_unread, View.ld_unit_zero (S := S512x512) hz2, View.ld_unit_zero (S := S512x128) hz2]

/-- `k = 15` leaves the output's buffer at the last layer applied to the row blocks of `Y1` and `D h` and the finished
    accumulator (what it held plus the product of the two blocks), with the weights and the bias row. -/
theorem oread2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32)
    {κ : Kind} {sp : Space} (v : View sig κ sp S512x64 .f32) (f : v.ty.Contents (Elt F)) :
    v.read (Elt F) (v.writes (Elt F) f (kernelRun2_C c i arg2 harg2 arg3 harg3 arg4 harg4 arg5 harg5 arg6 harg6 arg7 harg7 arg8 harg8 arg9 harg9 hc0 hc1 x0 x1 x2 x3 x4 x5 xs).1) = Gen.k2_pay3 x2 (Gen.k2_pay2 xs x0 x1) x3 x4 x5 := by
  rw [View.read_writes_eq_canon _ _ _ (cover2_C c i arg2 harg2 arg3 harg3 arg4 harg4 arg5 harg5 arg6 harg6 arg7 harg7 arg8 harg8 arg9 harg9 hc0 hc1 x0 x1 x2 x3 x4 x5 xs)]
  unfold kernelRun2_C
  dsimp only
  try sl_unfold_words
  rw [View.canon_unit_zero (S := S512x64) hz2]
  simp only [View.readAt_eq_ld, harg2.read_unread, harg3.read_unread, harg4.read_unread, harg5.read_unread, harg6.read_unread, harg7.read_unread, harg9.read_unread, View.ld_unit_zero (S := S512x512) hz2, View.ld_unit_zero (S := S512x128) hz2, View.ld_unit_zero (S := S128x64) hz2, View.ld_unit_zero (S := S1x64) hz2, View.readCov_unit_zero (S := S512x128) _ hz2]

/-! ## The windows' blocks and the accumulator -/

/-- Window `w`'s block at the point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the point at position `n`: the product of that point's `A` block and `Y1` contraction
    block added to zero when `n % 16 = 0` (a new row block begins), else to what the point before left. After the
    point `16 * i + k` it is the sum over the column blocks `0 .. k` of row block `i`. -/
def acc2 (c : Dev nD) : (n : ℕ) → n < cfg2.N → Vec F S512x128 .f32
  | 0, hn => Gen.k2_pay2 (Gen.k2_pay1 (F := F)) (iblk2 V c 0 ⟨0, hn⟩) (iblk2 V c 1 ⟨0, hn⟩)
  | n + 1, hn =>
    Gen.k2_pay2 (if (n + 1) % 16 = 0 then Gen.k2_pay1 (F := F) else acc2 c n (Nat.lt_of_succ_lt hn))
      (iblk2 V c 0 ⟨n + 1, hn⟩) (iblk2 V c 1 ⟨n + 1, hn⟩)

/-- At a position that is a multiple of 16 (first column block of a row block) the accumulator is zero plus that
    point's product. -/
theorem acc2_at_reset (c : Dev nD) (t : Fin cfg2.N) (h : t.val % 16 = 0) :
    acc2 V c t.val t.isLt = Gen.k2_pay2 (Gen.k2_pay1 (F := F)) (iblk2 V c 0 t) (iblk2 V c 1 t) := by
  obtain ⟨n, hn⟩ := t
  cases n with
  | zero => rfl
  | succ n => exact congrArg (fun z => Gen.k2_pay2 z (iblk2 V c 0 ⟨n + 1, hn⟩) (iblk2 V c 1 ⟨n + 1, hn⟩)) (if_pos h)

/-- At a position that is not a multiple of 16 the accumulator is what the point before left plus this point's
    product. -/
theorem acc2_at_step (c : Dev nD) (t : Fin cfg2.N) (h : ¬t.val % 16 = 0) :
    acc2 V c t.val t.isLt = Gen.k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact congrArg (fun z => Gen.k2_pay2 z (iblk2 V c 0 ⟨n + 1, hn⟩) (iblk2 V c 1 ⟨n + 1, hn⟩)) (if_neg h)

/-! ## The invariant -/

/-- The core's buffers that no window of this call stages, the accumulator apart, each at some contents. -/
abbrev others2 (c : Dev nD) : sProp 𝕄 :=
  Pipeline.scopedRestBut (Ix := Unit) (Name := ℕ) (U := UR sig nD τ) (Lvl := ℕ) (Val := Elt F) spec2 c [cc2_scratch0]

/-- The invariant before position `n`. Before the first point: the core's buffers no window stages, each at some
    contents, and the generator register at some state. Afterwards the same, except that the accumulator holds
    `acc2` of the point before. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-- The buffers no window stages, with the accumulator's set apart. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others2 c) :=
  Pipeline.scopedRest_split_of_list spec2 c [cc2_scratch0] (by decide) (by decide)

/-- What the call is entered with, the accumulator as a memref at some contents. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA; rw [scopedRest2_split]; simp only [scM2, owns_whole]; try rfl

/-- At any position the invariant gives the accumulator at some contents: its named contents are forgotten. -/
theorem Phi2_any (c : Dev nD) (n : ℕ) (h : n ≤ cfg2.N) :
    Phi2 V c n h ⊢ iprop(iprop((∃ d, owns (c : Thread nD τ) scM2 fullShare d) ∗ others2 c) ∗ (∃ r, prngReg c r)) := by
  cases n with
  | zero => rw [Phi2_zero V c 0 h rfl, PhiA2_eq]
  | succ n =>
    rw [Phi2_succ]
    iintro ⟨⟨HS, HR⟩, Hg⟩
    isplitl [HS HR]
    · isplitl [HS]
      · iexists _; iexact HS
      iexact HR
    iexact Hg

/-! ## The call's data -/

/-- The call's data on core `c`: the arrays as found (`V`); after the body each of the six inputs still holds its
    block; the output's buffer holds the last layer applied to `1/2 * Y1_i + 1/2 * acc + 1/2 * (D h)_i` with `acc` the
    accumulator after this point (written at `k = 15` only, and read by the write-back there only); the invariant
    carries the accumulator; nothing is owed; `Y1` is held at the two half shares, every other array at the full one. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => Gen.k2_pay3 (iblk2 V c 2 t) (acc2 V c t.val t.isLt) (iblk2 V c 3 t) (iblk2 V c 4 t) (iblk2 V c 5 t)
  Φ t := Phi2 V c t.val (Nat.le_of_lt_succ t.isLt)
  q := q2
  owed _ := 0

/-- The data's arrays are the entry contents. -/
theorem A_eq2 (c : Dev nD) (w : Fin cfg2.W) : (dat2 V c).A w = V c (Pipeline.arrRef spec2 w) := by
  dsimp only [dat2]

/-- The data's shares: the two halves for the two windows on `Y1`, the full share elsewhere. -/
theorem q_eq2 (c : Dev nD) : (dat2 V c).q = q2 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6_all (c : Dev nD) (t : Fin cfg2.N) :
    (dat2 V c).after 6 t = Gen.k2_pay3 (iblk2 V c 2 t) (acc2 V c t.val t.isLt) (iblk2 V c 3 t) (iblk2 V c 4 t) (iblk2 V c 5 t) := by
  dsimp only [dat2]

/-- What the body leaves in the output window at the last column block: the last layer of the three row blocks and
    the finished accumulator. -/
theorem after2_6 (c : Dev nD) (t : Fin cfg2.N) (h : t.val % 16 = 15) :
    (dat2 V c).after 6 t = Gen.k2_pay3 (iblk2 V c 2 t) (acc2 V c t.val t.isLt) (iblk2 V c 3 t) (iblk2 V c 4 t) (iblk2 V c 5 t) :=
  after2_6_all V c t

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- Each input's current buffer holds its block at every point, whether or not it was fetched there: where it was
    not, the block index has not moved since the point before. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- After the body each input's buffer is left at its block. -/
theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leaves2_3 (c : Dev nD) (t : Fin cfg2.N) : (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from by
    unfold Dat.leavesExact; rw [liveAt2_3 t], after2_3]
theorem leaves2_4 (c : Dev nD) (t : Fin cfg2.N) : (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from by
    unfold Dat.leavesExact; rw [liveAt2_4 t], after2_4]
theorem leaves2_5 (c : Dev nD) (t : Fin cfg2.N) : (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from by
    unfold Dat.leavesExact; rw [liveAt2_5 t], after2_5]

/-! ## The body's obligation -/

/-- What the body is called with at the point `t`: the invariant, what the core owes (nothing), and each window's
    current buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- What the body returns at the point `t`: the invariant of the next position, what the core owes (nothing), and
    each window's current buffer at what the body leaves there. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks; the position modulo 16 says which case the point
    is in. At `k = 0` the accumulator is taken at anything and given back at zero plus the product; at `k > 0` it is
    taken at what the point before left and given back with the product added, which is `acc2` at this point. Off
    `k = 15` the output's buffer is handed back untouched; at `k = 15` it is given back at the last layer of the row
    blocks and the finished accumulator. Nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4, leaves2_5]
  rw [Phi2_castSucc V c t]
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 6 t (idleAt2_6 t hc1) (noFlush2_6 t hc1)]
    rw [acc2_at_reset V c t h0]
    iintro ⟨HP, Ho, ⟨%d0, H0⟩, ⟨%d1, H1⟩, ⟨%d2, H2⟩, ⟨%d3, H3⟩, ⟨%d4, H4⟩, ⟨%d5, H5⟩, H6⟩
    ihave HP' := (Phi2_any V c t.val (Nat.le_of_lt t.isLt)) $$ HP
    icases HP' with ⟨⟨HS, HR⟩, Hg⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t)).2 Set.univ _)
    isplitl [H0]; · iexact H0
    isplitl [H1]; · iexact H1
    isplitl [HS]; · iexact HS
    iintro ⟨H0, H1, ⟨%es, HS⟩⟩
    isplitl [HS HR Hg]
    · isplitl [HS HR]
      · isplitl [HS]
        · unfold owns; iexists _; isplitr
          swap; · iexact HS
          ipureintro
          exact sread2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) scM2.view es
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := by omega
    have hc0 : ¬cond2_0 (grid2.coords t) := fun h => h0 ((hcond2_0 t).mp h)
    rw [acc2_at_step V c t h0, Phi2_pos V c _ _ hz]
    by_cases h1 : t.val % 16 = 15
    · have hc1 : cond2_1 (grid2.coords t) := (hcond2_1 t).mpr h1
      rw [show (dat2 V c).leavesExact 6 t = owns (c : Thread nD τ) (ms2_6 t) fullShare ((dat2 V c).after 6 t) from by
        unfold Dat.leavesExact; rw [liveAt2_6 t hc1], after2_6_all, acc2_at_step V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HR Hg]
      · isplitl [HS HR]
        · isplitl [HS]
          · unfold owns; iexists _; isplitr
            swap; · iexact HS
            ipureintro
            exact sread2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) scM2.view es
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact oread2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) (ms2_6 t).view e6
    · have hc1 : ¬cond2_1 (grid2.coords t) := fun h => h1 ((hcond2_1 t).mp h)
      rw [Dat.leavesExact_idle (dat2 V c) 6 t (idleAt2_6 t hc1) (noFlush2_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (acc2 V c (t.val - 1) (Nat.lt_of_le_of_lt (Nat.sub_le _ _) t.isLt))).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro
            exact sread2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (acc2 V c (t.val - 1) (Nat.lt_of_le_of_lt (Nat.sub_le _ _) t.isLt)) scM2.view es
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body's obligation, at every point. -/
theorem body_obligation2 (c : Dev nD) : BodyObligation (dat2 (F := F) V c) (defs₀ (F := F)) Variants.none () Set.univ := fun t => by
  rw [bigSep_W2, bigSep_W2]
  exact sound_body2 V c t

/-- What the call is entered with is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives back what the call was entered with: the accumulator's contents are
    forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl, PhiA2_eq]
  exact Phi2_any V c _ _

end Cert.Kernel.Hand
-- ==== Proof.K.Arr1.lean ====
/-
  The second kernel call's windowed arrays among the core's main-memory buffers.

  The call has six windows over FIVE arrays: its third and fourth windows, both inputs, read one array (the
  first call's result), once by contraction block and once by row block. The core holds every main-memory
  buffer whole at the full share; the call's proof data holds one points-to per WINDOW, an output's at the full
  share and an input's at the window's own share. So on entry the shared array's full share is split into its
  two halves, one per reading window, and every other array passes as it is; on exit the two halves, which hold
  the same contents, are joined back into the full share. Both directions carry along, untouched, the
  main-memory buffers that are no window's array.
-/
import proofs.«167914_g71622874628668_fold_wed_m_490_1_alg».proof.Proof.Gen.Kernel.Launch
import proofs.«167914_g71622874628668_fold_wed_m_490_1_alg».proof.Proof.K.Shares
import Idealize.ShloMosaic.Lib.Pipeline.Kit
import Idealize.ShloMosaic.Lib.Pipeline.Launch
import Idealize.ShloMosaic.Rules.PointsTo

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers behind the windows' arrays -/

/-- The six windows' arrays are five buffers: the third and the fourth window read the same one. -/
theorem arrRefs1 : Finset.univ.image (Pipeline.arrRef spec1) = [main_arg1, main_arg2, main_v1, main_v2_0, main_v2_1].toFinset := by
  decide

/-- The core's main-memory buffers at contents `W`: the five buffers behind the windows' arrays, and the rest. -/
theorem held_split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ cfgs 1 winFacts₀1.arr_unscoped c W

/-- The five buffers behind the arrays, one by one, each whole at the full share. -/
theorem arrBufs_chain1 (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1)
          ∗ (((c : Thread nD τ).loc main_arg2) ↦{fullShare} W main_arg2)
          ∗ (((c : Thread nD τ).loc main_v1) ↦{fullShare} W main_v1)
          ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg1, main_arg2, main_v1, main_v2_0, main_v2_1] arrRefs1 (by decide) _

/-! ## The windows' points-tos -/

section Windows

variable (c : Dev nD) (dat : Dat τ (Elt F) Unit ℕ (UR sig nD τ) ℕ cfg1 c)

/-- The share each window's array is held at, once the input shares are the two halves on the shared array and
    the full share elsewhere: an output's (windows 4 and 5) is the full share whatever `q` says. -/
theorem share1_0 (hq : dat.q = q1) : dat.share 0 = fullShare := congrFun hq 0
theorem share1_1 (hq : dat.q = q1) : dat.share 1 = fullShare := congrFun hq 1
theorem share1_2 (hq : dat.q = q1) : dat.share 2 = fullShare.left := congrFun hq 2
theorem share1_3 (hq : dat.q = q1) : dat.share 3 = fullShare.right := congrFun hq 3
theorem share1_4 : dat.share 4 = fullShare := rfl
theorem share1_5 : dat.share 5 = fullShare := rfl

/-- One window's points-to among the call's `arrays`, at contents read off a valuation `W` of the core's buffers:
    the window's array is a whole buffer, so it is the buffer behind it, whole, at the window's share. -/
theorem window_eq1 (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) (w : Fin cfg1.W) :
    ((cfg1.win w).arr.view.loc (c.tc : Thread nD τ) ↦[(cfg1.win w).arr.view.set]{dat.share w} G w : sProp 𝕄)
      = (((c : Thread nD τ).loc (Pipeline.arrRef spec1 w)) ↦{dat.share w} W (Pipeline.arrRef spec1 w)) := by
  rw [(arr_whole1 w).set_eq_univ, hG w]

/-- The call's `arrays` at contents read off `W`, window by window: the shared array appears twice, at the left
    half under the third window and at the right half under the fourth. -/
theorem arrays_chain1 (hq : dat.q = q1) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (dat.arrays G : sProp 𝕄)
      = iprop((((c : Thread nD τ).loc main_arg1) ↦{fullShare} W main_arg1)
          ∗ (((c : Thread nD τ).loc main_arg2) ↦{fullShare} W main_arg2)
          ∗ (((c : Thread nD τ).loc main_v1) ↦{fullShare.left} W main_v1)
          ∗ (((c : Thread nD τ).loc main_v1) ↦{fullShare.right} W main_v1)
          ∗ (((c : Thread nD τ).loc main_v2_0) ↦{fullShare} W main_v2_0)
          ∗ (((c : Thread nD τ).loc main_v2_1) ↦{fullShare} W main_v2_1)) := by
  unfold Dat.arrays
  rw [bigSep_W1, window_eq1 c dat W G hG 0, window_eq1 c dat W G hG 1, window_eq1 c dat W G hG 2, window_eq1 c dat W G hG 3,
    window_eq1 c dat W G hG 4, window_eq1 c dat W G hG 5, share1_0 c dat hq, share1_1 c dat hq, share1_2 c dat hq, share1_3 c dat hq,
    share1_4 c dat, share1_5 c dat]

end Windows

/-! ## Entry and exit -/

/-- ENTRY: the core's main-memory buffers at contents `W` are the call's `arrays` at the proof data's entry
    contents — those being read off `W` (`hA`) — and the rest. The shared array's full share is split into its two
    halves; nothing else moves. -/
theorem arrays_of_held1 (c : Dev nD) (dat : Dat τ (Elt F) Unit ℕ (UR sig nD τ) ℕ cfg1 c) (hq : dat.q = q1)
    (W : (b : Ref sig .tc) → Buf (Elt F) ((c : Thread nD τ).loc b)) (hA : ∀ w, dat.A w = W (Pipeline.arrRef spec1 w)) :
    (unscopedBufs c W : sProp 𝕄) ⊢ iprop(dat.arrays (dat.arrAt · 0) ∗ Pipeline.unscopedRest spec1 c W) := by
  rw [held_split1, arrBufs_chain1, arrays_chain1 c dat hq W (dat.arrAt · 0) hA]
  refine Laws.sep_mono (Laws.sep_mono .rfl (Laws.sep_mono .rfl ?_)) .rfl
  exact (Laws.sep_mono (pointsTo_share (PosShare.mem_left_op_right fullShare)).1 .rfl).trans Laws.sep_assoc.1

/-- EXIT: the call's `arrays` at contents `Fn` and the rest at `W` are the core's main-memory buffers at any
    valuation `W'` that has the arrays at `Fn` and agrees with `W` off them. The two halves of the shared array, at
    the same contents, are joined back into its full share. -/
theorem held_of_arrays1 (c : Dev nD) (dat : Dat τ (Elt F) Unit ℕ (UR sig nD τ) ℕ cfg1 c) (hq : dat.q = q1)
    (W W' : (b : Ref sig .tc) → Buf (Elt F) ((c : Thread nD τ).loc b))
    (Fn : (w : Fin cfg1.W) → Buf (Elt F) ((cfg1.win w).arr.view.loc (c.tc : Thread nD τ)))
    (hF : ∀ w, Fn w = W' (Pipeline.arrRef spec1 w))
    (hrest : ∀ b, b ∉ Finset.univ.image (Pipeline.arrRef spec1) → W' b = W b) :
    iprop(dat.arrays Fn ∗ Pipeline.unscopedRest spec1 c W) ⊢ (unscopedBufs c W' : sProp 𝕄) := by
  rw [held_split1, arrBufs_chain1, arrays_chain1 c dat hq W' Fn hF]
  refine Laws.sep_mono (Laws.sep_mono .rfl (Laws.sep_mono .rfl ?_)) (Entails.of_eq ?_)
  · exact Laws.sep_assoc.2.trans (Laws.sep_mono (pointsTo_share (PosShare.mem_left_op_right fullShare)).2 .rfl)
  · unfold Pipeline.unscopedRest
    exact bigSep_congr fun b hb => by rw [hrest b (Finset.mem_sdiff.mp hb).2]

end Cert.Kernel.Hand

end
-- ==== Proof.K.Arr2.lean ====
/-
  The third kernel call's windowed arrays among the core's main-memory buffers.

  The call has seven windows over SIX arrays: its second and third windows, both inputs, read one array (the
  second call's first result), once by contraction block and once by row block. The core holds every
  main-memory buffer whole at the full share; the call's proof data holds one points-to per WINDOW, the output's
  at the full share and an input's at the window's own share. So on entry the shared array's full share is split
  into its two halves, one per reading window, and every other array passes as it is; on exit the two halves,
  which hold the same contents, are joined back into the full share. Both directions carry along, untouched,
  the main-memory buffers that are no window's array.
-/
import proofs.«167914_g71622874628668_fold_wed_m_490_1_alg».proof.Proof.Gen.Kernel.Launch
import proofs.«167914_g71622874628668_fold_wed_m_490_1_alg».proof.Proof.K.Shares
import Idealize.ShloMosaic.Lib.Pipeline.Kit
import Idealize.ShloMosaic.Lib.Pipeline.Launch
import Idealize.ShloMosaic.Rules.PointsTo

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The buffers behind the windows' arrays -/

/-- The seven windows' arrays are six buffers: the second and the third window read the same one. -/
theorem arrRefs2 : Finset.univ.image (Pipeline.arrRef spec2) = [main_arg1, main_v2_0, main_v2_1, main_arg5, main_v3, main_v4].toFinset := by
  decide

/-- The core's main-memory buffers at contents `W`: the six buffers behind the windows' arrays, and the rest. -/
theorem held_split2 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec2 c W : sProp 𝕄)
          ∗ Pipeline.unscopedRest (Ix := Unit) (Name := ℕ) (U := UR sig nD τ) (Lvl := ℕ) spec2 c W) :=
  Pipeline.unscopedBufs_split₀ cfgs 2 winFacts₀2.arr_unscoped c W

/-- The six buffers behind the arrays, one by one, each whole at the full share. -/
theorem arrBufs_chain2 (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1)
          ∗ (((c : Thread nD τ).loc main_v2_0) ↦{fullShare} W main_v2_0)
          ∗ (((c : Thread nD τ).loc main_v2_1) ↦{fullShare} W main_v2_1)
          ∗ (((c : Thread nD τ).loc main_arg5) ↦{fullShare} W main_arg5)
          ∗ (((c : Thread nD τ).loc main_v3) ↦{fullShare} W main_v3)
          ∗ (((c : Thread nD τ).loc main_v4) ↦{fullShare} W main_v4)) := by
  unfold Pipeline.arrBufs
  exact bigSep_eq_bigSepL_of_eq [main_arg1, main_v2_0, main_v2_1, main_arg5, main_v3, main_v4] arrRefs2 (by decide) _

/-! ## The windows' points-tos -/

section Windows

variable (c : Dev nD) (dat : Dat τ (Elt F) Unit ℕ (UR sig nD τ) ℕ cfg2 c)

/-- The share each window's array is held at, once the input shares are the two halves on the shared array and
    the full share elsewhere: the output's (window 6) is the full share whatever `q` says. -/
theorem share2_0 (hq : dat.q = q2) : dat.share 0 = fullShare := congrFun hq 0
theorem share2_1 (hq : dat.q = q2) : dat.share 1 = fullShare.left := congrFun hq 1
theorem share2_2 (hq : dat.q = q2) : dat.share 2 = fullShare.right := congrFun hq 2
theorem share2_3 (hq : dat.q = q2) : dat.share 3 = fullShare := congrFun hq 3
theorem share2_4 (hq : dat.q = q2) : dat.share 4 = fullShare := congrFun hq 4
theorem share2_5 (hq : dat.q = q2) : dat.share 5 = fullShare := congrFun hq 5
theorem share2_6 : dat.share 6 = fullShare := rfl

/-- One window's points-to among the call's `arrays`, at contents read off a valuation `W` of the core's buffers:
    the window's array is a whole buffer, so it is the buffer behind it, whole, at the window's share. -/
theorem window_eq2 (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) (w : Fin cfg2.W) :
    ((cfg2.win w).arr.view.loc (c.tc : Thread nD τ) ↦[(cfg2.win w).arr.view.set]{dat.share w} G w : sProp 𝕄)
      = (((c : Thread nD τ).loc (Pipeline.arrRef spec2 w)) ↦{dat.share w} W (Pipeline.arrRef spec2 w)) := by
  rw [(arr_whole2 w).set_eq_univ, hG w]

/-- The call's `arrays` at contents read off `W`, window by window: the shared array appears twice, at the left
    half under the second window and at the right half under the third. -/
theorem arrays_chain2 (hq : dat.q = q2) (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) :
    (dat.arrays G : sProp 𝕄)
      = iprop((((c : Thread nD τ).loc main_arg1) ↦{fullShare} W main_arg1)
          ∗ (((c : Thread nD τ).loc main_v2_0) ↦{fullShare.left} W main_v2_0)
          ∗ (((c : Thread nD τ).loc main_v2_0) ↦{fullShare.right} W main_v2_0)
          ∗ (((c : Thread nD τ).loc main_v2_1) ↦{fullShare} W main_v2_1)
          ∗ (((c : Thread nD τ).loc main_arg5) ↦{fullShare} W main_arg5)
          ∗ (((c : Thread nD τ).loc main_v3) ↦{fullShare} W main_v3)
          ∗ (((c : Thread nD τ).loc main_v4) ↦{fullShare} W main_v4)) := by
  unfold Dat.arrays
  rw [bigSep_W2, window_eq2 c dat W G hG 0, window_eq2 c dat W G hG 1, window_eq2 c dat W G hG 2, window_eq2 c dat W G hG 3,
    window_eq2 c dat W G hG 4, window_eq2 c dat W G hG 5, window_eq2 c dat W G hG 6, share2_0 c dat hq, share2_1 c dat hq,
    share2_2 c dat hq, share2_3 c dat hq, share2_4 c dat hq, share2_5 c dat hq, share2_6 c dat]

end Windows

/-! ## Entry and exit -/

/-- ENTRY: the core's main-memory buffers at contents `W` are the call's `arrays` at the proof data's entry
    contents — those being read off `W` (`hA`) — and the rest. The shared array's full share is split into its two
    halves; nothing else moves. -/
theorem arrays_of_held2 (c : Dev nD) (dat : Dat τ (Elt F) Unit ℕ (UR sig nD τ) ℕ cfg2 c) (hq : dat.q = q2)
    (W : (b : Ref sig .tc) → Buf (Elt F) ((c : Thread nD τ).loc b)) (hA : ∀ w, dat.A w = W (Pipeline.arrRef spec2 w)) :
    (unscopedBufs c W : sProp 𝕄) ⊢ iprop(dat.arrays (dat.arrAt · 0) ∗ Pipeline.unscopedRest spec2 c W) := by
  rw [held_split2, arrBufs_chain2, arrays_chain2 c dat hq W (dat.arrAt · 0) hA]
  refine Laws.sep_mono (Laws.sep_mono .rfl ?_) .rfl
  exact (Laws.sep_mono (pointsTo_share (PosShare.mem_left_op_right fullShare)).1 .rfl).trans Laws.sep_assoc.1

/-- EXIT: the call's `arrays` at contents `Fn` and the rest at `W` are the core's main-memory buffers at any
    valuation `W'` that has the arrays at `Fn` and agrees with `W` off them. The two halves of the shared array, at
    the same contents, are joined back into its full share. -/
theorem held_of_arrays2 (c : Dev nD) (dat : Dat τ (Elt F) Unit ℕ (UR sig nD τ) ℕ cfg2 c) (hq : dat.q = q2)
    (W W' : (b : Ref sig .tc) → Buf (Elt F) ((c : Thread nD τ).loc b))
    (Fn : (w : Fin cfg2.W) → Buf (Elt F) ((cfg2.win w).arr.view.loc (c.tc : Thread nD τ)))
    (hF : ∀ w, Fn w = W' (Pipeline.arrRef spec2 w))
    (hrest : ∀ b, b ∉ Finset.univ.image (Pipeline.arrRef spec2) → W' b = W b) :
    iprop(dat.arrays Fn ∗ Pipeline.unscopedRest spec2 c W) ⊢ (unscopedBufs c W' : sProp 𝕄) := by
  rw [held_split2, arrBufs_chain2, arrays_chain2 c dat hq W' Fn hF]
  refine Laws.sep_mono (Laws.sep_mono .rfl ?_) (Entails.of_eq ?_)
  · exact Laws.sep_assoc.2.trans (Laws.sep_mono (pointsTo_share (PosShare.mem_left_op_right fullShare)).2 .rfl)
  · unfold Pipeline.unscopedRest
    exact bigSep_congr fun b hb => by rw [hrest b (Finset.mem_sdiff.mp hb).2]

end Cert.Kernel.Hand

end
-- ==== Proof.K.Run.lean ====
/-
  The run of the three-call program from launch to return, with every buffer's final contents named.

  @main is five items: the reshape of the first bias (host), the first call (h := x·W_bef + b_bef in one block), the
  second call (the first propagation step, 16×16 blocks, h read both as contraction block and as row block), the
  reshape of the second bias (host), the third call (the second propagation step fused with relu and the last
  projection, Y1 read both ways). Between two items a core's unscoped buffers are held whole at a valuation `Wj`:
  the launch contents, then each host stretch applied, then each call's OUTPUT arrays overwritten by what its
  write-backs leave (`Dat.arrAt … N`), every other buffer as it was. A call's INPUT arrays are never written, so
  an array that two input windows read ends, for both windows, at what it held on entry.

  Each call is one segment record: its arrays are sorted out of the unscoped buffers when it is entered (an array
  read through two windows is split into its two half shares) and put back when it is left; the generator register
  rides through the call's invariant; nothing is owed at any point.
-/
import proofs.«167914_g71622874628668_fold_wed_m_490_1_alg».proof.Proof.K.R0
import proofs.«167914_g71622874628668_fold_wed_m_490_1_alg».proof.Proof.K.R1
import proofs.«167914_g71622874628668_fold_wed_m_490_1_alg».proof.Proof.K.R2
import proofs.«167914_g71622874628668_fold_wed_m_490_1_alg».proof.Proof.K.Arr1
import proofs.«167914_g71622874628668_fold_wed_m_490_1_alg».proof.Proof.K.Arr2
import proofs.«167914_g71622874628668_fold_wed_m_490_1_alg».proof.Proof.Gen.Kernel.Launch
import Idealize.ShloMosaic.Lib.Pipeline.FrameSuffix
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- After the first bias is reshaped: what the first call is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its four arrays (all distinct) at what the call leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second call: its two output arrays (Y1, then D·h) at what the call leaves; its input arrays — the two
    propagation matrices and h, read through two windows — and every other buffer as entered. -/
def W3 (c : Dev nD) : Valuation τ sig (Elt F) :=
  Function.update (Function.update (W2 m c) (Proc.devRef .tc main_v2_0) ((dat1 (V2 m) c).arrAt 4 cfg1.N))
    (Proc.devRef .tc main_v2_1) ((dat1 (V2 m) c).arrAt 5 cfg1.N)
abbrev V3 : (c : Dev nD) → (b : Ref sig .tc) → Buf (Elt F) ((c : Thread nD τ).loc b) := fun c b => W3 m c b
theorem W3_v2_0 (c : Dev nD) : W3 m c (Proc.devRef .tc main_v2_0) = (dat1 (V2 m) c).arrAt 4 cfg1.N := by
  unfold W3
  rw [Function.update_of_ne (StableHlo.devRef_ne_of_ne (by decide) : (Proc.devRef .tc main_v2_0 : DevRef τ sig) ≠ Proc.devRef .tc main_v2_1),
    Function.update_self]
theorem W3_v2_1 (c : Dev nD) : W3 m c (Proc.devRef .tc main_v2_1) = (dat1 (V2 m) c).arrAt 5 cfg1.N := by
  unfold W3; rw [Function.update_self]
theorem W3_of_ne (c : Dev nD) (b : Ref sig .tc) (h0 : b ≠ main_v2_0) (h1 : b ≠ main_v2_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
/-- Every window of the second call ends at the next valuation's contents of its array: an input's array is never
    written and the call does not list it among its outputs; an output's is the update itself. -/
theorem hF1 (c : Dev nD) : ∀ w : Fin cfg1.W, (dat1 (V2 m) c).arrAt w cfg1.N = V3 m c (Pipeline.arrRef spec1 w)
  | ⟨0, _⟩ => ((dat1 (V2 m) c).arrAt_in 0 rfl _).trans ((A_eq1 (V2 m) c 0).trans (W3_of_ne m c main_arg1 (by decide) (by decide)).symm)
  | ⟨1, _⟩ => ((dat1 (V2 m) c).arrAt_in 1 rfl _).trans ((A_eq1 (V2 m) c 1).trans (W3_of_ne m c main_arg2 (by decide) (by decide)).symm)
  | ⟨2, _⟩ => ((dat1 (V2 m) c).arrAt_in 2 rfl _).trans ((A_eq1 (V2 m) c 2).trans (W3_of_ne m c main_v1 (by decide) (by decide)).symm)
  | ⟨3, _⟩ => ((dat1 (V2 m) c).arrAt_in 3 rfl _).trans ((A_eq1 (V2 m) c 3).trans (W3_of_ne m c main_v1 (by decide) (by decide)).symm)
  | ⟨4, _⟩ => (W3_v2_0 m c).symm
  | ⟨5, _⟩ => (W3_v2_1 m c).symm
  | ⟨_ + 6, h⟩ => absurd h (Nat.not_lt.2 (Nat.le_add_left _ _))
theorem hrest1 (c : Dev nD) : ∀ b, b ∉ Finset.univ.image (Pipeline.arrRef spec1) → V3 m c b = V2 m c b :=
  fun b hb => W3_of_ne m c b
    (fun e => hb (Finset.mem_image.mpr ⟨4, Finset.mem_univ _, e ▸ rfl⟩))
    (fun e => hb (Finset.mem_image.mpr ⟨5, Finset.mem_univ _, e ▸ rfl⟩))

/-- After the second bias is reshaped: what the third call is entered from. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the third call: its one output array, the program's result, at what the call leaves. -/
def W5 (c : Dev nD) : Valuation τ sig (Elt F) :=
  Function.update (W4 m c) (Proc.devRef .tc main_v4) ((dat2 (V4 m) c).arrAt 6 cfg2.N)
abbrev V5 : (c : Dev nD) → (b : Ref sig .tc) → Buf (Elt F) ((c : Thread nD τ).loc b) := fun c b => W5 m c b
theorem W5_v4 (c : Dev nD) : W5 m c (Proc.devRef .tc main_v4) = (dat2 (V4 m) c).arrAt 6 cfg2.N := by
  unfold W5; rw [Function.update_self]
theorem W5_of_ne (c : Dev nD) (b : Ref sig .tc) (h : b ≠ main_v4) : W5 m c (Proc.devRef .tc b) = W4 m c (Proc.devRef .tc b) := by
  unfold W5
  rw [Function.update_of_ne (StableHlo.devRef_ne_of_ne h : (Proc.devRef .tc b : DevRef τ sig) ≠ Proc.devRef .tc main_v4)]
theorem hF2 (c : Dev nD) : ∀ w : Fin cfg2.W, (dat2 (V4 m) c).arrAt w cfg2.N = V5 m c (Pipeline.arrRef spec2 w)
  | ⟨0, _⟩ => ((dat2 (V4 m) c).arrAt_in 0 rfl _).trans ((A_eq2 (V4 m) c 0).trans (W5_of_ne m c main_arg1 (by decide)).symm)
  | ⟨1, _⟩ => ((dat2 (V4 m) c).arrAt_in 1 rfl _).trans ((A_eq2 (V4 m) c 1).trans (W5_of_ne m c main_v2_0 (by decide)).symm)
  | ⟨2, _⟩ => ((dat2 (V4 m) c).arrAt_in 2 rfl _).trans ((A_eq2 (V4 m) c 2).trans (W5_of_ne m c main_v2_0 (by decide)).symm)
  | ⟨3, _⟩ => ((dat2 (V4 m) c).arrAt_in 3 rfl _).trans ((A_eq2 (V4 m) c 3).trans (W5_of_ne m c main_v2_1 (by decide)).symm)
  | ⟨4, _⟩ => ((dat2 (V4 m) c).arrAt_in 4 rfl _).trans ((A_eq2 (V4 m) c 4).trans (W5_of_ne m c main_arg5 (by decide)).symm)
  | ⟨5, _⟩ => ((dat2 (V4 m) c).arrAt_in 5 rfl _).trans ((A_eq2 (V4 m) c 5).trans (W5_of_ne m c main_v3 (by decide)).symm)
  | ⟨6, _⟩ => (W5_v4 m c).symm
  | ⟨_ + 7, h⟩ => absurd h (Nat.not_lt.2 (Nat.le_add_left _ _))
theorem hrest2 (c : Dev nD) : ∀ b, b ∉ Finset.univ.image (Pipeline.arrRef spec2) → V5 m c b = V4 m c b :=
  fun b hb => W5_of_ne m c b (fun e => hb (Finset.mem_image.mpr ⟨6, Finset.mem_univ _, e ▸ rfl⟩))

/-! ## The proof data family and what rides beside the buffers -/

abbrev adm : (p : Fin 3) → (pcfgs (F := F) p).Adm := fun p => (cfgs p).toPCfg_adm
/-- Each call's proof data at the contents it is entered from: a literal match on the call. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- Beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-- The class invariant is the scoped buffers no window stages beside the generator register; whatever else is offered
    at entry (the prefetched tables: there are none) is let go. -/
theorem ΦA_of (gr W : Nat) (spec : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) spec c) ⊢ (Pipeline.ΦA spec c : sProp 𝕄) := by
  unfold Pipeline.ΦA
  iintro ⟨Hp, -, Hr⟩
  isplitl [Hr]; · iexact Hr
  iexact Hp
/-- and it gives both back at exit, beside the kernel's own semaphores: there are none. -/
theorem of_ΦA (gr W : Nat) (spec : Fin W → Pipeline.WinSpec sig gr) (c : Dev nD) :
    (Pipeline.ΦA spec c : sProp 𝕄) ⊢ iprop((∃ r, prngReg c r) ∗ BI.emp ∗ Pipeline.scopedRest (Ix := Unit) (Name := ℕ) (U := UR sig nD τ) (Lvl := ℕ) (Val := Elt F) spec c) := by
  unfold Pipeline.ΦA
  iintro ⟨Hr, Hp⟩
  isplitl [Hp]; · iexact Hp
  isplitr; · iempintro
  iexact Hr
/-- The last call's exit state is the last thread state beside the core owing nothing: the same three conjuncts,
    grouped the other way. -/
theorem post_last (c : Dev nD) :
    iprop(StableHlo.held (c : Thread nD τ) (Pipeline.ucRefs τ sig) (W5 m c) ∗ (∃ r, prngReg c r) ∗ ∃ W, owes (c : Thread nD τ) (0 : CellTallies nD τ sig Unit) W)
      ⊢ (iprop((StableHlo.held (c : Thread nD τ) (Pipeline.ucRefs τ sig) (W5 m c) ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The calls as segments -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_held1 (F := F) c (dat1 (V2 m) c) (q_eq1 (V2 m) c) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    exact (ΦA_of (F := F) _ _ spec1 c _).trans (hin1 (V2 m) c)
  hout c := by
    rw [Pipeline.ownSems0_none, show (pdats m 1 c).Φ (Fin.last _) = (dat1 (V2 m) c).Φ (Fin.last cfg1.N) from rfl]
    exact (hout1 (V2 m) c).trans (of_ΦA (F := F) _ _ spec1 c)
  hexit c := by
    have hjoin := held_of_arrays1 (F := F) c (dat1 (V2 m) c) (q_eq1 (V2 m) c) (V2 m c) (V3 m c) ((dat1 (V2 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := arrays_of_held2 (F := F) c (dat2 (V4 m) c) (q_eq2 (V4 m) c) (V4 m c) (A_eq2 (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    exact (ΦA_of (F := F) _ _ spec2 c _).trans (hin2 (V4 m) c)
  hout c := by
    rw [Pipeline.ownSems0_none, show (pdats m 2 c).Φ (Fin.last _) = (dat2 (V4 m) c).Φ (Fin.last cfg2.N) from rfl]
    exact (hout2 (V4 m) c).trans (of_ΦA (F := F) _ _ spec2 c)
  hexit c := by
    have hjoin := held_of_arrays2 (F := F) c (dat2 (V4 m) c) (q_eq2 (V4 m) c) (V4 m c) (V5 m c) ((dat2 (V4 m) c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as its five segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and the
    final memory holds every unscoped buffer of every core at the last valuation `W5`. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => post_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## What the last valuation holds at the arguments and at the result -/

/-- A host stretch leaves alone every buffer it does not write. -/
theorem W1_of (c : Dev nD) (b : Ref sig .tc) (h : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))
theorem W4_of (c : Dev nD) (b : Ref sig .tc) (h : b ≠ main_v3) : W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))
/-- Each argument is no call's output and no host stretch's result: it ends as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of_ne m c main_arg0 (by decide) (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of m c main_arg1 (by decide)
    _ = W2 m c (Proc.devRef .tc main_arg1) := W3_of_ne m c main_arg1 (by decide) (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_of_ne m c main_arg2 (by decide) (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide) (by decide)
    _ = W1 m c (Proc.devRef .tc main_arg3) := (W2_arr m c 1).trans (((dat0 (V1 m) c).arrAt_in 1 rfl _).trans (A_eq0 (V1 m) c 1))
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of m c main_arg4 (by decide)
    _ = W2 m c (Proc.devRef .tc main_arg4) := W3_of_ne m c main_arg4 (by decide) (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of m c main_arg5 (by decide)
    _ = W2 m c (Proc.devRef .tc main_arg5) := W3_of_ne m c main_arg5 (by decide) (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of_ne m c main_arg6 (by decide)
    _ = W3 m c (Proc.devRef .tc main_arg6) := W4_of m c main_arg6 (by decide)
    _ = W2 m c (Proc.devRef .tc main_arg6) := W3_of_ne m c main_arg6 (by decide) (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- The run with the result array named at the last valuation and every argument as launched: what both the frame
    claim and the value claim are read off. -/
theorem run_result : θ_run defs (onTc (τ := τ) (main (F := F))) ⟨m, fun _ => 0, ρ⟩ (fun r => ∀ c : Dev nD,
      r.2.mem ((c.tc : Thread nD τ).loc main_v4) = W5 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v4 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_named m ρ)

/-- The frame claim at any `F`: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.Kernel.Hand

end
-- ==== Proof.KI.R0.lean ====
import proofs.«167914_g71622874628668_fold_wed_m_490_1_alg».proof.Proof.Gen.KernelIdeal.Launch
import proofs.«167914_g71622874628668_fold_wed_m_490_1_alg».proof.Proof.Gen.KernelIdeal.Skeleton
import proofs.«167914_g71622874628668_fold_wed_m_490_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The first call: one matrix product plus a row bias, on whole blocks

The first call has no grid: a single point, at which each of its four windows is its whole array.
The body reads the activations `x` (8192 x 256), the weights (256 x 128) and the bias row (1 x 128)
whole, and writes `x * W + bias` (the row repeated down the 8192 rows) over the whole output
(8192 x 128). Everything here is stated at the contents `V` the buffers hold when the call begins. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call begins
variable (V : (c : Dev nD) → (b : Ref sig .tc) → Buf (Elt F) ((c : Thread nD τ).loc b))

/-! ## The four blocks -/

/-- Window `w`'s block at the point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Whole-buffer accesses

Every load and the one store of the body go through the rectangle that is the whole buffer: offsets zero, sizes
the buffer's own. A load through it reads the contents; a store through it leaves its payload everywhere. -/

/-- Both offsets of every access are zero. -/
theorem offs0 : (![0, 0] : Fin 2 → ℕ) = fun _ => 0 := funext fun a => by fin_cases a <;> rfl

abbrev rectX : Rect S8192x256 := Rect.unit (s := S8192x256) ![0, 0] S8192x256.size inb_S8192x256_S8192x256_0_0
abbrev rectW : Rect S256x128 := Rect.unit (s := S256x128) ![0, 0] S256x128.size inb_S256x128_S256x128_0_0
abbrev rectB : Rect S1x128 := Rect.unit (s := S1x128) ![0, 0] S1x128.size inb_S1x128_S1x128_0_0
abbrev rectH : Rect S8192x128 := Rect.unit (s := S8192x128) ![0, 0] S8192x128.size inb_S8192x128_S8192x128_0_0

/-- The output buffer after the body's one store, as the store leaves it: the payload of what the three loads read. -/
def stored0 (x : Vec F S8192x256 .f32) (w : Vec F S256x128 .f32) (b : Vec F S1x128 .f32) : Vec F S8192x128 .f32 :=
  View.canon [⟨rectH, k0_pay1 (View.ld x rectX) (View.ld w rectW) (View.ld b rectB)⟩]

/-- The store's rectangle is the whole output buffer, so its one piece covers every index. -/
theorem coverH (p : Vec F S8192x128 .f32) (y : S8192x128.Idx) :
    ∃ pc ∈ ([⟨rectH, p⟩] : List (View.Piece (Elt F) S8192x128 .f32)), y ∈ pc.1.set :=
  ⟨_, List.mem_singleton_self _, View.mem_set_unit_zero offs0 inb_S8192x128_S8192x128_0_0 y⟩

/-- Whole loads read the contents and the whole store leaves its payload: the output buffer ends at the product of
    the activations and the weights plus the bias row, of the three input buffers as they stand. -/
theorem stored0_eq (x : Vec F S8192x256 .f32) (w : Vec F S256x128 .f32) (b : Vec F S1x128 .f32) :
    stored0 x w b = k0_pay1 x w b := by
  unfold stored0
  rw [View.canon_unit_zero offs0, View.ld_unit_zero offs0, View.ld_unit_zero offs0, View.ld_unit_zero offs0]

/-! ## The body's triple -/

set_option maxHeartbeats 1000000 in
/-- The body on four whole buffers — the inputs holding `x`, `w`, `b`, the output holding anything — runs to the
    continuation with the inputs as they were and the output at `k0_pay1 x w b`. The body is its sequence of three
    input loads, one (unused) load of the output, and one store, which the symbolic executor runs. -/
theorem sound_kernel0 (c : Dev nD) (E : Set ℕ)
    (arg0 : Memref sig .tc .vmem S8192x256 .f32) (harg0 : arg0.IsWhole) (arg1 : Memref sig .tc .vmem S256x128 .f32) (harg1 : arg1.IsWhole)
    (arg2 : Memref sig .tc .vmem S1x128 .f32) (harg2 : arg2.IsWhole) (arg3 : Memref sig .tc .vmem S8192x128 .f32) (harg3 : arg3.IsWhole)
    (x : Vec F S8192x256 .f32) (w : Vec F S256x128 .f32) (b : Vec F S1x128 .f32) (K : PUnit → sProp 𝕄) :
    iprop(owns (c : Thread nD τ) arg0 fullShare x ∗ owns (c : Thread nD τ) arg1 fullShare w ∗ owns (c : Thread nD τ) arg2 fullShare b
        ∗ (∃ d, owns (c : Thread nD τ) arg3 fullShare d)
        ∗ (iprop(owns (c : Thread nD τ) arg0 fullShare x ∗ owns (c : Thread nD τ) arg1 fullShare w ∗ owns (c : Thread nD τ) arg2 fullShare b
              ∗ owns (c : Thread nD τ) arg3 fullShare (k0_pay1 x w b)) -∗ K ⟨⟩))
      ⊢ wp frame (wpE (defs₀ (F := F)) Variants.none c none) E (cc0__h_kernel arg0 harg0 arg1 harg1 arg2 harg2 arg3 harg3) K := by
  rw [← stored0_eq x w b]
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverH _)

/-! ## The call's data -/

/-- The call's data on core `c`: the arrays as found (`V`); after the body each of the three inputs still holds
    its block, and the output holds the product-plus-bias of the three input blocks; the untouched remainder is the
    invariant; nothing is owed; every share is whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => Gen.k0_pay1 (iblk0 V c 0 t) (iblk0 V c 1 t) (iblk0 V c 2 t)
  Φ _ := Pipeline.ΦA spec0 c
  q _ := fullShare
  owed _ := 0

/-- The data's arrays are the entry contents. -/
theorem A_eq0 (c : Dev nD) (w : Fin cfg0.W) : (dat0 V c).A w = V c (Pipeline.arrRef spec0 w) := by
  dsimp only [dat0]

/-- What the body leaves, window by window: each input its block, -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
/-- and the output the product-plus-bias of the three input blocks. -/
theorem after0_3 (c : Dev nD) (t : Fin cfg0.N) : (dat0 V c).after 3 t = Gen.k0_pay1 (iblk0 V c 0 t) (iblk0 V c 1 t) (iblk0 V c 2 t) := by
  dsimp only [dat0]

/-- Each input is fetched at the one point, and a fetch of an uncut window fills the whole staging buffer with the
    block: so the body finds each input's staging buffer at its block. -/
theorem before0_0 (c : Dev nD) (t : Fin cfg0.N) (d) : (dat0 V c).before 0 t d = iblk0 V c 0 t := by
  rw [(dat0 V c).before_fetched 0 t (fetch0_0 t) d]
  unfold Dat.fetched Dat.blockOf iblk0; rw [A_eq0]; rfl
theorem before0_1 (c : Dev nD) (t : Fin cfg0.N) (d) : (dat0 V c).before 1 t d = iblk0 V c 1 t := by
  rw [(dat0 V c).before_fetched 1 t (fetch0_1 t) d]
  unfold Dat.fetched Dat.blockOf iblk0; rw [A_eq0]; rfl
theorem before0_2 (c : Dev nD) (t : Fin cfg0.N) (d) : (dat0 V c).before 2 t d = iblk0 V c 2 t := by
  rw [(dat0 V c).before_fetched 2 t (fetch0_2 t) d]
  unfold Dat.fetched Dat.blockOf iblk0; rw [A_eq0]; rfl

/-! ## The body obligation -/

/-- What the body is called with at the point `t`: the invariant, what is owed, and the four staging buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at the point: the three input buffers hold their blocks, so the body's triple applies; the invariant and
    what is owed pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body's obligation at the call's one point. -/
theorem body_obligation0 (c : Dev nD) : BodyObligation (dat0 (F := F) V c) (defs₀ (F := F)) Variants.none () Set.univ := fun t => by
  rw [bigSep_W0, bigSep_W0]
  exact sound_body0 V c t

end Cert.KernelIdeal.Hand
-- ==== Proof.KI.Shares.lean ====
/-
  The shares at which the second and third kernel calls hold their windowed arrays.

  The second call reads the array `h` through TWO input windows (its contraction block and its row block),
  the third call reads `Y1` the same way. A window's array is held at one points-to per window, so an array
  that two input windows read is held at the two halves of the full share, one half per window; every other
  window holds its array at the full share. The halves compose back to the full share
  (`PosShare.mem_left_op_right`), which is what lets the array be split when the call is entered and rejoined
  when it is left.
-/
import Idealize.SL.RA.TreeShare

namespace Cert.KernelIdeal.Hand

open Idealize.SL.RA

/-- Second call, six windows: windows 2 and 3 both read `h`. -/
abbrev q1 : Fin 6 → PosShare TreeShare
  | ⟨0, _⟩ => fullShare
  | ⟨1, _⟩ => fullShare
  | ⟨2, _⟩ => fullShare.left
  | ⟨3, _⟩ => fullShare.right
  | ⟨4, _⟩ => fullShare
  | ⟨5, _⟩ => fullShare
  | ⟨_ + 6, h⟩ => absurd h (Nat.not_lt.2 (Nat.le_add_left _ _))

/-- Third call, seven windows: windows 1 and 2 both read `Y1`. -/
abbrev q2 : Fin 7 → PosShare TreeShare
  | ⟨0, _⟩ => fullShare
  | ⟨1, _⟩ => fullShare.left
  | ⟨2, _⟩ => fullShare.right
  | ⟨3, _⟩ => fullShare
  | ⟨4, _⟩ => fullShare
  | ⟨5, _⟩ => fullShare
  | ⟨6, _⟩ => fullShare
  | ⟨_ + 7, h⟩ => absurd h (Nat.not_lt.2 (Nat.le_add_left _ _))

end Cert.KernelIdeal.Hand
-- ==== Proof.KI.R1.lean ====
import proofs.«167914_g71622874628668_fold_wed_m_490_1_alg».proof.Proof.Gen.KernelIdeal.Launch
import proofs.«167914_g71622874628668_fold_wed_m_490_1_alg».proof.Proof.Gen.KernelIdeal.Skeleton
import proofs.«167914_g71622874628668_fold_wed_m_490_1_alg».proof.Proof.Gen.KernelIdeal.Points
import proofs.«167914_g71622874628668_fold_wed_m_490_1_alg».proof.Proof.KI.Shares
import Idealize.ShloMosaic.Lib.Pipeline.FrameBody
import Idealize.ShloMosaic.Lib.Pipeline.Kit
import Idealize.ShloMosaic.Lib.Pipeline.Value
import Idealize.ShloMosaic.Lib.Tactic

/-! # The second call: two block products accumulated along the contraction axis

The second call runs on a 16 x 16 grid. Write a position as n = 16 * i + k: i is the row block and k the
contraction block, k moving fastest. At position n the body holds a 512 x 512 block of the matrix `A`
(window 0) and of the matrix `D` (window 1), both at block (i, k), the 512 x 128 block k of `h` (window 2)
and the 512 x 128 block i of `h` (window 3). Two 512 x 128 accumulators are carried from position to
position:

* at k = 0 both are reset to zero;
* at every k the first gains `A(i,k) * h(k)`, the second `D(i,k) * h(k)`;
* at k = 15 the second is written out as block i of `D h` (window 5), and
  `1/2 * h(i) + 1/2 * (first) + 1/2 * (second)` as block i of `Y1` (window 4).

So three kinds of position occur: k = 0 (reset, then accumulate), 0 < k < 15 (accumulate), k = 15
(accumulate, then write out); 16 > 1, so no position is both the first and the last of its row block.
Everything is stated at the contents `V` the buffers hold when the call begins, and for any arithmetic `F`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call begins
variable (V : (c : Dev nD) → (b : Ref sig .tc) → Buf (Elt F) ((c : Thread nD τ).loc b))

/-! ## The blocks and the two accumulations -/

/-- Window `w`'s block at position `t`, read off its array at the entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The first accumulator after position `n`: the block of `A` at `n` times the contraction block of `h` at `n`,
    added to zero when `n` opens a row block (`n % 16 = 0`) and to the accumulator after `n - 1` otherwise. -/
def accA1 (c : Dev nD) : (n : ℕ) → n < cfg1.N → Vec F S512x128 .f32
  | 0, hn => Gen.k1_pay4 (iblk1 V c 2 ⟨0, hn⟩) (Gen.k1_pay1 : Vec F S512x128 .f32) (iblk1 V c 0 ⟨0, hn⟩)
  | n + 1, hn => Gen.k1_pay4 (iblk1 V c 2 ⟨n + 1, hn⟩)
      (if (n + 1) % 16 = 0 then (Gen.k1_pay1 : Vec F S512x128 .f32) else accA1 c n (Nat.lt_of_succ_lt hn))
      (iblk1 V c 0 ⟨n + 1, hn⟩)

/-- The second accumulator after position `n`: the same with the block of `D`. -/
def accD1 (c : Dev nD) : (n : ℕ) → n < cfg1.N → Vec F S512x128 .f32
  | 0, hn => Gen.k1_pay5 (iblk1 V c 2 ⟨0, hn⟩) (Gen.k1_pay2 : Vec F S512x128 .f32) (iblk1 V c 1 ⟨0, hn⟩)
  | n + 1, hn => Gen.k1_pay5 (iblk1 V c 2 ⟨n + 1, hn⟩)
      (if (n + 1) % 16 = 0 then (Gen.k1_pay2 : Vec F S512x128 .f32) else accD1 c n (Nat.lt_of_succ_lt hn))
      (iblk1 V c 1 ⟨n + 1, hn⟩)

/-- The first accumulator at a position that opens a row block starts from zero. -/
theorem accA1_reset (c : Dev nD) (t : Fin cfg1.N) (h : t.val % 16 = 0) :
    accA1 V c t.val t.isLt = Gen.k1_pay4 (iblk1 V c 2 t) (Gen.k1_pay1 : Vec F S512x128 .f32) (iblk1 V c 0 t) := by
  obtain ⟨n, hn⟩ := t
  cases n with
  | zero => rfl
  | succ n => exact congrArg (fun z => Gen.k1_pay4 (iblk1 V c 2 ⟨n + 1, hn⟩) z (iblk1 V c 0 ⟨n + 1, hn⟩)) (if_pos h)

/-- At any other position it continues from the position before. -/
theorem accA1_step (c : Dev nD) (t : Fin cfg1.N) (h : ¬t.val % 16 = 0) :
    accA1 V c t.val t.isLt = Gen.k1_pay4 (iblk1 V c 2 t)
      (accA1 V c (t.val - 1) (Nat.lt_of_le_of_lt (Nat.sub_le _ _) t.isLt)) (iblk1 V c 0 t) := by
  obtain ⟨n, hn⟩ := t
  cases n with
  | zero => exact absurd (Nat.zero_mod _) h
  | succ n => exact congrArg (fun z => Gen.k1_pay4 (iblk1 V c 2 ⟨n + 1, hn⟩) z (iblk1 V c 0 ⟨n + 1, hn⟩)) (if_neg h)

/-- The second accumulator at a position that opens a row block starts from zero. -/
theorem accD1_reset (c : Dev nD) (t : Fin cfg1.N) (h : t.val % 16 = 0) :
    accD1 V c t.val t.isLt = Gen.k1_pay5 (iblk1 V c 2 t) (Gen.k1_pay2 : Vec F S512x128 .f32) (iblk1 V c 1 t) := by
  obtain ⟨n, hn⟩ := t
  cases n with
  | zero => rfl
  | succ n => exact congrArg (fun z => Gen.k1_pay5 (iblk1 V c 2 ⟨n + 1, hn⟩) z (iblk1 V c 1 ⟨n + 1, hn⟩)) (if_pos h)

/-- At any other position it continues from the position before. -/
theorem accD1_step (c : Dev nD) (t : Fin cfg1.N) (h : ¬t.val % 16 = 0) :
    accD1 V c t.val t.isLt = Gen.k1_pay5 (iblk1 V c 2 t)
      (accD1 V c (t.val - 1) (Nat.lt_of_le_of_lt (Nat.sub_le _ _) t.isLt)) (iblk1 V c 1 t) := by
  obtain ⟨n, hn⟩ := t
  cases n with
  | zero => exact absurd (Nat.zero_mod _) h
  | succ n => exact congrArg (fun z => Gen.k1_pay5 (iblk1 V c 2 ⟨n + 1, hn⟩) z (iblk1 V c 1 ⟨n + 1, hn⟩)) (if_neg h)

/-! ## The invariant -/

/-- The two accumulators as whole buffers. -/
abbrev scA1 : Memref sig .tc .vmem S512x128 .f32 := Memref.whole cc1_scratch0
abbrev scD1 : Memref sig .tc .vmem S512x128 .f32 := Memref.whole cc1_scratch1

/-- The invariant before position `n`. Before the first position: every buffer the call does not stage, at any
    contents, and the generator register at some state. Afterwards the same, except that the two accumulators hold
    what the position before left in them. -/
def Phi1 (c : Dev nD) : (n : ℕ) → n ≤ cfg1.N → sProp 𝕄
  | 0, _ => Pipeline.ΦA spec1 c
  | n + 1, hn => iprop(owns (c : Thread nD τ) scA1 fullShare (accA1 V c n hn)
      ∗ owns (c : Thread nD τ) scD1 fullShare (accD1 V c n hn)
      ∗ Pipeline.scopedRestBut (Ix := Unit) (Name := ℕ) (U := UR sig nD τ) (Lvl := ℕ) (Val := Elt F) spec1 c [cc1_scratch0, cc1_scratch1]
      ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(owns (c : Thread nD τ) scA1 fullShare (accA1 V c n hn)
      ∗ owns (c : Thread nD τ) scD1 fullShare (accD1 V c n hn)
      ∗ Pipeline.scopedRestBut (Ix := Unit) (Name := ℕ) (U := UR sig nD τ) (Lvl := ℕ) (Val := Elt F) spec1 c [cc1_scratch0, cc1_scratch1]
      ∗ (∃ r, prngReg c r)) := rfl

theorem Phi1_pos (c : Dev nD) (n : ℕ) (h : n ≤ cfg1.N) (hz : n ≠ 0) :
    Phi1 V c n h = iprop(owns (c : Thread nD τ) scA1 fullShare (accA1 V c (n - 1) (by omega))
      ∗ owns (c : Thread nD τ) scD1 fullShare (accD1 V c (n - 1) (by omega))
      ∗ Pipeline.scopedRestBut (Ix := Unit) (Name := ℕ) (U := UR sig nD τ) (Lvl := ℕ) (Val := Elt F) spec1 c [cc1_scratch0, cc1_scratch1]
      ∗ (∃ r, prngReg c r)) := by
  cases n with
  | zero => exact absurd rfl hz
  | succ n => rfl

/-! ## The call's data -/

/-- The call's data on core `c`: the arrays as found (`V`); after the body at position `t` each of the four inputs
    still holds its block, window 5 holds the second accumulator and window 4 the half-weighted sum of the row block
    of `h` and the two accumulators (both are read only where the position closes a row block); the invariant
    `Phi1`; nothing owed; `h`, which windows 2 and 3 both read, held at the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => Gen.k1_pay6 (accD1 V c t.val t.isLt) (iblk1 V c 3 t) (accA1 V c t.val t.isLt)
    | ⟨5, _⟩ => accD1 V c t.val t.isLt
  Φ t := Phi1 V c t.val (Nat.le_of_lt_succ t.isLt)
  q := q1
  owed _ := 0

/-- The data's arrays are the entry contents. -/
theorem A_eq1 (c : Dev nD) (w : Fin cfg1.W) : (dat1 V c).A w = V c (Pipeline.arrRef spec1 w) := by
  dsimp only [dat1]

/-- The data's shares. -/
theorem q_eq1 (c : Dev nD) : (dat1 V c).q = q1 := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) (h : t.val % 16 = 15) :
    (dat1 V c).after 4 t = Gen.k1_pay6 (accD1 V c t.val t.isLt) (iblk1 V c 3 t) (accA1 V c t.val t.isLt) := by
  dsimp only [dat1]
theorem after1_5 (c : Dev nD) (t : Fin cfg1.N) (h : t.val % 16 = 15) :
    (dat1 V c).after 5 t = accD1 V c t.val t.isLt := by
  dsimp only [dat1]

/-! ## The two conditions of the body, in closed form -/

/-- The zero offsets of a whole-block access, however they are spelt. -/
theorem hz1 : (![0, 0] : Fin 2 → Nat) = fun _ => 0 := funext fun a => by fin_cases a <;> rfl

/-- The first condition of the body: the contraction index is 0. -/
abbrev cond1_0 (i : grid1.Coords) : Prop :=
  (Scalar.cmpi .ne (Scalar.extui (Scalar.cmpi .eq (BitVec.ofNat 32 (i 1).val) 0#32)) 0#32) = 1#1
/-- It holds exactly at the positions that open a row block. -/
theorem hcond1_0 : ∀ t : Fin cfg1.N, cond1_0 (grid1.coords t) ↔ t.val % 16 = 0 :=
  (by decide +kernel : ∀ t : Fin grid1.N, cond1_0 (grid1.coords t) ↔ t.val % 16 = 0)

/-- The second condition of the body: the contraction index is 15, the last. -/
abbrev cond1_1 (i : grid1.Coords) : Prop := k1_cond2 i = 1#1
/-- It holds exactly at the positions that close a row block. -/
theorem hcond1_1 : ∀ t : Fin cfg1.N, cond1_1 (grid1.coords t) ↔ t.val % 16 = 15 :=
  (by decide +kernel : ∀ t : Fin grid1.N, cond1_1 (grid1.coords t) ↔ t.val % 16 = 15)

/-! ## The body on any whole buffers, case by case

In each case the buffers the case does not touch are left out: they stay with the caller. A whole-block store
leaves its payload, a whole-block load reads the contents, and a load that follows a store reads the stored payload. -/

set_option maxHeartbeats 1000000 in
/-- A position that opens a row block (k = 0): both accumulators, whatever they held, are reset to zero and then
    gain the position's products. -/
theorem run1_first (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x128 .f32) (harg9 : arg9.IsWhole)
    (hc0 : cond1_0 i) (hc1 : ¬cond1_1 i)
    (xA xD : Vec F S512x512 .f32) (xk : Vec F S512x128 .f32) (E : Set ℕ) (K : PUnit → sProp 𝕄) :
    iprop(owns (c : Thread nD τ) arg2 fullShare xA ∗ owns (c : Thread nD τ) arg3 fullShare xD ∗ owns (c : Thread nD τ) arg4 fullShare xk
        ∗ (∃ d, owns (c : Thread nD τ) arg8 fullShare d) ∗ (∃ d, owns (c : Thread nD τ) arg9 fullShare d)
        ∗ (iprop(owns (c : Thread nD τ) arg2 fullShare xA ∗ owns (c : Thread nD τ) arg3 fullShare xD ∗ owns (c : Thread nD τ) arg4 fullShare xk
            ∗ owns (c : Thread nD τ) arg8 fullShare (Gen.k1_pay4 xk (Gen.k1_pay1 : Vec F S512x128 .f32) xA)
            ∗ owns (c : Thread nD τ) arg9 fullShare (Gen.k1_pay5 xk (Gen.k1_pay2 : Vec F S512x128 .f32) xD)) -∗ K ⟨⟩))
      ⊢ wp frame (wpE (defs₀ (F := F)) Variants.none c none) E
          (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f2, %hf2, H2⟩, ⟨%f3, %hf3, H3⟩, ⟨%f4, %hf4, H4⟩, ⟨%d8, %f8, -, H8⟩, ⟨%d9, %f9, -, H9⟩, Hk⟩
  obtain rfl := harg2.eq_unread hf2; obtain rfl := harg3.eq_unread hf3; obtain rfl := harg4.eq_unread hf4
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  iexists _; isplitr
  swap; · iexact H9
  ipureintro
  sl_unfold_run_names
  refine (View.read_writes_eq_canon _ _ _ (fun y => ⟨_, List.mem_cons_self, View.mem_set_unit_zero hz1 inb_S512x128_S512x128_0_0 y⟩)).trans ?_
  rw [View.canon_cons_unit_zero (S := S512x128) hz1]
  simp only [View.readAt_eq_ld, harg2.read_unread, harg3.read_unread, harg4.read_unread, harg5.read_unread, harg8.read_unread, harg9.read_unread,
    View.ld_unit_zero (S := S512x128) hz1, View.ld_unit_zero (S := S512x512) hz1, View.readCov_unit_zero (S := S512x128) _ hz1]

set_option maxHeartbeats 1000000 in
/-- A position inside a row block (0 < k < 15): each accumulator gains the position's product. -/
theorem run1_mid (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x128 .f32) (harg9 : arg9.IsWhole)
    (hc0 : ¬cond1_0 i) (hc1 : ¬cond1_1 i)
    (xA xD : Vec F S512x512 .f32) (xk xs0 xs1 : Vec F S512x128 .f32) (E : Set ℕ) (K : PUnit → sProp 𝕄) :
    iprop(owns (c : Thread nD τ) arg2 fullShare xA ∗ owns (c : Thread nD τ) arg3 fullShare xD ∗ owns (c : Thread nD τ) arg4 fullShare xk
        ∗ owns (c : Thread nD τ) arg8 fullShare xs0 ∗ owns (c : Thread nD τ) arg9 fullShare xs1
        ∗ (iprop(owns (c : Thread nD τ) arg2 fullShare xA ∗ owns (c : Thread nD τ) arg3 fullShare xD ∗ owns (c : Thread nD τ) arg4 fullShare xk
            ∗ owns (c : Thread nD τ) arg8 fullShare (Gen.k1_pay4 xk xs0 xA)
            ∗ owns (c : Thread nD τ) arg9 fullShare (Gen.k1_pay5 xk xs1 xD)) -∗ K ⟨⟩))
      ⊢ wp frame (wpE (defs₀ (F := F)) Variants.none c none) E
          (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f2, %hf2, H2⟩, ⟨%f3, %hf3, H3⟩, ⟨%f4, %hf4, H4⟩, ⟨%f8, %hf8, H8⟩, ⟨%f9, %hf9, H9⟩, Hk⟩
  obtain rfl := harg2.eq_unread hf2; obtain rfl := harg3.eq_unread hf3; obtain rfl := harg4.eq_unread hf4
  obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H8]
  · iexists _; isplitr
    swap; · iexact H8
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  iexists _; isplitr
  swap; · iexact H9
  ipureintro
  sl_unfold_run_names
  refine (View.read_writes_eq_canon _ _ _ (fun y => ⟨_, List.mem_cons_self, View.mem_set_unit_zero hz1 inb_S512x128_S512x128_0_0 y⟩)).trans ?_
  rw [View.canon_cons_unit_zero (S := S512x128) hz1]
  simp only [View.readAt_eq_ld, harg2.read_unread, harg3.read_unread, harg4.read_unread, harg5.read_unread, harg8.read_unread, harg9.read_unread,
    View.ld_unit_zero (S := S512x128) hz1, View.ld_unit_zero (S := S512x512) hz1, View.readCov_unit_zero (S := S512x128) _ hz1]

set_option maxHeartbeats 1000000 in
/-- A position that closes a row block (k = 15): each accumulator gains the position's product; then window 5's
    buffer receives the second accumulator, and window 4's the half-weighted sum of the row block of `h` and the
    two accumulators. -/
theorem run1_last (c : Dev nD) (i : grid1.Coords)
    (arg2 : Memref sig .tc .vmem S512x512 .f32) (harg2 : arg2.IsWhole) (arg3 : Memref sig .tc .vmem S512x512 .f32) (harg3 : arg3.IsWhole)
    (arg4 : Memref sig .tc .vmem S512x128 .f32) (harg4 : arg4.IsWhole) (arg5 : Memref sig .tc .vmem S512x128 .f32) (harg5 : arg5.IsWhole)
    (arg6 : Memref sig .tc .vmem S512x128 .f32) (harg6 : arg6.IsWhole) (arg7 : Memref sig .tc .vmem S512x128 .f32) (harg7 : arg7.IsWhole)
    (arg8 : Memref sig .tc .vmem S512x128 .f32) (harg8 : arg8.IsWhole) (arg9 : Memref sig .tc .vmem S512x128 .f32) (harg9 : arg9.IsWhole)
    (hc0 : ¬cond1_0 i) (hc1 : cond1_1 i)
    (xA xD : Vec F S512x512 .f32) (xk xi xs0 xs1 : Vec F S512x128 .f32) (E : Set ℕ) (K : PUnit → sProp 𝕄) :
    iprop(owns (c : Thread nD τ) arg2 fullShare xA ∗ owns (c : Thread nD τ) arg3 fullShare xD ∗ owns (c : Thread nD τ) arg4 fullShare xk ∗ owns (c : Thread nD τ) arg5 fullShare xi
        ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg2 fullShare xA ∗ owns (c : Thread nD τ) arg3 fullShare xD ∗ owns (c : Thread nD τ) arg4 fullShare xk ∗ owns (c : Thread nD τ) arg5 fullShare xi
            ∗ owns (c : Thread nD τ) arg6 fullShare (Gen.k1_pay6 (Gen.k1_pay5 xk xs1 xD) xi (Gen.k1_pay4 xk xs0 xA))
            ∗ owns (c : Thread nD τ) arg7 fullShare (Gen.k1_pay5 xk xs1 xD)
            ∗ owns (c : Thread nD τ) arg8 fullShare (Gen.k1_pay4 xk xs0 xA)
            ∗ owns (c : Thread nD τ) arg9 fullShare (Gen.k1_pay5 xk xs1 xD)) -∗ K ⟨⟩))
      ⊢ wp frame (wpE (defs₀ (F := F)) Variants.none c none) E
          (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg2.eq_unread hf2; obtain rfl := harg3.eq_unread hf3; obtain rfl := harg4.eq_unread hf4
  obtain rfl := harg5.eq_unread hf5; obtain rfl := harg8.eq_unread hf8; obtain rfl := harg9.eq_unread hf9
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr
    swap; · iexact H6
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  isplitl [H7]
  · iexists _; isplitr
    swap; · iexact H7
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  isplitl [H8]
  · iexists _; isplitr
    swap; · iexact H8
    ipureintro
    sl_unfold_run_names
    refine (View.read_writes_eq_canon _ _ _ (fun y => ⟨_, List.mem_cons_self, View.mem_set_unit_zero hz1 inb_S512x128_S512x128_0_0 y⟩)).trans ?_
    rw [View.canon_cons_unit_zero (S := S512x128) hz1]
    simp only [View.readAt_eq_ld, harg2.read_unread, harg3.read_unread, harg4.read_unread, harg5.read_unread, harg8.read_unread, harg9.read_unread,
      View.ld_unit_zero (S := S512x128) hz1, View.ld_unit_zero (S := S512x512) hz1, View.readCov_unit_zero (S := S512x128) _ hz1]
  iexists _; isplitr
  swap; · iexact H9
  ipureintro
  sl_unfold_run_names
  refine (View.read_writes_eq_canon _ _ _ (fun y => ⟨_, List.mem_cons_self, View.mem_set_unit_zero hz1 inb_S512x128_S512x128_0_0 y⟩)).trans ?_
  rw [View.canon_cons_unit_zero (S := S512x128) hz1]
  simp only [View.readAt_eq_ld, harg2.read_unread, harg3.read_unread, harg4.read_unread, harg5.read_unread, harg8.read_unread, harg9.read_unread,
    View.ld_unit_zero (S := S512x128) hz1, View.ld_unit_zero (S := S512x512) hz1, View.readCov_unit_zero (S := S512x128) _ hz1]

/-! ## The staging buffers, and where windows 4 and 5 are written -/

/-- Each window's current staging buffer at position `t`, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)

/-- The four input windows are written at every position. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
theorem liveAt1_3 (t : Fin cfg1.N) : cfg1.idle 3 (grid1.coords t) = false := rfl

/-- Windows 4 and 5 are left alone, and not written back, at a position that does not close a row block; -/
theorem idleAt1_4 (t : Fin cfg1.N) (h : ¬t.val % 16 = 15) : cfg1.idle 4 (grid1.coords t) = true := by
  have hne : ¬(k1_cond2 (grid1.coords t) = 1#1) := fun e => h ((hcond1_1 t).mp e)
  show (!(k1_cond2 (grid1.coords t) == 1#1)) = true
  rw [beq_false_of_ne hne]; rfl
theorem idleAt1_5 (t : Fin cfg1.N) (h : ¬t.val % 16 = 15) : cfg1.idle 5 (grid1.coords t) = true := by
  have hne : ¬(k1_cond2 (grid1.coords t) = 1#1) := fun e => h ((hcond1_1 t).mp e)
  show (!(k1_cond2 (grid1.coords t) == 1#1)) = true
  rw [beq_false_of_ne hne]; rfl
theorem noFlush1_4 (t : Fin cfg1.N) (h : ¬t.val % 16 = 15) : (cfg1.win 4).flush t = false := by
  cases hf : (cfg1.win 4).flush t
  · rfl
  · exact absurd ((flush1_4 t).mp hf) h
theorem noFlush1_5 (t : Fin cfg1.N) (h : ¬t.val % 16 = 15) : (cfg1.win 5).flush t = false := by
  cases hf : (cfg1.win 5).flush t
  · rfl
  · exact absurd ((flush1_5 t).mp hf) h
/-- and written at a position that does. -/
theorem liveAt1_4 (t : Fin cfg1.N) (h : t.val % 16 = 15) : cfg1.idle 4 (grid1.coords t) = false := by
  have he : k1_cond2 (grid1.coords t) = 1#1 := (hcond1_1 t).mpr h
  show (!(k1_cond2 (grid1.coords t) == 1#1)) = false
  rw [he]; rfl
theorem liveAt1_5 (t : Fin cfg1.N) (h : t.val % 16 = 15) : cfg1.idle 5 (grid1.coords t) = false := by
  have he : k1_cond2 (grid1.coords t) = 1#1 := (hcond1_1 t).mpr h
  show (!(k1_cond2 (grid1.coords t) == 1#1)) = false
  rw [he]; rfl

/-! ## What the input buffers hold when the body runs -/

/-- Each input's current staging buffer holds its block at every position, fetched there or not: where it is not
    fetched its block index has not moved and the body left the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-! ## The invariant opened -/

/-- The buffers the call does not stage, with its two accumulators singled out. -/
theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f)
            ∗ (∃ f : Buf (Elt F) ((c : Thread nD τ).loc cc1_scratch1), ((c : Thread nD τ).loc cc1_scratch1) ↦{fullShare} f))
          ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

/-- What the call is entered with, the two accumulators as whole buffers at some contents. -/
theorem PhiA1_eq (c : Dev nD) :
    (Pipeline.ΦA spec1 c : sProp 𝕄)
      = iprop(iprop(iprop((∃ d, owns (c : Thread nD τ) scA1 fullShare d) ∗ (∃ d, owns (c : Thread nD τ) scD1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [scA1, scD1, owns_whole]; try rfl

/-- The invariant at a position's start, restated at `t.val`. -/
theorem Phi1_castSucc (c : Dev nD) (t : Fin cfg1.N) :
    (dat1 V c).Φ t.castSucc = Phi1 V c t.val (Nat.le_of_lt t.isLt) := rfl

/-! ## The body obligation, at a generic position -/

/-- What the body is called with at position `t`, window by window, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any position. The inputs' buffers hold their blocks; the position's remainder mod 16 says which of
    the three cases it is in; the invariant hands the body the two accumulators at what the position before left
    (at anything, at the very first position) and takes them back at this position's accumulations; where the
    position does not close a row block the buffers of windows 4 and 5 go back as they came. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = Phi1 V c (t.val + 1) t.isLt from rfl, Phi1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  have hN : t.val < 256 := lt_of_lt_of_eq t.isLt (show cfg1.N = 256 from N_1)
  by_cases h0 : t.val % 16 = 0
  · have h15 : ¬t.val % 16 = 15 := by omega
    rw [Dat.leavesExact_idle (dat1 V c) 4 t (idleAt1_4 t h15) (noFlush1_4 t h15),
      Dat.leavesExact_idle (dat1 V c) 5 t (idleAt1_5 t h15) (noFlush1_5 t h15)]
    rw [accA1_reset V c t h0, accD1_reset V c t h0]
    by_cases hz : t.val = 0
    · rw [Phi1_castSucc V c t, Phi1_zero V c _ _ hz, PhiA1_eq]
      iintro ⟨⟨⟨⟨HS0, HS1⟩, Hrest⟩, Hg⟩, Ho, ⟨%d0, H0⟩, ⟨%d1, H1⟩, ⟨%d2, H2⟩, ⟨%d3, H3⟩, ⟨%d4, H4⟩, ⟨%d5, H5⟩⟩
      iapply (run1_first c (grid1.coords t) _ _ _ _ _ _ _ _ _ _ _ _ _ _ _ _ ((hcond1_0 t).mpr h0) (fun h => h15 ((hcond1_1 t).mp h)) (iblk1 V c 0 t) (iblk1 V c 1 t) (iblk1 V c 2 t) Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
    · rw [Phi1_castSucc V c t, Phi1_pos V c _ _ hz]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run1_first c (grid1.coords t) _ _ _ _ _ _ _ _ _ _ _ _ _ _ _ _ ((hcond1_0 t).mpr h0) (fun h => h15 ((hcond1_1 t).mp h)) (iblk1 V c 0 t) (iblk1 V c 1 t) (iblk1 V c 2 t) Set.univ _)
      isplitl [H0]; · iexact H0
      isplitl [H1]; · iexact H1
      isplitl [H2]; · iexact H2
      isplitl [HS0]; · iexists _; iexact HS0
      isplitl [HS1]; · iexists _; iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · have hz : t.val ≠ 0 := fun e => h0 (by rw [e])
    rw [accA1_step V c t h0, accD1_step V c t h0]
    rw [Phi1_castSucc V c t, Phi1_pos V c _ _ hz]
    by_cases h15 : t.val % 16 = 15
    · rw [show (dat1 V c).leavesExact 4 t = owns (c : Thread nD τ) (ms1_4 t) fullShare ((dat1 V c).after 4 t) from by
        unfold Dat.leavesExact; rw [liveAt1_4 t h15], after1_4 V c t h15]
      rw [show (dat1 V c).leavesExact 5 t = owns (c : Thread nD τ) (ms1_5 t) fullShare ((dat1 V c).after 5 t) from by
        unfold Dat.leavesExact; rw [liveAt1_5 t h15], after1_5 V c t h15]
      rw [accA1_step V c t h0, accD1_step V c t h0]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run1_last c (grid1.coords t) _ _ _ _ _ _ _ _ _ _ _ _ _ _ _ _ (fun h => h0 ((hcond1_0 t).mp h)) ((hcond1_1 t).mpr h15) (iblk1 V c 0 t) (iblk1 V c 1 t) (iblk1 V c 2 t) (iblk1 V c 3 t) _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, H4, H5, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 4 t (idleAt1_4 t h15) (noFlush1_4 t h15),
        Dat.leavesExact_idle (dat1 V c) 5 t (idleAt1_5 t h15) (noFlush1_5 t h15)]
      iintro ⟨⟨HS0, HS1, Hrest, Hg⟩, Ho, ⟨%d0, H0⟩, ⟨%d1, H1⟩, ⟨%d2, H2⟩, ⟨%d3, H3⟩, ⟨%d4, H4⟩, ⟨%d5, H5⟩⟩
      iapply (run1_mid c (grid1.coords t) _ _ _ _ _ _ _ _ _ _ _ _ _ _ _ _ (fun h => h0 ((hcond1_0 t).mp h)) (fun h => h15 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hrest Hg]
      · isplitl [HS0]; · iexact HS0
        isplitl [HS1]; · iexact HS1
        isplitl [Hrest]; · iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-! ## The three statements the run of the whole program takes -/

/-- The body's obligation at every position. -/
theorem body_obligation1 (c : Dev nD) : BodyObligation (dat1 (F := F) V c) (defs₀ (F := F)) Variants.none () Set.univ := fun t => by
  rw [bigSep_W1, bigSep_W1]
  exact sound_body1 V c t

/-- What the call is entered with is the invariant before the first position. -/
theorem hin1 (c : Dev nD) : Pipeline.ΦA spec1 c ⊢ (dat1 V c).Φ 0 := by
  rw [show (dat1 V c).Φ 0 = Phi1 V c 0 (Nat.zero_le _) from rfl, Phi1_zero V c 0 _ rfl]
  try exact Idealize.SL.BI.Entails.refl _

/-- After any position but the first the invariant gives back what the call was entered with: what the two
    accumulators hold is forgotten. -/
theorem Phi1_out (c : Dev nD) (t : Fin (cfg1.N + 1)) (ht : t.val ≠ 0) : (dat1 V c).Φ t ⊢ Pipeline.ΦA spec1 c := by
  rw [show (dat1 V c).Φ t = Phi1 V c t.val (Nat.le_of_lt_succ t.isLt) from rfl, Phi1_pos V c _ _ ht, PhiA1_eq]
  iintro ⟨HS0, HS1, Hrest, Hg⟩
  isplitl [HS0 HS1 Hrest]
  · isplitl [HS0 HS1]
    · isplitl [HS0]
      · iexists _; iexact HS0
      iexists _; iexact HS1
    iexact Hrest
  iexact Hg

/-- The same after the last position. -/
theorem hout1 (c : Dev nD) : (dat1 V c).Φ (Fin.last cfg1.N) ⊢ Pipeline.ΦA spec1 c :=
  Phi1_out V c _ (by rw [Fin.val_last]; have : cfg1.N = 256 := N_1; omega)

end Cert.KernelIdeal.Hand
-- ==== Proof.KI.R2.lean ====
import proofs.«167914_g71622874628668_fold_wed_m_490_1_alg».proof.Proof.Gen.KernelIdeal.Launch
import proofs.«167914_g71622874628668_fold_wed_m_490_1_alg».proof.Proof.Gen.KernelIdeal.Skeleton
import proofs.«167914_g71622874628668_fold_wed_m_490_1_alg».proof.Proof.Gen.KernelIdeal.Points
import proofs.«167914_g71622874628668_fold_wed_m_490_1_alg».proof.Proof.KI.Shares
import Idealize.ShloMosaic.Lib.Pipeline.FrameBody
import Idealize.ShloMosaic.Lib.Pipeline.Kit
import Idealize.ShloMosaic.Lib.Pipeline.Value
import Idealize.ShloMosaic.Lib.Ring
import Idealize.ShloMosaic.Lib.Tactic

/-! # The third call: the second propagation step, accumulated over sixteen column blocks, with the last layer fused

The grid is 16 x 16; the position `n` of a point is `16 * i + k` with `k = n % 16` innermost. At the point
`(i, k)` the body sees the block `(i, k)` of the propagation matrix `A` (512 x 512), the row block `k` of `Y1`
(512 x 128, the contraction operand), and — constant along `k` — the row block `i` of `Y1` and of `D h`, the
whole last-layer weights (128 x 64) and the whole bias row (1 x 64).

One accumulator (512 x 128) is carried from point to point: at `k = 0` it is reset to zero, at every point the
product of the `A` block with the `Y1` contraction block is added to it, and at `k = 15` — when it holds row block
`i` of `A * Y1` — the output block `i` (512 x 64) is written:
`max (1/2 * Y1_i + 1/2 * acc + 1/2 * (D h)_i) 0 * W + bias`. At the other points the output's buffer is not touched.

So a point is in one of three cases: `k = 0` (reset, then accumulate), `0 < k < 15` (accumulate), `k = 15`
(accumulate, then write the output block). `Y1` is read through two windows, so its array is held at the two halves
of the full share, one per window. Everything is stated at the contents `V` the buffers hold when the call begins. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the buffer contents when the call begins
variable (V : (c : Dev nD) → (b : Ref sig .tc) → Buf (Elt F) ((c : Thread nD τ).loc b))

/-! ## The two conditions of the body, in closed form -/

/-- The condition of the reset: the column block index `k` is zero. -/
abbrev cond2_0 (i : grid2.Coords) : Prop := (Scalar.cmpi .ne (Scalar.extui (Scalar.cmpi .eq (BitVec.ofNat 32 (i 1).val) 0#32)) 0#32) = 1#1
/-- The reset's condition holds exactly at the positions that are multiples of 16. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the output's store: `k` is the last column block, 15. -/
abbrev cond2_1 (i : grid2.Coords) : Prop := k2_cond2 i = 1#1
/-- The condition of the output's store holds exactly at the positions that are 15 modulo 16. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are written -/

/-- The six inputs are read at every point. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
/-- At a point off the last column block the body stores nothing into the output's buffer. -/
theorem idleAt2_6 : ∀ t : Fin cfg2.N, ¬cond2_1 (grid2.coords t) → cfg2.idle 6 (grid2.coords t) = true := by decide +kernel
/-- At a point off the last column block the output's block is not written back to its array. -/
theorem noFlush2_6 : ∀ t : Fin cfg2.N, ¬cond2_1 (grid2.coords t) → (cfg2.win 6).flush t = false := by decide +kernel
/-- At a point of the last column block the body stores into the output's buffer. -/
theorem liveAt2_6 : ∀ t : Fin cfg2.N, cond2_1 (grid2.coords t) → cfg2.idle 6 (grid2.coords t) = false := by decide +kernel

/-! ## The buffers the body is called with -/

/-- Each window's current buffer at the point `t`, and that it is a whole buffer. -/
abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x64 .f32 := win2_6.stage (cfg2.slots t 6)
abbrev hs2_6 (t : Fin cfg2.N) : (ms2_6 t).IsWhole := hstage2_6 ((cfg2.slots t 6).cast nbuf2_6)
/-- The carried accumulator, as a memref on its whole buffer. -/
abbrev scM2 : Memref sig .tc .vmem S512x128 .f32 := Memref.whole cc2_scratch0
abbrev hscM2 : scM2.IsWhole := Memref.isWhole_whole _

/-- Every load and store of the body is through the whole-block rectangle at offsets zero. -/
theorem hz2 : (![0, 0] : Fin 2 → Nat) = fun _ => 0 := funext fun a => by
  match a with
  | ⟨0, _⟩ => rfl
  | ⟨1, _⟩ => rfl

/-! ## The body's run in each of the three cases

Each is stated on any whole buffers: the inputs the case reads at given contents, the accumulator at given
contents (at anything where the case resets it first), the output's buffer at anything where the case stores into
it; the body runs to the same inputs, and the buffers it stored into with the stores written, as the list of pieces
the run finds (last store first). -/

set_option maxHeartbeats 1000000 in
/-- `k = 0`: the accumulator is reset, then the product of the `A` block `x0` and the contraction block `x1` is added. -/
noncomputable def kernelRun2_A (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ (∃ d, owns (c : Thread nD τ) arg9 fullShare d)
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__pass2_kernel i arg2 harg2 arg3 harg3 arg4 harg4 arg5 harg5 arg6 harg6 arg7 harg7 arg8 harg8 arg9 harg9) K } := by
  refine ⟨?_, fun E K => ?run⟩
  case run =>
    simp only [cc2__pass2_kernel_eq_skeleton]; unfold cc2__pass2_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- `0 < k < 15`: the product of the `A` block `x0` and the contraction block `x1` is added to the accumulator's `xs`. -/
noncomputable def kernelRun2_B (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (xs : Vec F S512x128 .f32) :
    { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg9 fullShare xs
            ∗ (iprop(owns (c : Thread nD τ) arg2 fullShare x0 ∗ owns (c : Thread nD τ) arg3 fullShare x1 ∗ (∃ f, arg9.view.loc (c : Thread nD τ) ↦[arg9.view.set]{fullShare} arg9.view.writes (Elt F) f LS)) -∗ K ⟨⟩))
          ⊢ wp frame (wpE (defs₀ (F := F)) Variants.none c none) E (cc2__pass2_kernel i arg2 harg2 arg3 harg3 arg4 harg4 arg5 harg5 arg6 harg6 arg7 harg7 arg8 harg8 arg9 harg9) K } := by
  refine ⟨?_, fun E K => ?run⟩
  case run =>
    simp only [cc2__pass2_kernel_eq_skeleton]; unfold cc2__pass2_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- `k = 15`: the product is added to the accumulator's `xs`; then the output block is stored, computed from the row
    blocks `x2` of `Y1` and `x3` of `D h`, the finished accumulator, the weights `x4` and the bias row `x5`. -/
noncomputable def kernelRun2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32) :
    Σ' (L6 : List (View.Piece (Elt F) S512x64 .f32)), { LS : List (View.Piece (Elt F) S512x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
            ∗ (∃ d, owns (c : Thread nD τ) arg8 fullShare d) ∗ owns (c : Thread nD τ) arg9 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
                ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS)) -∗ K ⟨⟩))
          ⊢ wp frame (wpE (defs₀ (F := F)) Variants.none c none) E (cc2__pass2_kernel i arg2 harg2 arg3 harg3 arg4 harg4 arg5 harg5 arg6 harg6 arg7 harg7 arg8 harg8 arg9 harg9) K } := by
  refine ⟨?_, ?_, fun E K => ?run⟩
  case run =>
    simp only [cc2__pass2_kernel_eq_skeleton]; unfold cc2__pass2_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg9.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact HS

/-! ## What each case leaves, read back

The pieces a case's run finds cover the buffer (each store is of the whole block), so whatever the buffer held
before, it reads afterwards as the last store's value; a load of the accumulator after a store of the same run
reads that store's value. -/

theorem scover2_A (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32) (y : S512x128.Idx) :
    ∃ pc ∈ (kernelRun2_A c i arg2 harg2 arg3 harg3 arg4 harg4 arg5 harg5 arg6 harg6 arg7 harg7 arg8 harg8 arg9 harg9 hc0 hc1 x0 x1).1, y ∈ pc.1.set :=
  View.cover_of_tiledL (kernelRun2_A c i arg2 harg2 arg3 harg3 arg4 harg4 arg5 harg5 arg6 harg6 arg7 harg7 arg8 harg8 arg9 harg9 hc0 hc1 x0 x1).1 S512x128.size (by sl_kernel_rfl) y

theorem scover2_B (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (xs : Vec F S512x128 .f32) (y : S512x128.Idx) :
    ∃ pc ∈ (kernelRun2_B c i arg2 harg2 arg3 harg3 arg4 harg4 arg5 harg5 arg6 harg6 arg7 harg7 arg8 harg8 arg9 harg9 hc0 hc1 x0 x1 xs).1, y ∈ pc.1.set :=
  View.cover_of_tiledL (kernelRun2_B c i arg2 harg2 arg3 harg3 arg4 harg4 arg5 harg5 arg6 harg6 arg7 harg7 arg8 harg8 arg9 harg9 hc0 hc1 x0 x1 xs).1 S512x128.size (by sl_kernel_rfl) y

theorem cover2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32) (y : S512x64.Idx) :
    ∃ pc ∈ (kernelRun2_C c i arg2 harg2 arg3 harg3 arg4 harg4 arg5 harg5 arg6 harg6 arg7 harg7 arg8 harg8 arg9 harg9 hc0 hc1 x0 x1 x2 x3 x4 x5 xs).1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs).1 S512x64.size (by sl_kernel_rfl) y

theorem scover2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32) (y : S512x128.Idx) :
    ∃ pc ∈ (kernelRun2_C c i arg2 harg2 arg3 harg3 arg4 harg4 arg5 harg5 arg6 harg6 arg7 harg7 arg8 harg8 arg9 harg9 hc0 hc1 x0 x1 x2 x3 x4 x5 xs).2.1, y ∈ pc.1.set :=
  View.cover_of_tiledL (kernelRun2_C c i arg2 harg2 arg3 harg3 arg4 harg4 arg5 harg5 arg6 harg6 arg7 harg7 arg8 harg8 arg9 harg9 hc0 hc1 x0 x1 x2 x3 x4 x5 xs).2.1 S512x128.size (by sl_kernel_rfl) y

/-- `k = 0` leaves the accumulator at zero plus the product of the two blocks. -/
theorem sread2_A (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32)
    {κ : Kind} {sp : Space} (v : View sig κ sp S512x128 .f32) (f : v.ty.Contents (Elt F)) :
    v.read (Elt F) (v.writes (Elt F) f (kernelRun2_A c i arg2 harg2 arg3 harg3 arg4 harg4 arg5 harg5 arg6 harg6 arg7 harg7 arg8 harg8 arg9 harg9 hc0 hc1 x0 x1).1) = Gen.k2_pay2 (Gen.k2_pay1 (F := F)) x0 x1 := by
  rw [View.read_writes_eq_canon _ _ _ (scover2_A c i arg2 harg2 arg3 harg3 arg4 harg4 arg5 harg5 arg6 harg6 arg7 harg7 arg8 harg8 arg9 harg9 hc0 hc1 x0 x1)]
  unfold kernelRun2_A
  dsimp only
  try sl_unfold_words
  rw [View.canon_cons_unit_zero (S := S512x128) hz2]
  simp only [View.readAt_eq_ld, harg2.read_unread, harg3.read_unread, View.ld_unit_zero (S := S512x512) hz2, View.ld_unit_zero (S := S512x128) hz2, View.readCov_unit_zero (S := S512x128) _ hz2]

/-- `0 < k < 15` leaves the accumulator at what it held plus the product of the two blocks. -/
theorem sread2_B (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (xs : Vec F S512x128 .f32)
    {κ : Kind} {sp : Space} (v : View sig κ sp S512x128 .f32) (f : v.ty.Contents (Elt F)) :
    v.read (Elt F) (v.writes (Elt F) f (kernelRun2_B c i arg2 harg2 arg3 harg3 arg4 harg4 arg5 harg5 arg6 harg6 arg7 harg7 arg8 harg8 arg9 harg9 hc0 hc1 x0 x1 xs).1) = Gen.k2_pay2 xs x0 x1 := by
  rw [View.read_writes_eq_canon _ _ _ (scover2_B c i arg2 harg2 arg3 harg3 arg4 harg4 arg5 harg5 arg6 harg6 arg7 harg7 arg8 harg8 arg9 harg9 hc0 hc1 x0 x1 xs)]
  unfold kernelRun2_B
  dsimp only
  try sl_unfold_words
  rw [View.canon_unit_zero (S := S512x128) hz2]
  simp only [View.readAt_eq_ld, harg2.read_unread, harg3.read_unread, harg9.read_unread, View.ld_unit_zero (S := S512x512) hz2, View.ld_unit_zero (S := S512x128) hz2]

/-- `k = 15` leaves the accumulator at what it held plus the product of the two blocks. -/
theorem sread2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32)
    {κ : Kind} {sp : Space} (v : View sig κ sp S512x128 .f32) (f : v.ty.Contents (Elt F)) :
    v.read (Elt F) (v.writes (Elt F) f (kernelRun2_C c i arg2 harg2 arg3 harg3 arg4 harg4 arg5 harg5 arg6 harg6 arg7 harg7 arg8 harg8 arg9 harg9 hc0 hc1 x0 x1 x2 x3 x4 x5 xs).2.1) = Gen.k2_pay2 xs x0 x1 := by
  rw [View.read_writes_eq_canon _ _ _ (scover2_C c i arg2 harg2 arg3 harg3 arg4 harg4 arg5 harg5 arg6 harg6 arg7 harg7 arg8 harg8 arg9 harg9 hc0 hc1 x0 x1 x2 x3 x4 x5 xs)]
  unfold kernelRun2_C
  dsimp only
  try sl_unfold_words
  rw [View.canon_unit_zero (S := S512x128) hz2]
  simp only [View.readAt_eq_ld, harg2.read_unread, harg3.read_unread, harg9.read_unread, View.ld_unit_zero (S := S512x512) hz2, View.ld_unit_zero (S := S512x128) hz2]

/-- `k = 15` leaves the output's buffer at the last layer applied to the row blocks of `Y1` and `D h` and the finished
    accumulator (what it held plus the product of the two blocks), with the weights and the bias row. -/
theorem oread2_C (c : Dev nD) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 x2 x3 : Vec F S512x128 .f32) (x4 : Vec F S128x64 .f32) (x5 : Vec F S1x64 .f32) (xs : Vec F S512x128 .f32)
    {κ : Kind} {sp : Space} (v : View sig κ sp S512x64 .f32) (f : v.ty.Contents (Elt F)) :
    v.read (Elt F) (v.writes (Elt F) f (kernelRun2_C c i arg2 harg2 arg3 harg3 arg4 harg4 arg5 harg5 arg6 harg6 arg7 harg7 arg8 harg8 arg9 harg9 hc0 hc1 x0 x1 x2 x3 x4 x5 xs).1) = Gen.k2_pay3 x2 (Gen.k2_pay2 xs x0 x1) x3 x4 x5 := by
  rw [View.read_writes_eq_canon _ _ _ (cover2_C c i arg2 harg2 arg3 harg3 arg4 harg4 arg5 harg5 arg6 harg6 arg7 harg7 arg8 harg8 arg9 harg9 hc0 hc1 x0 x1 x2 x3 x4 x5 xs)]
  unfold kernelRun2_C
  dsimp only
  try sl_unfold_words
  rw [View.canon_unit_zero (S := S512x64) hz2]
  simp only [View.readAt_eq_ld, harg2.read_unread, harg3.read_unread, harg4.read_unread, harg5.read_unread, harg6.read_unread, harg7.read_unread, harg9.read_unread, View.ld_unit_zero (S := S512x512) hz2, View.ld_unit_zero (S := S512x128) hz2, View.ld_unit_zero (S := S128x64) hz2, View.ld_unit_zero (S := S1x64) hz2, View.readCov_unit_zero (S := S512x128) _ hz2]

/-! ## The windows' blocks and the accumulator -/

/-- Window `w`'s block at the point `t`, read off its array at the entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The accumulator after the point at position `n`: the product of that point's `A` block and `Y1` contraction
    block added to zero when `n % 16 = 0` (a new row block begins), else to what the point before left. After the
    point `16 * i + k` it is the sum over the column blocks `0 .. k` of row block `i`. -/
def acc2 (c : Dev nD) : (n : ℕ) → n < cfg2.N → Vec F S512x128 .f32
  | 0, hn => Gen.k2_pay2 (Gen.k2_pay1 (F := F)) (iblk2 V c 0 ⟨0, hn⟩) (iblk2 V c 1 ⟨0, hn⟩)
  | n + 1, hn =>
    Gen.k2_pay2 (if (n + 1) % 16 = 0 then Gen.k2_pay1 (F := F) else acc2 c n (Nat.lt_of_succ_lt hn))
      (iblk2 V c 0 ⟨n + 1, hn⟩) (iblk2 V c 1 ⟨n + 1, hn⟩)

/-- At a position that is a multiple of 16 (first column block of a row block) the accumulator is zero plus that
    point's product. -/
theorem acc2_at_reset (c : Dev nD) (t : Fin cfg2.N) (h : t.val % 16 = 0) :
    acc2 V c t.val t.isLt = Gen.k2_pay2 (Gen.k2_pay1 (F := F)) (iblk2 V c 0 t) (iblk2 V c 1 t) := by
  obtain ⟨n, hn⟩ := t
  cases n with
  | zero => rfl
  | succ n => exact congrArg (fun z => Gen.k2_pay2 z (iblk2 V c 0 ⟨n + 1, hn⟩) (iblk2 V c 1 ⟨n + 1, hn⟩)) (if_pos h)

/-- At a position that is not a multiple of 16 the accumulator is what the point before left plus this point's
    product. -/
theorem acc2_at_step (c : Dev nD) (t : Fin cfg2.N) (h : ¬t.val % 16 = 0) :
    acc2 V c t.val t.isLt = Gen.k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h
  | succ n => exact congrArg (fun z => Gen.k2_pay2 z (iblk2 V c 0 ⟨n + 1, hn⟩) (iblk2 V c 1 ⟨n + 1, hn⟩)) (if_neg h)

/-! ## The invariant -/

/-- The core's buffers that no window of this call stages, the accumulator apart, each at some contents. -/
abbrev others2 (c : Dev nD) : sProp 𝕄 :=
  Pipeline.scopedRestBut (Ix := Unit) (Name := ℕ) (U := UR sig nD τ) (Lvl := ℕ) (Val := Elt F) spec2 c [cc2_scratch0]

/-- The invariant before position `n`. Before the first point: the core's buffers no window stages, each at some
    contents, and the generator register at some state. Afterwards the same, except that the accumulator holds
    `acc2` of the point before. -/
def Phi2 (c : Dev nD) : (n : ℕ) → n ≤ cfg2.N → sProp 𝕄
  | 0, _ => Pipeline.ΦA spec2 c
  | n + 1, hn => iprop(iprop(owns (c : Thread nD τ) scM2 fullShare (acc2 V c n hn) ∗ others2 c) ∗ (∃ r, prngReg c r))

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop(iprop(owns (c : Thread nD τ) scM2 fullShare (acc2 V c n hn) ∗ others2 c) ∗ (∃ r, prngReg c r)) := rfl

theorem Phi2_pos (c : Dev nD) (n : ℕ) (h : n ≤ cfg2.N) (hz : n ≠ 0) :
    Phi2 V c n h = iprop(iprop(owns (c : Thread nD τ) scM2 fullShare (acc2 V c (n - 1) (by omega)) ∗ others2 c) ∗ (∃ r, prngReg c r)) := by
  cases n with
  | zero => exact absurd rfl hz
  | succ n => rfl

/-- The buffers no window stages, with the accumulator's set apart. -/
theorem scopedRest2_split (c : Dev nD) :
    (Pipeline.scopedRest (Ix := Unit) (Name := ℕ) (U := UR sig nD τ) (Lvl := ℕ) (Val := Elt F) spec2 c : sProp 𝕄)
      = iprop((∃ f : Buf (Elt F) ((c : Thread nD τ).loc cc2_scratch0), ((c : Thread nD τ).loc cc2_scratch0) ↦{fullShare} f) ∗ others2 c) :=
  Pipeline.scopedRest_split_of_list spec2 c [cc2_scratch0] (by decide) (by decide)

/-- What the call is entered with, the accumulator as a memref at some contents. -/
theorem PhiA2_eq (c : Dev nD) :
    (Pipeline.ΦA spec2 c : sProp 𝕄)
      = iprop(iprop((∃ d, owns (c : Thread nD τ) scM2 fullShare d) ∗ others2 c) ∗ (∃ r, prngReg c r)) := by
  unfold Pipeline.ΦA; rw [scopedRest2_split]; simp only [scM2, owns_whole]; try rfl

/-- At any position the invariant gives the accumulator at some contents: its named contents are forgotten. -/
theorem Phi2_any (c : Dev nD) (n : ℕ) (h : n ≤ cfg2.N) :
    Phi2 V c n h ⊢ iprop(iprop((∃ d, owns (c : Thread nD τ) scM2 fullShare d) ∗ others2 c) ∗ (∃ r, prngReg c r)) := by
  cases n with
  | zero => rw [Phi2_zero V c 0 h rfl, PhiA2_eq]
  | succ n =>
    rw [Phi2_succ]
    iintro ⟨⟨HS, HR⟩, Hg⟩
    isplitl [HS HR]
    · isplitl [HS]
      · iexists _; iexact HS
      iexact HR
    iexact Hg

/-! ## The call's data -/

/-- The call's data on core `c`: the arrays as found (`V`); after the body each of the six inputs still holds its
    block; the output's buffer holds the last layer applied to `1/2 * Y1_i + 1/2 * acc + 1/2 * (D h)_i` with `acc` the
    accumulator after this point (written at `k = 15` only, and read by the write-back there only); the invariant
    carries the accumulator; nothing is owed; `Y1` is held at the two half shares, every other array at the full one. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => Gen.k2_pay3 (iblk2 V c 2 t) (acc2 V c t.val t.isLt) (iblk2 V c 3 t) (iblk2 V c 4 t) (iblk2 V c 5 t)
  Φ t := Phi2 V c t.val (Nat.le_of_lt_succ t.isLt)
  q := q2
  owed _ := 0

/-- The data's arrays are the entry contents. -/
theorem A_eq2 (c : Dev nD) (w : Fin cfg2.W) : (dat2 V c).A w = V c (Pipeline.arrRef spec2 w) := by
  dsimp only [dat2]

/-- The data's shares: the two halves for the two windows on `Y1`, the full share elsewhere. -/
theorem q_eq2 (c : Dev nD) : (dat2 V c).q = q2 := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6_all (c : Dev nD) (t : Fin cfg2.N) :
    (dat2 V c).after 6 t = Gen.k2_pay3 (iblk2 V c 2 t) (acc2 V c t.val t.isLt) (iblk2 V c 3 t) (iblk2 V c 4 t) (iblk2 V c 5 t) := by
  dsimp only [dat2]

/-- What the body leaves in the output window at the last column block: the last layer of the three row blocks and
    the finished accumulator. -/
theorem after2_6 (c : Dev nD) (t : Fin cfg2.N) (h : t.val % 16 = 15) :
    (dat2 V c).after 6 t = Gen.k2_pay3 (iblk2 V c 2 t) (acc2 V c t.val t.isLt) (iblk2 V c 3 t) (iblk2 V c 4 t) (iblk2 V c 5 t) :=
  after2_6_all V c t

/-- The invariant at a point's start, restated at the point's position. -/
theorem Phi2_castSucc (c : Dev nD) (t : Fin cfg2.N) :
    (dat2 V c).Φ t.castSucc = Phi2 V c t.val (Nat.le_of_lt t.isLt) := by
  dsimp only [dat2]; simp only [Fin.coe_castSucc]

/-- Each input's current buffer holds its block at every point, whether or not it was fetched there: where it was
    not, the block index has not moved since the point before. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)

/-- After the body each input's buffer is left at its block. -/
theorem leaves2_0 (c : Dev nD) (t : Fin cfg2.N) : (dat2 V c).leavesExact 0 t = owns (c : Thread nD τ) (ms2_0 t) fullShare (iblk2 V c 0 t) := by
  rw [show (dat2 V c).leavesExact 0 t = owns (c : Thread nD τ) (ms2_0 t) fullShare ((dat2 V c).after 0 t) from by
    unfold Dat.leavesExact; rw [liveAt2_0 t], after2_0]
theorem leaves2_1 (c : Dev nD) (t : Fin cfg2.N) : (dat2 V c).leavesExact 1 t = owns (c : Thread nD τ) (ms2_1 t) fullShare (iblk2 V c 1 t) := by
  rw [show (dat2 V c).leavesExact 1 t = owns (c : Thread nD τ) (ms2_1 t) fullShare ((dat2 V c).after 1 t) from by
    unfold Dat.leavesExact; rw [liveAt2_1 t], after2_1]
theorem leaves2_2 (c : Dev nD) (t : Fin cfg2.N) : (dat2 V c).leavesExact 2 t = owns (c : Thread nD τ) (ms2_2 t) fullShare (iblk2 V c 2 t) := by
  rw [show (dat2 V c).leavesExact 2 t = owns (c : Thread nD τ) (ms2_2 t) fullShare ((dat2 V c).after 2 t) from by
    unfold Dat.leavesExact; rw [liveAt2_2 t], after2_2]
theorem leaves2_3 (c : Dev nD) (t : Fin cfg2.N) : (dat2 V c).leavesExact 3 t = owns (c : Thread nD τ) (ms2_3 t) fullShare (iblk2 V c 3 t) := by
  rw [show (dat2 V c).leavesExact 3 t = owns (c : Thread nD τ) (ms2_3 t) fullShare ((dat2 V c).after 3 t) from by
    unfold Dat.leavesExact; rw [liveAt2_3 t], after2_3]
theorem leaves2_4 (c : Dev nD) (t : Fin cfg2.N) : (dat2 V c).leavesExact 4 t = owns (c : Thread nD τ) (ms2_4 t) fullShare (iblk2 V c 4 t) := by
  rw [show (dat2 V c).leavesExact 4 t = owns (c : Thread nD τ) (ms2_4 t) fullShare ((dat2 V c).after 4 t) from by
    unfold Dat.leavesExact; rw [liveAt2_4 t], after2_4]
theorem leaves2_5 (c : Dev nD) (t : Fin cfg2.N) : (dat2 V c).leavesExact 5 t = owns (c : Thread nD τ) (ms2_5 t) fullShare (iblk2 V c 5 t) := by
  rw [show (dat2 V c).leavesExact 5 t = owns (c : Thread nD τ) (ms2_5 t) fullShare ((dat2 V c).after 5 t) from by
    unfold Dat.leavesExact; rw [liveAt2_5 t], after2_5]

/-! ## The body's obligation -/

/-- What the body is called with at the point `t`: the invariant, what the core owes (nothing), and each window's
    current buffer at what it then holds. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- What the body returns at the point `t`: the invariant of the next position, what the core owes (nothing), and
    each window's current buffer at what the body leaves there. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point. The inputs' buffers hold their blocks; the position modulo 16 says which case the point
    is in. At `k = 0` the accumulator is taken at anything and given back at zero plus the product; at `k > 0` it is
    taken at what the point before left and given back with the product added, which is `acc2` at this point. Off
    `k = 15` the output's buffer is handed back untouched; at `k = 15` it is given back at the last layer of the row
    blocks and the finished accumulator. Nothing is owed throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2, leaves2_3, leaves2_4, leaves2_5]
  rw [Phi2_castSucc V c t]
  by_cases h0 : t.val % 16 = 0
  · have h1 : ¬t.val % 16 = 15 := by omega
    have hc0 : cond2_0 (grid2.coords t) := (hcond2_0 t).mpr h0
    have hc1 : ¬cond2_1 (grid2.coords t) := fun h => h1 ((hcond2_1 t).mp h)
    rw [Dat.leavesExact_idle (dat2 V c) 6 t (idleAt2_6 t hc1) (noFlush2_6 t hc1)]
    rw [acc2_at_reset V c t h0]
    iintro ⟨HP, Ho, ⟨%d0, H0⟩, ⟨%d1, H1⟩, ⟨%d2, H2⟩, ⟨%d3, H3⟩, ⟨%d4, H4⟩, ⟨%d5, H5⟩, H6⟩
    ihave HP' := (Phi2_any V c t.val (Nat.le_of_lt t.isLt)) $$ HP
    icases HP' with ⟨⟨HS, HR⟩, Hg⟩
    iapply ((kernelRun2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t)).2 Set.univ _)
    isplitl [H0]; · iexact H0
    isplitl [H1]; · iexact H1
    isplitl [HS]; · iexact HS
    iintro ⟨H0, H1, ⟨%es, HS⟩⟩
    isplitl [HS HR Hg]
    · isplitl [HS HR]
      · isplitl [HS]
        · unfold owns; iexists _; isplitr
          swap; · iexact HS
          ipureintro
          exact sread2_A c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) scM2.view es
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hz : t.val ≠ 0 := by omega
    have hc0 : ¬cond2_0 (grid2.coords t) := fun h => h0 ((hcond2_0 t).mp h)
    rw [acc2_at_step V c t h0, Phi2_pos V c _ _ hz]
    by_cases h1 : t.val % 16 = 15
    · have hc1 : cond2_1 (grid2.coords t) := (hcond2_1 t).mpr h1
      rw [show (dat2 V c).leavesExact 6 t = owns (c : Thread nD τ) (ms2_6 t) fullShare ((dat2 V c).after 6 t) from by
        unfold Dat.leavesExact; rw [liveAt2_6 t hc1], after2_6_all, acc2_at_step V c t h0]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt))).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS]; · iexact HS
      iintro ⟨H0, H1, H2, H3, H4, H5, ⟨%e6, H6⟩, ⟨%es, HS⟩⟩
      isplitl [HS HR Hg]
      · isplitl [HS HR]
        · isplitl [HS]
          · unfold owns; iexists _; isplitr
            swap; · iexact HS
            ipureintro
            exact sread2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) scM2.view es
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      unfold owns; iexists _; isplitr
      swap; · iexact H6
      ipureintro
      exact oread2_C c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (iblk2 V c 2 t) (iblk2 V c 3 t) (iblk2 V c 4 t) (iblk2 V c 5 t) (acc2 V c (t.val - 1) (Nat.lt_of_le_of_lt (Nat.sub_le _ _) t.isLt)) (ms2_6 t).view e6
    · have hc1 : ¬cond2_1 (grid2.coords t) := fun h => h1 ((hcond2_1 t).mp h)
      rw [Dat.leavesExact_idle (dat2 V c) 6 t (idleAt2_6 t hc1) (noFlush2_6 t hc1)]
      iintro ⟨⟨⟨HS, HR⟩, Hg⟩, Ho, ⟨%d0, H0⟩, ⟨%d1, H1⟩, ⟨%d2, H2⟩, ⟨%d3, H3⟩, ⟨%d4, H4⟩, ⟨%d5, H5⟩, H6⟩
      iapply ((kernelRun2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (acc2 V c (t.val - 1) (Nat.lt_of_le_of_lt (Nat.sub_le _ _) t.isLt))).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro
            exact sread2_B c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) scM2 hscM2 hc0 hc1 (iblk2 V c 0 t) (iblk2 V c 1 t) (acc2 V c (t.val - 1) (Nat.lt_of_le_of_lt (Nat.sub_le _ _) t.isLt)) scM2.view es
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body's obligation, at every point. -/
theorem body_obligation2 (c : Dev nD) : BodyObligation (dat2 (F := F) V c) (defs₀ (F := F)) Variants.none () Set.univ := fun t => by
  rw [bigSep_W2, bigSep_W2]
  exact sound_body2 V c t

/-- What the call is entered with is the invariant before the first point. -/
theorem hin2 (c : Dev nD) : Pipeline.ΦA spec2 c ⊢ (dat2 V c).Φ 0 := by
  rw [show (dat2 V c).Φ 0 = Phi2 V c 0 (Nat.zero_le _) from rfl, Phi2_zero V c 0 _ rfl]

/-- After the last point the invariant gives back what the call was entered with: the accumulator's contents are
    forgotten. -/
theorem hout2 (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl, PhiA2_eq]
  exact Phi2_any V c _ _

end Cert.KernelIdeal.Hand
-- ==== Proof.KI.Arr1.lean ====
/-
  The second kernel call's windowed arrays among the core's main-memory buffers.

  The call has six windows over FIVE arrays: its third and fourth windows, both inputs, read one array (the
  first call's result), once by contraction block and once by row block. The core holds every main-memory
  buffer whole at the full share; the call's proof data holds one points-to per WINDOW, an output's at the full
  share and an input's at the window's own share. So on entry the shared array's full share is split into its
  two halves, one per reading window, and every other array passes as it is; on exit the two halves, which hold
  the same contents, are joined back into the full share. Both directions carry along, untouched, the
  main-memory buffers that are no window's array.
-/
import proofs.«167914_g71622874628668_fold_wed_m_490_1_alg».proof.Proof.Gen.KernelIdeal.Launch
import proofs.«167914_g71622874628668_fold_wed_m_490_1_alg».proof.Proof.KI.Shares
import Idealize.ShloMosaic.Lib.Pipeline.Kit
import Idealize.ShloMosaic.Lib.Pipeline.Launch
import Idealize.ShloMosaic.Rules.PointsTo

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffers behind the windows' arrays -/

/-- The six windows' arrays are five buffers: the third and the fourth window read the same one. -/
theorem arrRefs1 : Finset.univ.image (Pipeline.arrRef spec1) = [main_arg1, main_arg2, main_v1, main_v2_0, main_v2_1].toFinset := by
  decide

/-- The core's main-memory buffers at contents `W`: the five buffers behind the windows' arrays, and the rest. -/
theorem held_split1 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec1 c W : sProp 𝕄)
          ∗ Pipeline.unscopedRest (Ix := Unit) (Name := ℕ) (U := UR sig nD τ) (Lvl := ℕ) spec1 c W) :=
  Pipeline.unscopedBufs_split₀ cfgs 1 winFacts₀1.arr_unscoped c W

/-- The five buffers behind the arrays, one by one, each whole at the full share. -/
theorem arrBufs_chain1 (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_arg1) ↦{fullShare} W main_arg1)
          ∗ (((c : Thread nD τ).loc main_arg2) ↦{fullShare} W main_arg2)
          ∗ (((c : Thread nD τ).loc main_v1) ↦{fullShare} W main_v1)
          ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_arg1, main_arg2, main_v1, main_v2_0, main_v2_1] arrRefs1 (by decide) _

/-! ## The windows' points-tos -/

section Windows

variable (c : Dev nD) (dat : Dat τ (Elt F) Unit ℕ (UR sig nD τ) ℕ cfg1 c)

/-- The share each window's array is held at, once the input shares are the two halves on the shared array and
    the full share elsewhere: an output's (windows 4 and 5) is the full share whatever `q` says. -/
theorem share1_0 (hq : dat.q = q1) : dat.share 0 = fullShare := congrFun hq 0
theorem share1_1 (hq : dat.q = q1) : dat.share 1 = fullShare := congrFun hq 1
theorem share1_2 (hq : dat.q = q1) : dat.share 2 = fullShare.left := congrFun hq 2
theorem share1_3 (hq : dat.q = q1) : dat.share 3 = fullShare.right := congrFun hq 3
theorem share1_4 : dat.share 4 = fullShare := rfl
theorem share1_5 : dat.share 5 = fullShare := rfl

/-- One window's points-to among the call's `arrays`, at contents read off a valuation `W` of the core's buffers:
    the window's array is a whole buffer, so it is the buffer behind it, whole, at the window's share. -/
theorem window_eq1 (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) (w : Fin cfg1.W) :
    ((cfg1.win w).arr.view.loc (c.tc : Thread nD τ) ↦[(cfg1.win w).arr.view.set]{dat.share w} G w : sProp 𝕄)
      = (((c : Thread nD τ).loc (Pipeline.arrRef spec1 w)) ↦{dat.share w} W (Pipeline.arrRef spec1 w)) := by
  rw [(arr_whole1 w).set_eq_univ, hG w]

/-- The call's `arrays` at contents read off `W`, window by window: the shared array appears twice, at the left
    half under the third window and at the right half under the fourth. -/
theorem arrays_chain1 (hq : dat.q = q1) (W : (b : Ref sig .tc) → Buf (Elt F) ((c : Thread nD τ).loc b))
    (G : (w : Fin cfg1.W) → Buf (Elt F) ((cfg1.win w).arr.view.loc (c.tc : Thread nD τ)))
    (hG : ∀ w, G w = W (Pipeline.arrRef spec1 w)) :
    (dat.arrays G : sProp 𝕄)
      = iprop((((c : Thread nD τ).loc main_arg1) ↦{fullShare} W main_arg1)
          ∗ (((c : Thread nD τ).loc main_arg2) ↦{fullShare} W main_arg2)
          ∗ (((c : Thread nD τ).loc main_v1) ↦{fullShare.left} W main_v1)
          ∗ (((c : Thread nD τ).loc main_v1) ↦{fullShare.right} W main_v1)
          ∗ (((c : Thread nD τ).loc main_v2_0) ↦{fullShare} W main_v2_0)
          ∗ (((c : Thread nD τ).loc main_v2_1) ↦{fullShare} W main_v2_1)) := by
  unfold Dat.arrays
  rw [bigSep_W1, window_eq1 c dat W G hG 0, window_eq1 c dat W G hG 1, window_eq1 c dat W G hG 2, window_eq1 c dat W G hG 3,
    window_eq1 c dat W G hG 4, window_eq1 c dat W G hG 5, share1_0 c dat hq, share1_1 c dat hq, share1_2 c dat hq, share1_3 c dat hq,
    share1_4 c dat, share1_5 c dat]

end Windows

/-! ## Entry and exit -/

/-- ENTRY: the core's main-memory buffers at contents `W` are the call's `arrays` at the proof data's entry
    contents — those being read off `W` (`hA`) — and the rest. The shared array's full share is split into its two
    halves; nothing else moves. -/
theorem arrays_of_held1 (c : Dev nD) (dat : Dat τ (Elt F) Unit ℕ (UR sig nD τ) ℕ cfg1 c) (hq : dat.q = q1)
    (W : (b : Ref sig .tc) → Buf (Elt F) ((c : Thread nD τ).loc b)) (hA : ∀ w, dat.A w = W (Pipeline.arrRef spec1 w)) :
    (unscopedBufs c W : sProp 𝕄) ⊢ iprop(dat.arrays (dat.arrAt · 0) ∗ Pipeline.unscopedRest spec1 c W) := by
  rw [held_split1, arrBufs_chain1, arrays_chain1 c dat hq W (dat.arrAt · 0) hA]
  refine Laws.sep_mono (Laws.sep_mono .rfl (Laws.sep_mono .rfl ?_)) .rfl
  exact (Laws.sep_mono (pointsTo_share (PosShare.mem_left_op_right fullShare)).1 .rfl).trans Laws.sep_assoc.1

/-- EXIT: the call's `arrays` at contents `Fn` and the rest at `W` are the core's main-memory buffers at any
    valuation `W'` that has the arrays at `Fn` and agrees with `W` off them. The two halves of the shared array, at
    the same contents, are joined back into its full share. -/
theorem held_of_arrays1 (c : Dev nD) (dat : Dat τ (Elt F) Unit ℕ (UR sig nD τ) ℕ cfg1 c) (hq : dat.q = q1)
    (W W' : (b : Ref sig .tc) → Buf (Elt F) ((c : Thread nD τ).loc b))
    (Fn : (w : Fin cfg1.W) → Buf (Elt F) ((cfg1.win w).arr.view.loc (c.tc : Thread nD τ)))
    (hF : ∀ w, Fn w = W' (Pipeline.arrRef spec1 w))
    (hrest : ∀ b, b ∉ Finset.univ.image (Pipeline.arrRef spec1) → W' b = W b) :
    iprop(dat.arrays Fn ∗ Pipeline.unscopedRest spec1 c W) ⊢ (unscopedBufs c W' : sProp 𝕄) := by
  rw [held_split1, arrBufs_chain1, arrays_chain1 c dat hq W' Fn hF]
  refine Laws.sep_mono (Laws.sep_mono .rfl (Laws.sep_mono .rfl ?_)) (Entails.of_eq ?_)
  · exact Laws.sep_assoc.2.trans (Laws.sep_mono (pointsTo_share (PosShare.mem_left_op_right fullShare)).2 .rfl)
  · unfold Pipeline.unscopedRest
    exact bigSep_congr fun b hb => by rw [hrest b (Finset.mem_sdiff.mp hb).2]

end Cert.KernelIdeal.Hand

end
-- ==== Proof.KI.Arr2.lean ====
/-
  The third kernel call's windowed arrays among the core's main-memory buffers.

  The call has seven windows over SIX arrays: its second and third windows, both inputs, read one array (the
  second call's first result), once by contraction block and once by row block. The core holds every
  main-memory buffer whole at the full share; the call's proof data holds one points-to per WINDOW, the output's
  at the full share and an input's at the window's own share. So on entry the shared array's full share is split
  into its two halves, one per reading window, and every other array passes as it is; on exit the two halves,
  which hold the same contents, are joined back into the full share. Both directions carry along, untouched,
  the main-memory buffers that are no window's array.
-/
import proofs.«167914_g71622874628668_fold_wed_m_490_1_alg».proof.Proof.Gen.KernelIdeal.Launch
import proofs.«167914_g71622874628668_fold_wed_m_490_1_alg».proof.Proof.KI.Shares
import Idealize.ShloMosaic.Lib.Pipeline.Kit
import Idealize.ShloMosaic.Lib.Pipeline.Launch
import Idealize.ShloMosaic.Rules.PointsTo

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The buffers behind the windows' arrays -/

/-- The seven windows' arrays are six buffers: the second and the third window read the same one. -/
theorem arrRefs2 : Finset.univ.image (Pipeline.arrRef spec2) = [main_arg1, main_v2_0, main_v2_1, main_arg5, main_v3, main_v4].toFinset := by
  decide

/-- The core's main-memory buffers at contents `W`: the six buffers behind the windows' arrays, and the rest. -/
theorem held_split2 (c : Dev nD) (W : (b : Ref sig .tc) → Buf (Elt F) ((c : Thread nD τ).loc b)) :
    (unscopedBufs c W : sProp 𝕄)
      = iprop((Pipeline.arrBufs (Ix := Unit) (Name := ℕ) (U := UR sig nD τ) (Lvl := ℕ) spec2 c W : sProp 𝕄)
          ∗ Pipeline.unscopedRest (Ix := Unit) (Name := ℕ) (U := UR sig nD τ) (Lvl := ℕ) spec2 c W) :=
  Pipeline.unscopedBufs_split₀ cfgs 2 winFacts₀2.arr_unscoped c W

/-- The six buffers behind the arrays, one by one, each whole at the full share. -/
theorem arrBufs_chain2 (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_arg1) ↦{fullShare} W main_arg1)
          ∗ (((c : Thread nD τ).loc main_v2_0) ↦{fullShare} W main_v2_0)
          ∗ (((c : Thread nD τ).loc main_v2_1) ↦{fullShare} W main_v2_1)
          ∗ (((c : Thread nD τ).loc main_arg5) ↦{fullShare} W main_arg5)
          ∗ (((c : Thread nD τ).loc main_v3) ↦{fullShare} W main_v3)
          ∗ (((c : Thread nD τ).loc main_v4) ↦{fullShare} W main_v4)) := by
  unfold Pipeline.arrBufs
  exact bigSep_eq_bigSepL_of_eq [main_arg1, main_v2_0, main_v2_1, main_arg5, main_v3, main_v4] arrRefs2 (by decide) _

/-! ## The windows' points-tos -/

section Windows

variable (c : Dev nD) (dat : Dat τ (Elt F) Unit ℕ (UR sig nD τ) ℕ cfg2 c)

/-- The share each window's array is held at, once the input shares are the two halves on the shared array and
    the full share elsewhere: the output's (window 6) is the full share whatever `q` says. -/
theorem share2_0 (hq : dat.q = q2) : dat.share 0 = fullShare := congrFun hq 0
theorem share2_1 (hq : dat.q = q2) : dat.share 1 = fullShare.left := congrFun hq 1
theorem share2_2 (hq : dat.q = q2) : dat.share 2 = fullShare.right := congrFun hq 2
theorem share2_3 (hq : dat.q = q2) : dat.share 3 = fullShare := congrFun hq 3
theorem share2_4 (hq : dat.q = q2) : dat.share 4 = fullShare := congrFun hq 4
theorem share2_5 (hq : dat.q = q2) : dat.share 5 = fullShare := congrFun hq 5
theorem share2_6 : dat.share 6 = fullShare := rfl

/-- One window's points-to among the call's `arrays`, at contents read off a valuation `W` of the core's buffers:
    the window's array is a whole buffer, so it is the buffer behind it, whole, at the window's share. -/
theorem window_eq2 (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) (w : Fin cfg2.W) :
    ((cfg2.win w).arr.view.loc (c.tc : Thread nD τ) ↦[(cfg2.win w).arr.view.set]{dat.share w} G w : sProp 𝕄)
      = (((c : Thread nD τ).loc (Pipeline.arrRef spec2 w)) ↦{dat.share w} W (Pipeline.arrRef spec2 w)) := by
  rw [(arr_whole2 w).set_eq_univ, hG w]

/-- The call's `arrays` at contents read off `W`, window by window: the shared array appears twice, at the left
    half under the second window and at the right half under the third. -/
theorem arrays_chain2 (hq : dat.q = q2) (W : (b : Ref sig .tc) → Buf (Elt F) ((c : Thread nD τ).loc b))
    (G : (w : Fin cfg2.W) → Buf (Elt F) ((cfg2.win w).arr.view.loc (c.tc : Thread nD τ)))
    (hG : ∀ w, G w = W (Pipeline.arrRef spec2 w)) :
    (dat.arrays G : sProp 𝕄)
      = iprop((((c : Thread nD τ).loc main_arg1) ↦{fullShare} W main_arg1)
          ∗ (((c : Thread nD τ).loc main_v2_0) ↦{fullShare.left} W main_v2_0)
          ∗ (((c : Thread nD τ).loc main_v2_0) ↦{fullShare.right} W main_v2_0)
          ∗ (((c : Thread nD τ).loc main_v2_1) ↦{fullShare} W main_v2_1)
          ∗ (((c : Thread nD τ).loc main_arg5) ↦{fullShare} W main_arg5)
          ∗ (((c : Thread nD τ).loc main_v3) ↦{fullShare} W main_v3)
          ∗ (((c : Thread nD τ).loc main_v4) ↦{fullShare} W main_v4)) := by
  unfold Dat.arrays
  rw [bigSep_W2, window_eq2 c dat W G hG 0, window_eq2 c dat W G hG 1, window_eq2 c dat W G hG 2, window_eq2 c dat W G hG 3,
    window_eq2 c dat W G hG 4, window_eq2 c dat W G hG 5, window_eq2 c dat W G hG 6, share2_0 c dat hq, share2_1 c dat hq,
    share2_2 c dat hq, share2_3 c dat hq, share2_4 c dat hq, share2_5 c dat hq, share2_6 c dat]

end Windows

/-! ## Entry and exit -/

/-- ENTRY: the core's main-memory buffers at contents `W` are the call's `arrays` at the proof data's entry
    contents — those being read off `W` (`hA`) — and the rest. The shared array's full share is split into its two
    halves; nothing else moves. -/
theorem arrays_of_held2 (c : Dev nD) (dat : Dat τ (Elt F) Unit ℕ (UR sig nD τ) ℕ cfg2 c) (hq : dat.q = q2)
    (W : (b : Ref sig .tc) → Buf (Elt F) ((c : Thread nD τ).loc b)) (hA : ∀ w, dat.A w = W (Pipeline.arrRef spec2 w)) :
    (unscopedBufs c W : sProp 𝕄) ⊢ iprop(dat.arrays (dat.arrAt · 0) ∗ Pipeline.unscopedRest spec2 c W) := by
  rw [held_split2, arrBufs_chain2, arrays_chain2 c dat hq W (dat.arrAt · 0) hA]
  refine Laws.sep_mono (Laws.sep_mono .rfl ?_) .rfl
  exact (Laws.sep_mono (pointsTo_share (PosShare.mem_left_op_right fullShare)).1 .rfl).trans Laws.sep_assoc.1

/-- EXIT: the call's `arrays` at contents `Fn` and the rest at `W` are the core's main-memory buffers at any
    valuation `W'` that has the arrays at `Fn` and agrees with `W` off them. The two halves of the shared array, at
    the same contents, are joined back into its full share. -/
theorem held_of_arrays2 (c : Dev nD) (dat : Dat τ (Elt F) Unit ℕ (UR sig nD τ) ℕ cfg2 c) (hq : dat.q = q2)
    (W W' : (b : Ref sig .tc) → Buf (Elt F) ((c : Thread nD τ).loc b))
    (Fn : (w : Fin cfg2.W) → Buf (Elt F) ((cfg2.win w).arr.view.loc (c.tc : Thread nD τ)))
    (hF : ∀ w, Fn w = W' (Pipeline.arrRef spec2 w))
    (hrest : ∀ b, b ∉ Finset.univ.image (Pipeline.arrRef spec2) → W' b = W b) :
    iprop(dat.arrays Fn ∗ Pipeline.unscopedRest spec2 c W) ⊢ (unscopedBufs c W' : sProp 𝕄) := by
  rw [held_split2, arrBufs_chain2, arrays_chain2 c dat hq W' Fn hF]
  refine Laws.sep_mono (Laws.sep_mono .rfl ?_) (Entails.of_eq ?_)
  · exact Laws.sep_assoc.2.trans (Laws.sep_mono (pointsTo_share (PosShare.mem_left_op_right fullShare)).2 .rfl)
  · unfold Pipeline.unscopedRest
    exact bigSep_congr fun b hb => by rw [hrest b (Finset.mem_sdiff.mp hb).2]

end Cert.KernelIdeal.Hand

end
-- ==== Proof.KI.Run.lean ====
/-
  The run of the three-call program from launch to return, with every buffer's final contents named.

  @main is five items: the reshape of the first bias (host), the first call (h := x·W_bef + b_bef in one block), the
  second call (the first propagation step, 16×16 blocks, h read both as contraction block and as row block), the
  reshape of the second bias (host), the third call (the second propagation step fused with relu and the last
  projection, Y1 read both ways). Between two items a core's unscoped buffers are held whole at a valuation `Wj`:
  the launch contents, then each host stretch applied, then each call's OUTPUT arrays overwritten by what its
  write-backs leave (`Dat.arrAt … N`), every other buffer as it was. A call's INPUT arrays are never written, so
  an array that two input windows read ends, for both windows, at what it held on entry.

  Each call is one segment record: its arrays are sorted out of the unscoped buffers when it is entered (an array
  read through two windows is split into its two half shares) and put back when it is left; the generator register
  rides through the call's invariant; nothing is owed at any point.
-/
import proofs.«167914_g71622874628668_fold_wed_m_490_1_alg».proof.Proof.KI.R0
import proofs.«167914_g71622874628668_fold_wed_m_490_1_alg».proof.Proof.KI.R1
import proofs.«167914_g71622874628668_fold_wed_m_490_1_alg».proof.Proof.KI.R2
import proofs.«167914_g71622874628668_fold_wed_m_490_1_alg».proof.Proof.KI.Arr1
import proofs.«167914_g71622874628668_fold_wed_m_490_1_alg».proof.Proof.KI.Arr2
import proofs.«167914_g71622874628668_fold_wed_m_490_1_alg».proof.Proof.Gen.KernelIdeal.Launch
import Idealize.ShloMosaic.Lib.Pipeline.FrameSuffix
import Idealize.ShloMosaic.Lib.Pipeline.Regions
import Idealize.ShloMosaic.Lib.Pipeline.RegionsLoop
import Idealize.ShloMosaic.Lib.Pipeline.Kit
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the items -/

/-- At launch. -/
abbrev W0 : Dev nD → Valuation τ sig (Elt F) := fun c b => m ((c : Dev nD), b)
/-- After the first bias is reshaped: what the first call is entered from. -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first call: its four arrays (all distinct) at what the call leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second call: its two output arrays (Y1, then D·h) at what the call leaves; its input arrays — the two
    propagation matrices and h, read through two windows — and every other buffer as entered. -/
def W3 (c : Dev nD) : Valuation τ sig (Elt F) :=
  Function.update (Function.update (W2 m c) (Proc.devRef .tc main_v2_0) ((dat1 (V2 m) c).arrAt 4 cfg1.N))
    (Proc.devRef .tc main_v2_1) ((dat1 (V2 m) c).arrAt 5 cfg1.N)
abbrev V3 : (c : Dev nD) → (b : Ref sig .tc) → Buf (Elt F) ((c : Thread nD τ).loc b) := fun c b => W3 m c b
theorem W3_v2_0 (c : Dev nD) : W3 m c (Proc.devRef .tc main_v2_0) = (dat1 (V2 m) c).arrAt 4 cfg1.N := by
  unfold W3
  rw [Function.update_of_ne (StableHlo.devRef_ne_of_ne (by decide) : (Proc.devRef .tc main_v2_0 : DevRef τ sig) ≠ Proc.devRef .tc main_v2_1),
    Function.update_self]
theorem W3_v2_1 (c : Dev nD) : W3 m c (Proc.devRef .tc main_v2_1) = (dat1 (V2 m) c).arrAt 5 cfg1.N := by
  unfold W3; rw [Function.update_self]
theorem W3_of_ne (c : Dev nD) (b : Ref sig .tc) (h0 : b ≠ main_v2_0) (h1 : b ≠ main_v2_1) :
    W3 m c (Proc.devRef .tc b) = W2 m c (Proc.devRef .tc b) := by
  unfold W3
  rw [Function.update_of_ne (StableHlo.devRef_ne_of_ne h1 : (Proc.devRef .tc b : DevRef τ sig) ≠ Proc.devRef .tc main_v2_1),
    Function.update_of_ne (StableHlo.devRef_ne_of_ne h0 : (Proc.devRef .tc b : DevRef τ sig) ≠ Proc.devRef .tc main_v2_0)]
/-- Every window of the second call ends at the next valuation's contents of its array: an input's array is never
    written and the call does not list it among its outputs; an output's is the update itself. -/
theorem hF1 (c : Dev nD) : ∀ w : Fin cfg1.W, (dat1 (V2 m) c).arrAt w cfg1.N = V3 m c (Pipeline.arrRef spec1 w)
  | ⟨0, _⟩ => ((dat1 (V2 m) c).arrAt_in 0 rfl _).trans ((A_eq1 (V2 m) c 0).trans (W3_of_ne m c main_arg1 (by decide) (by decide)).symm)
  | ⟨1, _⟩ => ((dat1 (V2 m) c).arrAt_in 1 rfl _).trans ((A_eq1 (V2 m) c 1).trans (W3_of_ne m c main_arg2 (by decide) (by decide)).symm)
  | ⟨2, _⟩ => ((dat1 (V2 m) c).arrAt_in 2 rfl _).trans ((A_eq1 (V2 m) c 2).trans (W3_of_ne m c main_v1 (by decide) (by decide)).symm)
  | ⟨3, _⟩ => ((dat1 (V2 m) c).arrAt_in 3 rfl _).trans ((A_eq1 (V2 m) c 3).trans (W3_of_ne m c main_v1 (by decide) (by decide)).symm)
  | ⟨4, _⟩ => (W3_v2_0 m c).symm
  | ⟨5, _⟩ => (W3_v2_1 m c).symm
  | ⟨_ + 6, h⟩ => absurd h (Nat.not_lt.2 (Nat.le_add_left _ _))
theorem hrest1 (c : Dev nD) : ∀ b, b ∉ Finset.univ.image (Pipeline.arrRef spec1) → V3 m c b = V2 m c b :=
  fun b hb => W3_of_ne m c b
    (fun e => hb (Finset.mem_image.mpr ⟨4, Finset.mem_univ _, e ▸ rfl⟩))
    (fun e => hb (Finset.mem_image.mpr ⟨5, Finset.mem_univ _, e ▸ rfl⟩))

/-- After the second bias is reshaped: what the third call is entered from. -/
abbrev W4 : Dev nD → Valuation τ sig (Elt F) := fun c => StableHlo.after hostOps2 (W3 m c)
abbrev V4 : (c : Dev nD) → (b : Ref sig .tc) → Buf (Elt F) ((c : Thread nD τ).loc b) := fun c b => W4 m c b
/-- After the third call: its one output array, the program's result, at what the call leaves. -/
def W5 (c : Dev nD) : Valuation τ sig (Elt F) :=
  Function.update (W4 m c) (Proc.devRef .tc main_v4) ((dat2 (V4 m) c).arrAt 6 cfg2.N)
abbrev V5 : (c : Dev nD) → (b : Ref sig .tc) → Buf (Elt F) ((c : Thread nD τ).loc b) := fun c b => W5 m c b
theorem W5_v4 (c : Dev nD) : W5 m c (Proc.devRef .tc main_v4) = (dat2 (V4 m) c).arrAt 6 cfg2.N := by
  unfold W5; rw [Function.update_self]
theorem W5_of_ne (c : Dev nD) (b : Ref sig .tc) (h : b ≠ main_v4) : W5 m c (Proc.devRef .tc b) = W4 m c (Proc.devRef .tc b) := by
  unfold W5
  rw [Function.update_of_ne (StableHlo.devRef_ne_of_ne h : (Proc.devRef .tc b : DevRef τ sig) ≠ Proc.devRef .tc main_v4)]
theorem hF2 (c : Dev nD) : ∀ w : Fin cfg2.W, (dat2 (V4 m) c).arrAt w cfg2.N = V5 m c (Pipeline.arrRef spec2 w)
  | ⟨0, _⟩ => ((dat2 (V4 m) c).arrAt_in 0 rfl _).trans ((A_eq2 (V4 m) c 0).trans (W5_of_ne m c main_arg1 (by decide)).symm)
  | ⟨1, _⟩ => ((dat2 (V4 m) c).arrAt_in 1 rfl _).trans ((A_eq2 (V4 m) c 1).trans (W5_of_ne m c main_v2_0 (by decide)).symm)
  | ⟨2, _⟩ => ((dat2 (V4 m) c).arrAt_in 2 rfl _).trans ((A_eq2 (V4 m) c 2).trans (W5_of_ne m c main_v2_0 (by decide)).symm)
  | ⟨3, _⟩ => ((dat2 (V4 m) c).arrAt_in 3 rfl _).trans ((A_eq2 (V4 m) c 3).trans (W5_of_ne m c main_v2_1 (by decide)).symm)
  | ⟨4, _⟩ => ((dat2 (V4 m) c).arrAt_in 4 rfl _).trans ((A_eq2 (V4 m) c 4).trans (W5_of_ne m c main_arg5 (by decide)).symm)
  | ⟨5, _⟩ => ((dat2 (V4 m) c).arrAt_in 5 rfl _).trans ((A_eq2 (V4 m) c 5).trans (W5_of_ne m c main_v3 (by decide)).symm)
  | ⟨6, _⟩ => (W5_v4 m c).symm
  | ⟨_ + 7, h⟩ => absurd h (Nat.not_lt.2 (Nat.le_add_left _ _))
theorem hrest2 (c : Dev nD) : ∀ b, b ∉ Finset.univ.image (Pipeline.arrRef spec2) → V5 m c b = V4 m c b :=
  fun b hb => W5_of_ne m c b (fun e => hb (Finset.mem_image.mpr ⟨6, Finset.mem_univ _, e ▸ rfl⟩))

/-! ## The proof data family and what rides beside the buffers -/

abbrev adm : (p : Fin 3) → (pcfgs (F := F) p).Adm := fun p => (cfgs p).toPCfg_adm
/-- Each call's proof data at the contents it is entered from: a literal match on the call. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V4 m) c
abbrev 𝒱₀ : Variants := Variants.none
abbrev L : GSem nD τ sig → Finset Unit := fun _ => ∅
abbrev lv : GSem nD τ sig → Unit → ℕ := fun _ _ => 0
/-- Beside the buffers through every item: the core's generator register at some state and its dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-- The class invariant is the scoped buffers no window stages beside the generator register; whatever else is offered
    at entry (the prefetched tables: there are none) is let go. -/
theorem ΦA_of (gr W : Nat) (spec : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) spec c) ⊢ (Pipeline.ΦA spec c : sProp 𝕄) := by
  unfold Pipeline.ΦA
  iintro ⟨Hp, -, Hr⟩
  isplitl [Hr]; · iexact Hr
  iexact Hp
/-- and it gives both back at exit, beside the kernel's own semaphores: there are none. -/
theorem of_ΦA (gr W : Nat) (spec : Fin W → Pipeline.WinSpec sig gr) (c : Dev nD) :
    (Pipeline.ΦA spec c : sProp 𝕄) ⊢ iprop((∃ r, prngReg c r) ∗ BI.emp ∗ Pipeline.scopedRest (Ix := Unit) (Name := ℕ) (U := UR sig nD τ) (Lvl := ℕ) (Val := Elt F) spec c) := by
  unfold Pipeline.ΦA
  iintro ⟨Hr, Hp⟩
  isplitl [Hp]; · iexact Hp
  isplitr; · iempintro
  iexact Hr
/-- The last call's exit state is the last thread state beside the core owing nothing: the same three conjuncts,
    grouped the other way. -/
theorem post_last (c : Dev nD) :
    iprop(StableHlo.held (c : Thread nD τ) (Pipeline.ucRefs τ sig) (W5 m c) ∗ (∃ r, prngReg c r) ∗ ∃ W, owes (c : Thread nD τ) (0 : CellTallies nD τ sig Unit) W)
      ⊢ (iprop((StableHlo.held (c : Thread nD τ) (Pipeline.ucRefs τ sig) (W5 m c) ∗ ∃ r, prngReg c r) ∗ ∃ W, owes (c : Thread nD τ) (0 : CellTallies nD τ sig Unit) W) : sProp 𝕄) := by
  iintro ⟨Hh, Hp, HO⟩
  isplitl [Hh Hp]
  · isplitl [Hh]; · iexact Hh
    iexact Hp
  iexact HO

/-! ## The calls as segments -/

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := arrays_of_held1 (F := F) c (dat1 (V2 m) c) (q_eq1 (V2 m) c) (V2 m c) (A_eq1 (V2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (V2 m) c).Φ 0 from rfl]
    exact (ΦA_of (F := F) _ _ spec1 c _).trans (hin1 (V2 m) c)
  hout c := by
    rw [Pipeline.ownSems0_none, show (pdats m 1 c).Φ (Fin.last _) = (dat1 (V2 m) c).Φ (Fin.last cfg1.N) from rfl]
    exact (hout1 (V2 m) c).trans (of_ΦA (F := F) _ _ spec1 c)
  hexit c := by
    have hjoin := held_of_arrays1 (F := F) c (dat1 (V2 m) c) (q_eq1 (V2 m) c) (V2 m c) (V3 m c) ((dat1 (V2 m) c).arrAt · cfg1.N) (hF1 m c) (hrest1 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V4 m) c).loose
  hwaits := Pipeline.hwaits_of_owed_zero _ _ _ _ L lv 2 fun _ _ => rfl
  pre c := iprop(StableHlo.held (c : Thread nD τ) (Pipeline.ucRefs τ sig) (W4 m c) ∗ R c)
  post c := iprop(StableHlo.held (c : Thread nD τ) (Pipeline.ucRefs τ sig) (W5 m c) ∗ R c)
  X c := iprop(∃ r, prngReg c r)
  Y c := iprop(∃ r, prngReg c r)
  Z c := Pipeline.unscopedRest (Ix := Unit) (Name := ℕ) (U := UR sig nD τ) (Lvl := ℕ) spec2 c (V4 m c)
  hentry c := by
    rw [Pipeline.ownSems0_none]
    have hsplit := arrays_of_held2 (F := F) c (dat2 (V4 m) c) (q_eq2 (V4 m) c) (V4 m c) (A_eq2 (V4 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (V4 m) c).Φ 0 from rfl]
    exact (ΦA_of (F := F) _ _ spec2 c _).trans (hin2 (V4 m) c)
  hout c := by
    rw [Pipeline.ownSems0_none, show (pdats m 2 c).Φ (Fin.last _) = (dat2 (V4 m) c).Φ (Fin.last cfg2.N) from rfl]
    exact (hout2 (V4 m) c).trans (of_ΦA (F := F) _ _ spec2 c)
  hexit c := by
    have hjoin := held_of_arrays2 (F := F) c (dat2 (V4 m) c) (q_eq2 (V4 m) c) (V4 m c) (V5 m c) ((dat2 (V4 m) c).arrAt · cfg2.N) (hF2 m c) (hrest2 m c)
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin
    icases HO with ⟨%W, -, HO⟩; iexists W; iexact HO

/-! ## @main as its five segments, and the run -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)),
    .region (reg2 m) ]
theorem main_run (c : Dev nD) : main (F := F) c = Pipeline.Seg.run (segs m) := (main_chain c).trans (by chain_rfl)

set_option backward.isDefEq.respectTransparency.types false in
/-- Every weakly fair execution of @main from memory `m` with zero counters terminates, nothing faulting, and the
    final memory holds every unscoped buffer of every core at the last valuation `W5`. -/
theorem run_named : θ_run defs (onTc (τ := τ) (main (F := F))) ⟨m, fun _ => 0, ρ⟩
    (fun r => ∀ c : Dev nD, ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => post_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## What the last valuation holds at the arguments and at the result -/

/-- A host stretch leaves alone every buffer it does not write. -/
theorem W1_of (c : Dev nD) (b : Ref sig .tc) (h : b ≠ main_v0) : W1 m c (Proc.devRef .tc b) = W0 m c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h))
theorem W4_of (c : Dev nD) (b : Ref sig .tc) (h : b ≠ main_v3) : W4 m c (Proc.devRef .tc b) = W3 m c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne h))
/-- Each argument is no call's output and no host stretch's result: it ends as launched. -/
theorem W5_main_arg0 (c : Dev nD) : W5 m c (Proc.devRef .tc main_arg0) = m ((c : Thread nD τ).loc main_arg0) :=
  calc W5 m c (Proc.devRef .tc main_arg0)
    _ = W4 m c (Proc.devRef .tc main_arg0) := W5_of_ne m c main_arg0 (by decide)
    _ = W3 m c (Proc.devRef .tc main_arg0) := W4_of m c main_arg0 (by decide)
    _ = W2 m c (Proc.devRef .tc main_arg0) := W3_of_ne m c main_arg0 (by decide) (by decide)
    _ = W1 m c (Proc.devRef .tc main_arg0) := (W2_arr m c 0).trans (((dat0 (V1 m) c).arrAt_in 0 rfl _).trans (A_eq0 (V1 m) c 0))
    _ = W0 m c (Proc.devRef .tc main_arg0) := W1_of m c main_arg0 (by decide)
    _ = m ((c : Thread nD τ).loc main_arg0) := rfl
theorem W5_main_arg1 (c : Dev nD) : W5 m c (Proc.devRef .tc main_arg1) = m ((c : Thread nD τ).loc main_arg1) :=
  calc W5 m c (Proc.devRef .tc main_arg1)
    _ = W4 m c (Proc.devRef .tc main_arg1) := W5_of_ne m c main_arg1 (by decide)
    _ = W3 m c (Proc.devRef .tc main_arg1) := W4_of m c main_arg1 (by decide)
    _ = W2 m c (Proc.devRef .tc main_arg1) := W3_of_ne m c main_arg1 (by decide) (by decide)
    _ = W1 m c (Proc.devRef .tc main_arg1) := W2_of_ne m c main_arg1 (by decide)
    _ = W0 m c (Proc.devRef .tc main_arg1) := W1_of m c main_arg1 (by decide)
    _ = m ((c : Thread nD τ).loc main_arg1) := rfl
theorem W5_main_arg2 (c : Dev nD) : W5 m c (Proc.devRef .tc main_arg2) = m ((c : Thread nD τ).loc main_arg2) :=
  calc W5 m c (Proc.devRef .tc main_arg2)
    _ = W4 m c (Proc.devRef .tc main_arg2) := W5_of_ne m c main_arg2 (by decide)
    _ = W3 m c (Proc.devRef .tc main_arg2) := W4_of m c main_arg2 (by decide)
    _ = W2 m c (Proc.devRef .tc main_arg2) := W3_of_ne m c main_arg2 (by decide) (by decide)
    _ = W1 m c (Proc.devRef .tc main_arg2) := W2_of_ne m c main_arg2 (by decide)
    _ = W0 m c (Proc.devRef .tc main_arg2) := W1_of m c main_arg2 (by decide)
    _ = m ((c : Thread nD τ).loc main_arg2) := rfl
theorem W5_main_arg3 (c : Dev nD) : W5 m c (Proc.devRef .tc main_arg3) = m ((c : Thread nD τ).loc main_arg3) :=
  calc W5 m c (Proc.devRef .tc main_arg3)
    _ = W4 m c (Proc.devRef .tc main_arg3) := W5_of_ne m c main_arg3 (by decide)
    _ = W3 m c (Proc.devRef .tc main_arg3) := W4_of m c main_arg3 (by decide)
    _ = W2 m c (Proc.devRef .tc main_arg3) := W3_of_ne m c main_arg3 (by decide) (by decide)
    _ = W1 m c (Proc.devRef .tc main_arg3) := (W2_arr m c 1).trans (((dat0 (V1 m) c).arrAt_in 1 rfl _).trans (A_eq0 (V1 m) c 1))
    _ = W0 m c (Proc.devRef .tc main_arg3) := W1_of m c main_arg3 (by decide)
    _ = m ((c : Thread nD τ).loc main_arg3) := rfl
theorem W5_main_arg4 (c : Dev nD) : W5 m c (Proc.devRef .tc main_arg4) = m ((c : Thread nD τ).loc main_arg4) :=
  calc W5 m c (Proc.devRef .tc main_arg4)
    _ = W4 m c (Proc.devRef .tc main_arg4) := W5_of_ne m c main_arg4 (by decide)
    _ = W3 m c (Proc.devRef .tc main_arg4) := W4_of m c main_arg4 (by decide)
    _ = W2 m c (Proc.devRef .tc main_arg4) := W3_of_ne m c main_arg4 (by decide) (by decide)
    _ = W1 m c (Proc.devRef .tc main_arg4) := W2_of_ne m c main_arg4 (by decide)
    _ = W0 m c (Proc.devRef .tc main_arg4) := W1_of m c main_arg4 (by decide)
    _ = m ((c : Thread nD τ).loc main_arg4) := rfl
theorem W5_main_arg5 (c : Dev nD) : W5 m c (Proc.devRef .tc main_arg5) = m ((c : Thread nD τ).loc main_arg5) :=
  calc W5 m c (Proc.devRef .tc main_arg5)
    _ = W4 m c (Proc.devRef .tc main_arg5) := W5_of_ne m c main_arg5 (by decide)
    _ = W3 m c (Proc.devRef .tc main_arg5) := W4_of m c main_arg5 (by decide)
    _ = W2 m c (Proc.devRef .tc main_arg5) := W3_of_ne m c main_arg5 (by decide) (by decide)
    _ = W1 m c (Proc.devRef .tc main_arg5) := W2_of_ne m c main_arg5 (by decide)
    _ = W0 m c (Proc.devRef .tc main_arg5) := W1_of m c main_arg5 (by decide)
    _ = m ((c : Thread nD τ).loc main_arg5) := rfl
theorem W5_main_arg6 (c : Dev nD) : W5 m c (Proc.devRef .tc main_arg6) = m ((c : Thread nD τ).loc main_arg6) :=
  calc W5 m c (Proc.devRef .tc main_arg6)
    _ = W4 m c (Proc.devRef .tc main_arg6) := W5_of_ne m c main_arg6 (by decide)
    _ = W3 m c (Proc.devRef .tc main_arg6) := W4_of m c main_arg6 (by decide)
    _ = W2 m c (Proc.devRef .tc main_arg6) := W3_of_ne m c main_arg6 (by decide) (by decide)
    _ = W1 m c (Proc.devRef .tc main_arg6) := W2_of_ne m c main_arg6 (by decide)
    _ = W0 m c (Proc.devRef .tc main_arg6) := W1_of m c main_arg6 (by decide)
    _ = m ((c : Thread nD τ).loc main_arg6) := rfl

/-- The run with the result array named at the last valuation and every argument as launched: what both the frame
    claim and the value claim are read off. -/
theorem run_result : θ_run defs (onTc (τ := τ) (main (F := F))) ⟨m, fun _ => 0, ρ⟩ (fun r => ∀ c : Dev nD,
      r.2.mem ((c.tc : Thread nD τ).loc main_v4) = W5 m c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨h c _ (mem_uc main_v4 (by decide)),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c),
     (h c _ (mem_uc main_arg6 (by decide))).trans (W5_main_arg6 m c)⟩) (run_named m ρ)

/-- The frame claim at any `F`: the run with the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => (h c).2) (run_result m ρ)

end Cert.KernelIdeal.Hand

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.Spec.lean ====
import Idealize.ShloMosaic.PureOps.Ideal
import Idealize.ShloMosaic.PureOps.Ideal.Laws
import Idealize.ShloMosaic.Lib.ValueIdx
import proofs.«167914_g71622874628668_fold_wed_m_490_1_alg».proof.Proof.LibSumBlocks

/-! # The propagation network as functions of its argument arrays

Everything here is stated on the extended reals, entry by entry, over the literal shapes of the arguments:
a linear layer, two propagation steps with a dense 8192 x 8192 matrix each, a positive part and a second
linear layer. No program is mentioned. The last section is the one re-arrangement the blocked computation
needs: the contraction over 8192 indices taken as 16 consecutive blocks of 512, each block's partial sum added
in block order to an accumulator that starts at the zero word. -/

noncomputable section

namespace Cert.Spec

open Idealize.ShloMosaic Idealize.ShloMosaic.ValueIdx
open scoped BigOperators

/-- An `m x n` array of extended reals. -/
abbrev Mat (m n : ℕ) : Type := (⟨2, ![m, n]⟩ : Shape).Idx → EReal
/-- A vector of `n` extended reals. -/
abbrev Row (n : ℕ) : Type := (⟨1, ![n]⟩ : Shape).Idx → EReal

/-- The step weight: the f32 word `0x3F000000`, kept as a word. Both computations multiply by the same
    word, so its value is never needed. -/
abbrev half : EReal := Ideal.ofBits .f32 0x3F000000#32

/-! ## The layers -/

/-- The first linear layer: `H x W b = x · W + b`, the bias added to every row. Entry `(r, c)` is the sum over
    `k : Fin 256` of `x (r, k) * W (k, c)`, plus `b c`. -/
def H (x : Mat 8192 256) (W : Mat 256 128) (b : Row 128) : Mat 8192 128 :=
  fun i => (∑ k : Fin 256, x (ix2 (i 0) k) * W (ix2 k (i 1))) + b (ix1 (i 1))

/-- The dense product `MM A Y = A · Y`: entry `(r, c)` is the sum over `k : Fin 8192` of `A (r, k) * Y (k, c)`. -/
def MM (A : Mat 8192 8192) (Y : Mat 8192 128) : Mat 8192 128 :=
  fun i => ∑ k : Fin 8192, A (ix2 (i 0) k) * Y (ix2 k (i 1))

/-- The weighted combination of three arrays, entry by entry: `(half * Y + half * P) + half * Q`, in this order
    of additions. -/
def COMB (Y P Q : Mat 8192 128) : Mat 8192 128 :=
  fun i => (half * Y i + half * P i) + half * Q i

/-- One propagation step from `Y`, with `h` the layer-one output: `(half · Y + half · (A · Y)) + half · (D · h)`. -/
def STEP (h : Mat 8192 128) (A D : Mat 8192 8192) (Y : Mat 8192 128) : Mat 8192 128 :=
  COMB Y (MM A Y) (MM D h)

/-- The second linear layer after the positive part: `OUT Y W b = max(Y, 0) · W + b`. Entry `(r, c)` is the sum
    over `k : Fin 128` of `max (Y (r, k)) 0 * W (k, c)`, plus `b c`. -/
def OUT (Y : Mat 8192 128) (W : Mat 128 64) (b : Row 64) : Mat 8192 64 :=
  fun i => (∑ k : Fin 128, max (Y (ix2 (i 0) k)) 0 * W (ix2 k (i 1))) + b (ix1 (i 1))

/-- The whole result: two steps from `h = H x W_bef b_bef`, then the second layer. -/
def RESULT (x : Mat 8192 256) (A D : Mat 8192 8192) (W_bef : Mat 256 128) (b_bef : Row 128)
    (W_aft : Mat 128 64) (b_aft : Row 64) : Mat 8192 64 :=
  OUT (STEP (H x W_bef b_bef) A D (STEP (H x W_bef b_bef) A D (H x W_bef b_bef))) W_aft b_aft

/-! ## Each layer read at an entry given by its coordinates -/

theorem H_apply (x : Mat 8192 256) (W : Mat 256 128) (b : Row 128) (r : Fin 8192) (c : Fin 128) :
    H x W b (ix2 r c) = (∑ k : Fin 256, x (ix2 r k) * W (ix2 k c)) + b (ix1 c) := rfl

theorem MM_apply (A : Mat 8192 8192) (Y : Mat 8192 128) (r : Fin 8192) (c : Fin 128) :
    MM A Y (ix2 r c) = ∑ k : Fin 8192, A (ix2 r k) * Y (ix2 k c) := rfl

theorem COMB_apply (Y P Q : Mat 8192 128) (i : (⟨2, ![8192, 128]⟩ : Shape).Idx) :
    COMB Y P Q i = (half * Y i + half * P i) + half * Q i := rfl

theorem STEP_eq (h : Mat 8192 128) (A D : Mat 8192 8192) (Y : Mat 8192 128) :
    STEP h A D Y = COMB Y (MM A Y) (MM D h) := rfl

theorem OUT_apply (Y : Mat 8192 128) (W : Mat 128 64) (b : Row 64) (r : Fin 8192) (c : Fin 64) :
    OUT Y W b (ix2 r c) = (∑ k : Fin 128, max (Y (ix2 r k)) 0 * W (ix2 k c)) + b (ix1 c) := rfl

/-- The result through the two intermediate arrays the blocked computation keeps: the first step's output
    `Y1` and the product `D · h`, which both steps use. -/
theorem RESULT_eq (x : Mat 8192 256) (A D : Mat 8192 8192) (W_bef : Mat 256 128) (b_bef : Row 128)
    (W_aft : Mat 128 64) (b_aft : Row 64) :
    RESULT x A D W_bef b_bef W_aft b_aft
      = OUT (COMB (COMB (H x W_bef b_bef) (MM A (H x W_bef b_bef)) (MM D (H x W_bef b_bef)))
              (MM A (COMB (H x W_bef b_bef) (MM A (H x W_bef b_bef)) (MM D (H x W_bef b_bef))))
              (MM D (H x W_bef b_bef))) W_aft b_aft := rfl

/-! ## A contraction over 8192 indices taken as 16 blocks of 512 -/

/-- Entry `r` of block `t` is index `512 * t + r`, below 8192. -/
theorem blk_lt (t : Fin 16) (r : Fin 512) : 512 * t.val + r.val < 8192 :=
  Cert.LibSumBlocks.block_lt (A := 16) (B := 512) (N := 8192) (by norm_num) t r

/-- The partial sum of `f` over block `t`. -/
def blockSum (f : Fin 8192 → EReal) (t : Fin 16) : EReal :=
  ∑ r : Fin 512, f ⟨512 * t.val + r.val, blk_lt t r⟩

/-- The 16 partial sums add up to the sum over all 8192 indices. -/
theorem sum_blockSum (f : Fin 8192 → EReal) : ∑ t : Fin 16, blockSum f t = ∑ n : Fin 8192, f n :=
  Cert.LibSumBlocks.sum_blocks (A := 16) (B := 512) (N := 8192) (by norm_num) f

/-- THE LAW. An accumulator `a` that after block 0 holds the zero word plus block 0's partial sum, and after
    each later block holds its previous value plus that block's partial sum, holds after block 15 the sum over
    all 8192 indices. Addition on the extended reals is commutative and associative, so only the zero word is
    evaluated. -/
theorem acc_last (f : Fin 8192 → EReal) (a : Fin 16 → EReal)
    (h0 : a 0 = Ideal.ofBits .f32 0x00000000#32 + blockSum f 0)
    (hs : ∀ (k : ℕ) (hk : k + 1 < 16), a ⟨k + 1, hk⟩ = a ⟨k, by omega⟩ + blockSum f ⟨k + 1, hk⟩) :
    a 15 = ∑ n : Fin 8192, f n := by
  have key : ∀ (k : ℕ) (hk : k < 16), a ⟨k, hk⟩ = ∑ t ∈ Finset.range (k + 1), (if ht : t < 16 then blockSum f ⟨t, ht⟩ else 0) := by
    intro k
    induction k with
    | zero =>
      intro _
      rw [Finset.sum_range_one, dif_pos (by norm_num : (0 : ℕ) < 16)]
      have : (⟨0, by norm_num⟩ : Fin 16) = 0 := rfl
      rw [this, h0, Ideal.ofBits_zero_f32, zero_add]
    | succ k ih =>
      intro hk
      rw [hs k hk, ih (by omega), Finset.sum_range_succ _ (k + 1), dif_pos hk]
  have h15 : (15 : Fin 16) = ⟨15, by norm_num⟩ := rfl
  rw [h15, key 15 (by norm_num), ← sum_blockSum f, Finset.sum_fin_eq_sum_range]
end Cert.Spec

end
-- ==== Proof.KI.Val0.lean ====
import proofs.«167914_g71622874628668_fold_wed_m_490_1_alg».proof.Proof.KI.R0
import proofs.«167914_g71622874628668_fold_wed_m_490_1_alg».proof.Proof.Spec
import Idealize.ShloMosaic.Lib.Pipeline.Value
import Idealize.ShloMosaic.Lib.ValueIdx
import Idealize.ShloMosaic.PureOps.Ideal.Laws

/-! # The first call's output array is the first linear layer

At the ideal values, the array the first call writes is `x · W + b` of the arrays it reads: entry `(r, c)` is
the sum over the 256 contraction positions `k` of `x (r, k) * W (k, c)`, plus the bias row's entry `c`.
The call has one point and every window is its whole array, so the one write-back leaves the body's result
as the whole output array, and each input block is the whole input array. -/

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the buffer contents when the call begins, at the ideal values
variable (V : (c : Dev nD) → (b : Ref sig .tc) → Buf (Elt Ideal) ((c : Thread nD τ).loc b))

/-! ## The product at an entry

The body's matrix product contracts the second axis of the activations with the first axis of the weights. At the
output entry `(r, c)` and the contraction position `k` it reads the activations at `(r, k)` and the weights at
`(k, c)`; its accumulator is the zero word, which is `0`. -/

/-- The left operand's row is the output's row, -/
theorem lhs_row (i : S8192x128.Idx) (q : dot_S8192x256_S256x128_S8192x128_1_0_0_1_n_n.contr.Idx) :
    (dot_S8192x256_S256x128_S8192x128_1_0_0_1_n_n.lhsIdx i q 0).val = (i 0).val := by
  unfold DotDims.lhsIdx
  rw [dif_neg (show ¬(0 : Fin S8192x256.rank) ∈ dot_S8192x256_S256x128_S8192x128_1_0_0_1_n_n.lhsBatch by decide), dif_pos (show (0 : Fin S8192x256.rank) ∈ dot_S8192x256_S256x128_S8192x128_1_0_0_1_n_n.lhsNonContracting by decide)]
  rfl
/-- its column the contraction position; -/
theorem lhs_col (i : S8192x128.Idx) (q : dot_S8192x256_S256x128_S8192x128_1_0_0_1_n_n.contr.Idx) :
    (dot_S8192x256_S256x128_S8192x128_1_0_0_1_n_n.lhsIdx i q 1).val = (q ⟨0, by decide⟩).val :=
  dot_S8192x256_S256x128_S8192x128_1_0_0_1_n_n.lhsIdx_val_of_single rfl i q
/-- the right operand's row is the contraction position, -/
theorem rhs_row (i : S8192x128.Idx) (q : dot_S8192x256_S256x128_S8192x128_1_0_0_1_n_n.contr.Idx) :
    (dot_S8192x256_S256x128_S8192x128_1_0_0_1_n_n.rhsIdx i q 0).val = (q ⟨0, by decide⟩).val :=
  dot_S8192x256_S256x128_S8192x128_1_0_0_1_n_n.rhsIdx_val_of_single rfl i q
/-- its column the output's column. -/
theorem rhs_col (i : S8192x128.Idx) (q : dot_S8192x256_S256x128_S8192x128_1_0_0_1_n_n.contr.Idx) :
    (dot_S8192x256_S256x128_S8192x128_1_0_0_1_n_n.rhsIdx i q 1).val = (i 1).val := by
  unfold DotDims.rhsIdx
  rw [dif_neg (show ¬(1 : Fin S256x128.rank) ∈ dot_S8192x256_S256x128_S8192x128_1_0_0_1_n_n.rhsBatch by decide), dif_pos (show (1 : Fin S256x128.rank) ∈ dot_S8192x256_S256x128_S8192x128_1_0_0_1_n_n.rhsNonContracting by decide)]
  rfl

/-- The product into the zero accumulator, at the entry `(r, c)`: the sum over the 256 contraction positions. -/
theorem prod_apply (x : FVec Ideal S8192x256 .f32) (w : FVec Ideal S256x128 .f32) (r : Fin 8192) (cc : Fin 128) :
    matmul (F := Ideal) dot_S8192x256_S256x128_S8192x128_1_0_0_1_n_n none x w (constant S8192x128 .f32 0x00000000#32) (ix2 r cc)
      = ∑ k : Fin 256, x (ix2 r k) * w (ix2 k cc) := by
  simp only [matmul]
  rw [Ideal.matmul_constant_zero_apply, ← Equiv.sum_comp (contrEquiv1 dot_S8192x256_S256x128_S8192x128_1_0_0_1_n_n 256 rfl rfl).symm]
  refine Finset.sum_congr rfl fun k _ => ?_
  have hk := contrEquiv1_symm_val dot_S8192x256_S256x128_S8192x128_1_0_0_1_n_n 256 rfl rfl k
  have el : dot_S8192x256_S256x128_S8192x128_1_0_0_1_n_n.lhsIdx (ix2 r cc) ((contrEquiv1 dot_S8192x256_S256x128_S8192x128_1_0_0_1_n_n 256 rfl rfl).symm k) = ix2 r k := funext fun a => Fin.ext (by
    match a with
    | ⟨0, _⟩ => exact lhs_row _ _
    | ⟨1, _⟩ => exact (lhs_col _ _).trans hk)
  have er : dot_S8192x256_S256x128_S8192x128_1_0_0_1_n_n.rhsIdx (ix2 r cc) ((contrEquiv1 dot_S8192x256_S256x128_S8192x128_1_0_0_1_n_n 256 rfl rfl).symm k) = ix2 k cc := funext fun a => Fin.ext (by
    match a with
    | ⟨0, _⟩ => exact (rhs_row _ _).trans hk
    | ⟨1, _⟩ => exact rhs_col _ _)
  rw [el, er]

/-! ## The body's result at an entry -/

/-- The bias row, cast to its own shape and repeated down the rows, reads at `(r, c)` the row's entry `c`. -/
theorem bias_apply (b : Vec Ideal S1x128 .f32) (r : Fin 8192) (cc : Fin 128) :
    broadcastTo S8192x128 (shapeCast S1x128 b shapeCasts_S1x128_S1x128) broadcasts_S1x128_S8192x128 (ix2 r cc)
      = b (ix2 (0 : Fin 1) cc) := by
  rw [shapeCast_self]
  exact broadcastTo_apply b broadcasts_S1x128_S8192x128 (ix2 r cc) (ix2 (0 : Fin 1) cc) (fun a => by
    match a with
    | ⟨0, _⟩ => rfl
    | ⟨1, _⟩ => rfl)

/-- The body's result at the entry `(r, c)`: the product's sum plus the bias row's entry `c`. -/
theorem pay_apply (x : Vec Ideal S8192x256 .f32) (w : Vec Ideal S256x128 .f32) (b : Vec Ideal S1x128 .f32) (r : Fin 8192) (cc : Fin 128) :
    k0_pay1 (F := Ideal) x w b (ix2 r cc) = (∑ k : Fin 256, x (ix2 r k) * w (ix2 k cc)) + b (ix2 (0 : Fin 1) cc) := by
  unfold k0_pay1
  refine (addf_apply _ _ _).trans ?_
  exact congrArg₂ (· + ·) (prod_apply x w r cc) (bias_apply b r cc)

/-! ## From the one block to the array -/

/-- The call's one point. -/
def pt : Fin cfg0.N := ⟨0, by decide⟩

/-- The output array after the call, read through its one block: what the body left at the one point. -/
theorem out_block (c : Dev nD) :
    ((cfg0.win 3).blk pt).view.read (Elt Ideal) ((dat0 V c).arrAt 3 cfg0.N) = (dat0 V c).flushed 3 pt := by
  rw [show cfg0.N = (pt : Fin cfg0.N).val + 1 from rfl, (dat0 V c).arrAt_succ 3 pt]
  rw [flush0_3 pt, if_pos rfl]
  exact View.read_write_univ _ _

/-- Every window's one block is its whole array (offset zero, the array's own sizes): so the output array after the call
    is the body's result of the three input arrays as found. -/
theorem out_array (c : Dev nD) :
    (dat0 V c).arrAt 3 cfg0.N = k0_pay1 (V c main_arg0) (V c main_arg3) (V c main_v0) := by
  have ho := out_block V c
  have hz3 : (fun a => (win0_3.index pt) a * main_v1.ty.shape.size a) = fun _ => 0 := funext fun a => by fin_cases a <;> decide
  have hr3 := fun f => Memref.read_access_unit_zero (Elt Ideal) main_v1 hz3 (fun a => by fin_cases a <;> decide) f
  have hz0 : (fun a => (win0_0.index pt) a * main_arg0.ty.shape.size a) = fun _ => 0 := funext fun a => by fin_cases a <;> decide
  have hr0 := fun f => Memref.read_access_unit_zero (Elt Ideal) main_arg0 hz0 (fun a => by fin_cases a <;> decide) f
  have hz1 : (fun a => (win0_1.index pt) a * main_arg3.ty.shape.size a) = fun _ => 0 := funext fun a => by fin_cases a <;> decide
  have hr1 := fun f => Memref.read_access_unit_zero (Elt Ideal) main_arg3 hz1 (fun a => by fin_cases a <;> decide) f
  have hz2 : (fun a => (win0_2.index pt) a * main_v0.ty.shape.size a) = fun _ => 0 := funext fun a => by fin_cases a <;> decide
  have hr2 := fun f => Memref.read_access_unit_zero (Elt Ideal) main_v0 hz2 (fun a => by fin_cases a <;> decide) f
  rw [hr3] at ho
  rw [ho]
  show (cfg0.win 3).cut _ ((dat0 V c).after 3 pt) = _
  rw [after0_3]
  unfold iblk0
  rw [hr0, hr1, hr2]
  rfl

/-! ## The first linear layer -/

/-- After the call, the output array is the first linear layer of the activations, the weights and the bias row
    as the call found them. -/
theorem final0 (c : Dev nD) : (dat0 V c).arrAt 3 cfg0.N = Cert.Spec.H (V c main_arg0) (V c main_arg3) (fun j => V c main_v0 (ValueIdx.ix2 (0 : Fin 1) (j 0))) := by
  refine (out_array V c).trans ?_
  funext i
  obtain ⟨r, cc, rfl⟩ : ∃ (r : Fin 8192) (cc : Fin 128), i = ix2 r cc := ⟨i 0, i 1, eq_ix2 i⟩
  exact (pay_apply (V c main_arg0) (V c main_arg3) (V c main_v0) r cc).trans
    (Cert.Spec.H_apply (V c main_arg0) (V c main_arg3) (fun j => V c main_v0 (ValueIdx.ix2 (0 : Fin 1) (j 0))) r cc).symm

end Cert.KernelIdeal.Hand
-- ==== Proof.KI.Val1.lean ====
import proofs.«167914_g71622874628668_fold_wed_m_490_1_alg».proof.Proof.KI.R1
import proofs.«167914_g71622874628668_fold_wed_m_490_1_alg».proof.Proof.Spec

/-! # The second call's two results as functions of the arrays it begins from

On the extended reals. The call's grid is 16 x 16; write a position as n = 16 * i + k, with i the row block and
k the contraction block. Output block i (rows 512 * i … 512 * i + 511) is written back once, at k = 15. By then the
first accumulator holds, entry by entry, the zero word plus the sixteen partial sums of row block i of `A` against
`h`, one per contraction block — the sum over all 8192 indices, that is `(A · h)` at the entry — and the second the
same for `D`. So window 5's array ends as `D · h`, and window 4's as the half-weighted combination of `h`, `A · h`
and `D · h`: one propagation step from `h`. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open scoped BigOperators

namespace Val1

/-! ## One block product at an entry

The body multiplies a 512 x 512 block by a 512 x 128 block on the matrix unit, into a zero accumulator: entry
`(p, q)` of the product is the sum over `k : Fin 512` of the left block at `(p, k)` times the right block at `(k, q)`. -/

theorem lhs_blk_0 (i : S512x128.Idx) (q : dot_S512x512_S512x128_S512x128_1_0_0_1_n_n.contr.Idx) :
    (dot_S512x512_S512x128_S512x128_1_0_0_1_n_n.lhsIdx i q 0).val = (i 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
theorem lhs_blk_1 (i : S512x128.Idx) (q : dot_S512x512_S512x128_S512x128_1_0_0_1_n_n.contr.Idx) :
    (dot_S512x512_S512x128_S512x128_1_0_0_1_n_n.lhsIdx i q 1).val = (q ⟨0, by decide⟩).val :=
  dot_S512x512_S512x128_S512x128_1_0_0_1_n_n.lhsIdx_val_of_single rfl i q
theorem rhs_blk_0 (i : S512x128.Idx) (q : dot_S512x512_S512x128_S512x128_1_0_0_1_n_n.contr.Idx) :
    (dot_S512x512_S512x128_S512x128_1_0_0_1_n_n.rhsIdx i q 0).val = (q ⟨0, by decide⟩).val :=
  dot_S512x512_S512x128_S512x128_1_0_0_1_n_n.rhsIdx_val_of_single rfl i q
theorem rhs_blk_1 (i : S512x128.Idx) (q : dot_S512x512_S512x128_S512x128_1_0_0_1_n_n.contr.Idx) :
    (dot_S512x512_S512x128_S512x128_1_0_0_1_n_n.rhsIdx i q 1).val = (i 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The block product into a zero accumulator, at entry `(p, q)`. -/
theorem blockProduct_apply (a : FVec Ideal S512x512 .f32) (b : FVec Ideal S512x128 .f32) (p : Fin 512) (q : Fin 128) :
    matmul dot_S512x512_S512x128_S512x128_1_0_0_1_n_n none a b (constant (F := Ideal) S512x128 .f32 0x00000000#32) (ix2 p q)
      = ∑ k : Fin 512, a (ix2 p k) * b (ix2 k q) := by
  refine (Ideal.matmul_constant_zero_apply dot_S512x512_S512x128_S512x128_1_0_0_1_n_n none a b (ix2 p q)).trans ?_
  rw [← Equiv.sum_comp (ValueIdx.contrEquiv1 dot_S512x512_S512x128_S512x128_1_0_0_1_n_n 512 rfl rfl).symm]
  refine Finset.sum_congr rfl fun k _ => ?_
  have hk := ValueIdx.contrEquiv1_symm_val dot_S512x512_S512x128_S512x128_1_0_0_1_n_n 512 rfl rfl k
  have el : dot_S512x512_S512x128_S512x128_1_0_0_1_n_n.lhsIdx (ix2 p q) ((ValueIdx.contrEquiv1 dot_S512x512_S512x128_S512x128_1_0_0_1_n_n 512 rfl rfl).symm k) = ix2 p k := funext fun a => Fin.ext (by
    match a with
    | ⟨0, _⟩ => exact lhs_blk_0 _ _
    | ⟨1, _⟩ => exact (lhs_blk_1 _ _).trans hk)
  have er : dot_S512x512_S512x128_S512x128_1_0_0_1_n_n.rhsIdx (ix2 p q) ((ValueIdx.contrEquiv1 dot_S512x512_S512x128_S512x128_1_0_0_1_n_n 512 rfl rfl).symm k) = ix2 k q := funext fun a => Fin.ext (by
    match a with
    | ⟨0, _⟩ => exact (rhs_blk_0 _ _).trans hk
    | ⟨1, _⟩ => exact rhs_blk_1 _ _)
  rw [el, er]

/-! ## The body's values at an entry -/

/-- Both accumulators are reset to the zero word. -/
theorem zeroA_apply (j : S512x128.Idx) : (Gen.k1_pay1 (F := Ideal)) j = Ideal.ofBits .f32 0x00000000#32 := by
  unfold Gen.k1_pay1
  simp only [shapeCast_self]
  rfl
theorem zeroD_apply (j : S512x128.Idx) : (Gen.k1_pay2 (F := Ideal)) j = Ideal.ofBits .f32 0x00000000#32 := by
  unfold Gen.k1_pay2
  simp only [shapeCast_self]
  rfl

/-- The first accumulator's update: the old value plus the block product of the `A` block and the `h` block. -/
theorem stepA_apply (v3 v5 : FVec Ideal S512x128 .f32) (v6 : FVec Ideal S512x512 .f32) (p : Fin 512) (q : Fin 128) :
    Gen.k1_pay4 (F := Ideal) v3 v5 v6 (ix2 p q) = v5 (ix2 p q) + ∑ k : Fin 512, v6 (ix2 p k) * v3 (ix2 k q) := by
  unfold Gen.k1_pay4 Gen.k1_pay3
  simp only [shapeCast_self]
  exact congrArg (v5 (ix2 p q) + ·) (blockProduct_apply v6 v3 p q)

/-- The second accumulator's, with the `D` block. -/
theorem stepD_apply (v3 v12 : FVec Ideal S512x128 .f32) (v13 : FVec Ideal S512x512 .f32) (p : Fin 512) (q : Fin 128) :
    Gen.k1_pay5 (F := Ideal) v3 v12 v13 (ix2 p q) = v12 (ix2 p q) + ∑ k : Fin 512, v13 (ix2 p k) * v3 (ix2 k q) := by
  unfold Gen.k1_pay5 Gen.k1_pay3
  simp only [shapeCast_self]
  exact congrArg (v12 (ix2 p q) + ·) (blockProduct_apply v13 v3 p q)

/-- What is written out as the first result: the half-weighted sum of the row block of `h` (`v24`), the first
    accumulator (`v28`) and the second (`v22`), added in this order. -/
theorem combine_apply (v22 v24 v28 : FVec Ideal S512x128 .f32) (j : S512x128.Idx) :
    Gen.k1_pay6 (F := Ideal) v22 v24 v28 j = (Cert.Spec.half * v24 j + Cert.Spec.half * v28 j) + Cert.Spec.half * v22 j := by
  unfold Gen.k1_pay6
  simp only [shapeCast_self]
  rfl

/-! ## The blocks, read off the arrays the call begins from -/

section Run

-- the buffer contents when the call begins
variable (V : (c : Dev nD) → (b : Ref sig .tc) → Buf (Elt Ideal) ((c : Thread nD τ).loc b))

/-- The three arrays the results depend on, at their literal types: `h` (8192 x 128) and the two dense matrices
    `A` and `D` (8192 x 8192). -/
abbrev hArr (c : Dev nD) : Cert.Spec.Mat 8192 128 := V c main_v1
abbrev aArr (c : Dev nD) : Cert.Spec.Mat 8192 8192 := V c main_arg1
abbrev dArr (c : Dev nD) : Cert.Spec.Mat 8192 8192 := V c main_arg2

/-- The four input blocks at position `t`, at their literal types. -/
abbrev aBlk (c : Dev nD) (t : Fin cfg1.N) : FVec Ideal S512x512 .f32 := iblk1 V c 0 t
abbrev dBlk (c : Dev nD) (t : Fin cfg1.N) : FVec Ideal S512x512 .f32 := iblk1 V c 1 t
abbrev hkBlk (c : Dev nD) (t : Fin cfg1.N) : FVec Ideal S512x128 .f32 := iblk1 V c 2 t
abbrev hiBlk (c : Dev nD) (t : Fin cfg1.N) : FVec Ideal S512x128 .f32 := iblk1 V c 3 t

/-- The windows' index maps over the grid. At position `t = 16 * i + k`: the `A` and `D` windows are at block
    `(i, k)`; the contraction window of `h` at block `(k, 0)`; the row window of `h` and the two output windows at
    block `(i, 0)`. -/
theorem idx_facts1 : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = t.val % 16
    ∧ win1_2.index t (0 : Fin 2) = t.val % 16 ∧ win1_2.index t (1 : Fin 2) = 0
    ∧ win1_3.index t (0 : Fin 2) = t.val / 16 ∧ win1_3.index t (1 : Fin 2) = 0
    ∧ win1_4.index t (0 : Fin 2) = t.val / 16 ∧ win1_4.index t (1 : Fin 2) = 0
    ∧ win1_5.index t (0 : Fin 2) = t.val / 16 ∧ win1_5.index t (1 : Fin 2) = 0 :=
  (by decide +kernel : ∀ t : Fin grid1.N, _)

/-- The `A` block at position `t`, entry `(p, k)`: row `512 * (t / 16) + p`, column `512 * (t % 16) + k` of `A`. -/
theorem blkA_apply (c : Dev nD) (t : Fin cfg1.N) (p k : Fin 512) (r n : Fin 8192)
    (hr : r.val = 512 * (t.val / 16) + p.val) (hn : n.val = 512 * (t.val % 16) + k.val) :
    aBlk V c t (ix2 p k) = aArr V c (ix2 r n) := by
  obtain ⟨e0, e1, -⟩ := idx_facts1 t
  unfold aBlk iblk1
  rw [View.read_apply]
  show V c main_arg1 _ = V c main_arg1 _
  congr 1
  funext a
  apply Fin.ext
  match a with
  | ⟨0, _⟩ => show win1_0.index t (0 : Fin 2) * 512 + 1 * p.val = r.val; omega
  | ⟨1, _⟩ => show win1_0.index t (1 : Fin 2) * 512 + 1 * k.val = n.val; omega

/-- The `D` block likewise. -/
theorem blkD_apply (c : Dev nD) (t : Fin cfg1.N) (p k : Fin 512) (r n : Fin 8192)
    (hr : r.val = 512 * (t.val / 16) + p.val) (hn : n.val = 512 * (t.val % 16) + k.val) :
    dBlk V c t (ix2 p k) = dArr V c (ix2 r n) := by
  obtain ⟨-, -, e0, e1, -⟩ := idx_facts1 t
  unfold dBlk iblk1
  rw [View.read_apply]
  show V c main_arg2 _ = V c main_arg2 _
  congr 1
  funext a
  apply Fin.ext
  match a with
  | ⟨0, _⟩ => show win1_1.index t (0 : Fin 2) * 512 + 1 * p.val = r.val; omega
  | ⟨1, _⟩ => show win1_1.index t (1 : Fin 2) * 512 + 1 * k.val = n.val; omega

/-- The contraction block of `h` at position `t`, entry `(k, q)`: row `512 * (t % 16) + k` of `h`. -/
theorem blkHk_apply (c : Dev nD) (t : Fin cfg1.N) (k : Fin 512) (q : Fin 128) (n : Fin 8192)
    (hn : n.val = 512 * (t.val % 16) + k.val) :
    hkBlk V c t (ix2 k q) = hArr V c (ix2 n q) := by
  obtain ⟨-, -, -, -, e0, e1, -⟩ := idx_facts1 t
  unfold hkBlk iblk1
  rw [View.read_apply]
  show V c main_v1 _ = V c main_v1 _
  congr 1
  funext a
  apply Fin.ext
  match a with
  | ⟨0, _⟩ => show win1_2.index t (0 : Fin 2) * 512 + 1 * k.val = n.val; omega
  | ⟨1, _⟩ => show win1_2.index t (1 : Fin 2) * 128 + 1 * q.val = q.val; omega

/-- The row block of `h` at position `t`, entry `(p, q)`: row `512 * (t / 16) + p` of `h`. -/
theorem blkHi_apply (c : Dev nD) (t : Fin cfg1.N) (p : Fin 512) (q : Fin 128) (r : Fin 8192)
    (hr : r.val = 512 * (t.val / 16) + p.val) :
    hiBlk V c t (ix2 p q) = hArr V c (ix2 r q) := by
  obtain ⟨-, -, -, -, -, -, e0, e1, -⟩ := idx_facts1 t
  unfold hiBlk iblk1
  rw [View.read_apply]
  show V c main_v1 _ = V c main_v1 _
  congr 1
  funext a
  apply Fin.ext
  match a with
  | ⟨0, _⟩ => show win1_3.index t (0 : Fin 2) * 512 + 1 * p.val = r.val; omega
  | ⟨1, _⟩ => show win1_3.index t (1 : Fin 2) * 128 + 1 * q.val = q.val; omega

/-! ## The two accumulations

Fix a result entry: row `r = 512 * i + p`, column `q`. Along the sixteen positions `16 * i + k` of row block `i` the
first accumulator's entry `(p, q)` starts as the zero word plus the partial sum, over contraction block 0, of
`A (r, n) * h (n, q)`, and gains at each later `k` the partial sum over contraction block `k`. After `k = 15` it is
the sum over all 8192 indices `n`: entry `(r, q)` of `A · h`. The second accumulator likewise with `D`. -/

/-- The terms of the contraction at result entry `(r, q)`. -/
abbrev termA (c : Dev nD) (r : Fin 8192) (q : Fin 128) : Fin 8192 → EReal := fun n => aArr V c (ix2 r n) * hArr V c (ix2 n q)
abbrev termD (c : Dev nD) (r : Fin 8192) (q : Fin 128) : Fin 8192 → EReal := fun n => dArr V c (ix2 r n) * hArr V c (ix2 n q)

/-- The accumulators depend on the position through its value only. -/
theorem accA1_congr (c : Dev nD) {n n' : ℕ} (h : n < cfg1.N) (h' : n' < cfg1.N) (e : n = n') :
    accA1 V c n h = accA1 V c n' h' := by subst e; rfl
theorem accD1_congr (c : Dev nD) {n n' : ℕ} (h : n < cfg1.N) (h' : n' < cfg1.N) (e : n = n') :
    accD1 V c n h = accD1 V c n' h' := by subst e; rfl

/-- The block product at position `t` is contraction block `t % 16`'s partial sum. -/
theorem partA_eq (c : Dev nD) (t : Fin cfg1.N) (p : Fin 512) (q : Fin 128) (r : Fin 8192)
    (hr : r.val = 512 * (t.val / 16) + p.val) (kk : Fin 16) (hk : kk.val = t.val % 16) :
    ∑ k : Fin 512, aBlk V c t (ix2 p k) * hkBlk V c t (ix2 k q)
      = Cert.Spec.blockSum (termA V c r q) kk := by
  unfold Cert.Spec.blockSum
  refine Finset.sum_congr rfl fun k _ => ?_
  exact congrArg₂ (· * ·)
    (blkA_apply V c t p k r ⟨512 * kk.val + k.val, Cert.Spec.blk_lt kk k⟩ hr (by show 512 * kk.val + k.val = _; rw [hk]))
    (blkHk_apply V c t k q ⟨512 * kk.val + k.val, Cert.Spec.blk_lt kk k⟩ (by show 512 * kk.val + k.val = _; rw [hk]))
theorem partD_eq (c : Dev nD) (t : Fin cfg1.N) (p : Fin 512) (q : Fin 128) (r : Fin 8192)
    (hr : r.val = 512 * (t.val / 16) + p.val) (kk : Fin 16) (hk : kk.val = t.val % 16) :
    ∑ k : Fin 512, dBlk V c t (ix2 p k) * hkBlk V c t (ix2 k q)
      = Cert.Spec.blockSum (termD V c r q) kk := by
  unfold Cert.Spec.blockSum
  refine Finset.sum_congr rfl fun k _ => ?_
  exact congrArg₂ (· * ·)
    (blkD_apply V c t p k r ⟨512 * kk.val + k.val, Cert.Spec.blk_lt kk k⟩ hr (by show 512 * kk.val + k.val = _; rw [hk]))
    (blkHk_apply V c t k q ⟨512 * kk.val + k.val, Cert.Spec.blk_lt kk k⟩ (by show 512 * kk.val + k.val = _; rw [hk]))

/-- Where a row block opens: the zero word plus the first partial sum. -/
theorem accA1_open (c : Dev nD) (t : Fin cfg1.N) (h0 : t.val % 16 = 0) (p : Fin 512) (q : Fin 128) (r : Fin 8192)
    (hr : r.val = 512 * (t.val / 16) + p.val) (kk : Fin 16) (hk : kk.val = t.val % 16) :
    (accA1 V c t.val t.isLt : Vec Ideal S512x128 .f32) (ix2 p q)
      = Ideal.ofBits .f32 0x00000000#32 + Cert.Spec.blockSum (termA V c r q) kk := by
  refine (congrFun (accA1_reset V c t h0) (ix2 p q)).trans ?_
  refine (stepA_apply (hkBlk V c t) (Gen.k1_pay1 (F := Ideal)) (aBlk V c t) p q).trans ?_
  exact congrArg₂ (· + ·) (zeroA_apply (ix2 p q)) (partA_eq V c t p q r hr kk hk)
theorem accD1_open (c : Dev nD) (t : Fin cfg1.N) (h0 : t.val % 16 = 0) (p : Fin 512) (q : Fin 128) (r : Fin 8192)
    (hr : r.val = 512 * (t.val / 16) + p.val) (kk : Fin 16) (hk : kk.val = t.val % 16) :
    (accD1 V c t.val t.isLt : Vec Ideal S512x128 .f32) (ix2 p q)
      = Ideal.ofBits .f32 0x00000000#32 + Cert.Spec.blockSum (termD V c r q) kk := by
  refine (congrFun (accD1_reset V c t h0) (ix2 p q)).trans ?_
  refine (stepD_apply (hkBlk V c t) (Gen.k1_pay2 (F := Ideal)) (dBlk V c t) p q).trans ?_
  exact congrArg₂ (· + ·) (zeroD_apply (ix2 p q)) (partD_eq V c t p q r hr kk hk)

/-- Elsewhere: the value after the position before, plus this contraction block's partial sum. -/
theorem accA1_next (c : Dev nD) (t : Fin cfg1.N) (h0 : ¬t.val % 16 = 0) (p : Fin 512) (q : Fin 128) (r : Fin 8192)
    (hr : r.val = 512 * (t.val / 16) + p.val) (kk : Fin 16) (hk : kk.val = t.val % 16)
    (n' : ℕ) (hn' : n' < cfg1.N) (e : n' = t.val - 1) :
    (accA1 V c t.val t.isLt : Vec Ideal S512x128 .f32) (ix2 p q)
      = (accA1 V c n' hn' : Vec Ideal S512x128 .f32) (ix2 p q) + Cert.Spec.blockSum (termA V c r q) kk := by
  refine (congrFun (accA1_step V c t h0) (ix2 p q)).trans ?_
  refine (stepA_apply (hkBlk V c t) (accA1 V c (t.val - 1) (Nat.lt_of_le_of_lt (Nat.sub_le _ _) t.isLt)) (aBlk V c t) p q).trans ?_
  exact congrArg₂ (· + ·) (congrFun (accA1_congr V c _ hn' e.symm) (ix2 p q)) (partA_eq V c t p q r hr kk hk)
theorem accD1_next (c : Dev nD) (t : Fin cfg1.N) (h0 : ¬t.val % 16 = 0) (p : Fin 512) (q : Fin 128) (r : Fin 8192)
    (hr : r.val = 512 * (t.val / 16) + p.val) (kk : Fin 16) (hk : kk.val = t.val % 16)
    (n' : ℕ) (hn' : n' < cfg1.N) (e : n' = t.val - 1) :
    (accD1 V c t.val t.isLt : Vec Ideal S512x128 .f32) (ix2 p q)
      = (accD1 V c n' hn' : Vec Ideal S512x128 .f32) (ix2 p q) + Cert.Spec.blockSum (termD V c r q) kk := by
  refine (congrFun (accD1_step V c t h0) (ix2 p q)).trans ?_
  refine (stepD_apply (hkBlk V c t) (accD1 V c (t.val - 1) (Nat.lt_of_le_of_lt (Nat.sub_le _ _) t.isLt)) (dBlk V c t) p q).trans ?_
  exact congrArg₂ (· + ·) (congrFun (accD1_congr V c _ hn' e.symm) (ix2 p q)) (partD_eq V c t p q r hr kk hk)

/-- Where a row block closes, the first accumulator holds the row block's entries of `A · h`. -/
theorem accA1_last (c : Dev nD) (t : Fin cfg1.N) (h15 : t.val % 16 = 15) (p : Fin 512) (q : Fin 128) (r : Fin 8192)
    (hr : r.val = 512 * (t.val / 16) + p.val) :
    (accA1 V c t.val t.isLt : Vec Ideal S512x128 .f32) (ix2 p q) = Cert.Spec.MM (aArr V c) (hArr V c) (ix2 r q) := by
  have hN : cfg1.N = 256 := N_1
  have ht := t.isLt
  have hpos : ∀ k : Fin 16, 16 * (t.val / 16) + k.val < cfg1.N := fun k => by have := k.isLt; omega
  have h0 : (accA1 V c (16 * (t.val / 16) + (0 : Fin 16).val) (hpos 0) : Vec Ideal S512x128 .f32) (ix2 p q)
      = Ideal.ofBits .f32 0x00000000#32 + Cert.Spec.blockSum (termA V c r q) 0 :=
    accA1_open V c ⟨16 * (t.val / 16) + (0 : Fin 16).val, hpos 0⟩ (by show (16 * (t.val / 16) + 0) % 16 = 0; omega) p q r
      (by show r.val = 512 * ((16 * (t.val / 16) + 0) / 16) + p.val; omega) 0 (by show 0 = (16 * (t.val / 16) + 0) % 16; omega)
  have hs : ∀ (k : ℕ) (hk : k + 1 < 16),
      (accA1 V c (16 * (t.val / 16) + (⟨k + 1, hk⟩ : Fin 16).val) (hpos ⟨k + 1, hk⟩) : Vec Ideal S512x128 .f32) (ix2 p q)
        = (accA1 V c (16 * (t.val / 16) + (⟨k, by omega⟩ : Fin 16).val) (hpos ⟨k, by omega⟩) : Vec Ideal S512x128 .f32) (ix2 p q)
          + Cert.Spec.blockSum (termA V c r q) ⟨k + 1, hk⟩ := fun k hk =>
    accA1_next V c ⟨16 * (t.val / 16) + (⟨k + 1, hk⟩ : Fin 16).val, hpos ⟨k + 1, hk⟩⟩
      (by show ¬(16 * (t.val / 16) + (k + 1)) % 16 = 0; omega) p q r
      (by show r.val = 512 * ((16 * (t.val / 16) + (k + 1)) / 16) + p.val; omega) ⟨k + 1, hk⟩
      (by show k + 1 = (16 * (t.val / 16) + (k + 1)) % 16; omega) _ _
      (by show 16 * (t.val / 16) + k = 16 * (t.val / 16) + (k + 1) - 1; omega)
  have hlast := Cert.Spec.acc_last (termA V c r q)
    (fun k => (accA1 V c (16 * (t.val / 16) + k.val) (hpos k) : Vec Ideal S512x128 .f32) (ix2 p q)) h0 hs
  refine (congrFun (accA1_congr V c t.isLt (hpos 15) (by show t.val = 16 * (t.val / 16) + 15; omega)) (ix2 p q)).trans ?_
  exact hlast

/-- And the second those of `D · h`. -/
theorem accD1_last (c : Dev nD) (t : Fin cfg1.N) (h15 : t.val % 16 = 15) (p : Fin 512) (q : Fin 128) (r : Fin 8192)
    (hr : r.val = 512 * (t.val / 16) + p.val) :
    (accD1 V c t.val t.isLt : Vec Ideal S512x128 .f32) (ix2 p q) = Cert.Spec.MM (dArr V c) (hArr V c) (ix2 r q) := by
  have hN : cfg1.N = 256 := N_1
  have ht := t.isLt
  have hpos : ∀ k : Fin 16, 16 * (t.val / 16) + k.val < cfg1.N := fun k => by have := k.isLt; omega
  have h0 : (accD1 V c (16 * (t.val / 16) + (0 : Fin 16).val) (hpos 0) : Vec Ideal S512x128 .f32) (ix2 p q)
      = Ideal.ofBits .f32 0x00000000#32 + Cert.Spec.blockSum (termD V c r q) 0 :=
    accD1_open V c ⟨16 * (t.val / 16) + (0 : Fin 16).val, hpos 0⟩ (by show (16 * (t.val / 16) + 0) % 16 = 0; omega) p q r
      (by show r.val = 512 * ((16 * (t.val / 16) + 0) / 16) + p.val; omega) 0 (by show 0 = (16 * (t.val / 16) + 0) % 16; omega)
  have hs : ∀ (k : ℕ) (hk : k + 1 < 16),
      (accD1 V c (16 * (t.val / 16) + (⟨k + 1, hk⟩ : Fin 16).val) (hpos ⟨k + 1, hk⟩) : Vec Ideal S512x128 .f32) (ix2 p q)
        = (accD1 V c (16 * (t.val / 16) + (⟨k, by omega⟩ : Fin 16).val) (hpos ⟨k, by omega⟩) : Vec Ideal S512x128 .f32) (ix2 p q)
          + Cert.Spec.blockSum (termD V c r q) ⟨k + 1, hk⟩ := fun k hk =>
    accD1_next V c ⟨16 * (t.val / 16) + (⟨k + 1, hk⟩ : Fin 16).val, hpos ⟨k + 1, hk⟩⟩
      (by show ¬(16 * (t.val / 16) + (k + 1)) % 16 = 0; omega) p q r
      (by show r.val = 512 * ((16 * (t.val / 16) + (k + 1)) / 16) + p.val; omega) ⟨k + 1, hk⟩
      (by show k + 1 = (16 * (t.val / 16) + (k + 1)) % 16; omega) _ _
      (by show 16 * (t.val / 16) + k = 16 * (t.val / 16) + (k + 1) - 1; omega)
  have hlast := Cert.Spec.acc_last (termD V c r q)
    (fun k => (accD1 V c (16 * (t.val / 16) + k.val) (hpos k) : Vec Ideal S512x128 .f32) (ix2 p q)) h0 hs
  refine (congrFun (accD1_congr V c t.isLt (hpos 15) (by show t.val = 16 * (t.val / 16) + 15; omega)) (ix2 p q)).trans ?_
  exact hlast

/-! ## From the blocks written back to the two arrays

Each output is written back where a row block closes (`t % 16 = 15`), block `t / 16` of its array: rows
`512 * (t / 16) … 512 * (t / 16) + 511`, all 128 columns. The sixteen row blocks fill the array. -/

/-- Entry `(p, q)` of the output block at position `t` is entry `(512 * (t / 16) + p, q)` of the array (both outputs
    have the same index map). -/
theorem outRow4 (t : Fin cfg1.N) (p : Fin 512) (q : Fin 128) (r : Fin 8192) (hr : r.val = 512 * (t.val / 16) + p.val) :
    ((cfg1.win 4).blk t).view.emb (ix2 p q) = ix2 r q := by
  obtain ⟨-, -, -, -, -, -, -, -, e0, e1, -⟩ := idx_facts1 t
  funext a
  apply Fin.ext
  match a with
  | ⟨0, _⟩ => show win1_4.index t (0 : Fin 2) * 512 + 1 * p.val = r.val; omega
  | ⟨1, _⟩ => show win1_4.index t (1 : Fin 2) * 128 + 1 * q.val = q.val; omega
theorem outRow5 (t : Fin cfg1.N) (p : Fin 512) (q : Fin 128) (r : Fin 8192) (hr : r.val = 512 * (t.val / 16) + p.val) :
    ((cfg1.win 5).blk t).view.emb (ix2 p q) = ix2 r q := by
  obtain ⟨-, -, -, -, -, -, -, -, -, -, e0, e1⟩ := idx_facts1 t
  funext a
  apply Fin.ext
  match a with
  | ⟨0, _⟩ => show win1_5.index t (0 : Fin 2) * 512 + 1 * p.val = r.val; omega
  | ⟨1, _⟩ => show win1_5.index t (1 : Fin 2) * 128 + 1 * q.val = q.val; omega

/-- What a closing position writes back through window 5 is its block of `D · h`. -/
theorem flushed5_eq (c : Dev nD) (t : Fin cfg1.N) (hf : (cfg1.win 5).flush t = true) :
    (dat1 V c).flushed 5 t = ((cfg1.win 5).blk t).view.read (Elt Ideal) (Cert.Spec.MM (dArr V c) (hArr V c)) := by
  have h15 : t.val % 16 = 15 := (flush1_5 t).mp hf
  have hN : cfg1.N = 256 := N_1
  have ht := t.isLt
  show (cfg1.win 5).cut (grid1.coords t) ((dat1 V c).after 5 t) = _
  rw [after1_5 V c t h15]
  funext y
  obtain ⟨p, q, rfl⟩ : ∃ (p : Fin 512) (q : Fin 128), y = ix2 p q := ⟨y 0, y 1, eq_ix2 y⟩
  rw [View.read_apply, outRow5 t p q ⟨512 * (t.val / 16) + p.val, by have := p.isLt; omega⟩ rfl]
  exact accD1_last V c t h15 p q _ rfl

/-- Through window 4: its block of the step's result, `(half * h + half * (A · h)) + half * (D · h)`. -/
theorem flushed4_eq (c : Dev nD) (t : Fin cfg1.N) (hf : (cfg1.win 4).flush t = true) :
    (dat1 V c).flushed 4 t
      = ((cfg1.win 4).blk t).view.read (Elt Ideal) (Cert.Spec.STEP (hArr V c) (aArr V c) (dArr V c) (hArr V c)) := by
  have h15 : t.val % 16 = 15 := (flush1_4 t).mp hf
  have hN : cfg1.N = 256 := N_1
  have ht := t.isLt
  show (cfg1.win 4).cut (grid1.coords t) ((dat1 V c).after 4 t) = _
  rw [after1_4 V c t h15]
  funext y
  obtain ⟨p, q, rfl⟩ : ∃ (p : Fin 512) (q : Fin 128), y = ix2 p q := ⟨y 0, y 1, eq_ix2 y⟩
  rw [View.read_apply, outRow4 t p q ⟨512 * (t.val / 16) + p.val, by have := p.isLt; omega⟩ rfl]
  refine (combine_apply (accD1 V c t.val t.isLt) (hiBlk V c t) (accA1 V c t.val t.isLt) (ix2 p q)).trans ?_
  exact congrArg₂ (· + ·)
    (congrArg₂ (· + ·) (congrArg (Cert.Spec.half * ·) (blkHi_apply V c t p q _ rfl))
      (congrArg (Cert.Spec.half * ·) (accA1_last V c t h15 p q _ rfl)))
    (congrArg (Cert.Spec.half * ·) (accD1_last V c t h15 p q _ rfl))

/-- Every entry of an output array is in the block of the position that closes its row block. -/
theorem cover4 (i : S8192x128.Idx) : ∃ t : Fin cfg1.N, (cfg1.win 4).flush t = true ∧ i ∈ ((cfg1.win 4).blk t).view.set := by
  have h0 : (i 0).val < 8192 := (i 0).isLt
  have h1 : (i 1).val < 128 := (i 1).isLt
  have hN : cfg1.N = 256 := N_1
  have hlt : 16 * ((i 0).val / 512) + 15 < cfg1.N := by omega
  obtain ⟨-, -, -, -, -, -, -, -, e0, e1, -⟩ := idx_facts1 ⟨16 * ((i 0).val / 512) + 15, hlt⟩
  refine ⟨⟨16 * ((i 0).val / 512) + 15, hlt⟩, (flush1_4 _).mpr (by show (16 * ((i 0).val / 512) + 15) % 16 = 15; omega), ?_⟩
  show i ∈ ((View.whole main_v2_0).slice (win1_4.rect ⟨16 * ((i 0).val / 512) + 15, hlt⟩)).set
  rw [View.set_slice_whole, Rect.mem_set_unit]
  intro a
  match a with
  | ⟨0, _⟩ =>
    show win1_4.index ⟨16 * ((i 0).val / 512) + 15, hlt⟩ (0 : Fin 2) * 512 ≤ (i 0).val
      ∧ (i 0).val < win1_4.index ⟨16 * ((i 0).val / 512) + 15, hlt⟩ (0 : Fin 2) * 512 + 512
    rw [e0]; show (16 * ((i 0).val / 512) + 15) / 16 * 512 ≤ (i 0).val ∧ (i 0).val < (16 * ((i 0).val / 512) + 15) / 16 * 512 + 512
    omega
  | ⟨1, _⟩ =>
    show win1_4.index ⟨16 * ((i 0).val / 512) + 15, hlt⟩ (1 : Fin 2) * 128 ≤ (i 1).val
      ∧ (i 1).val < win1_4.index ⟨16 * ((i 0).val / 512) + 15, hlt⟩ (1 : Fin 2) * 128 + 128
    rw [e1]; omega
theorem cover5 (i : S8192x128.Idx) : ∃ t : Fin cfg1.N, (cfg1.win 5).flush t = true ∧ i ∈ ((cfg1.win 5).blk t).view.set := by
  have h0 : (i 0).val < 8192 := (i 0).isLt
  have h1 : (i 1).val < 128 := (i 1).isLt
  have hN : cfg1.N = 256 := N_1
  have hlt : 16 * ((i 0).val / 512) + 15 < cfg1.N := by omega
  obtain ⟨-, -, -, -, -, -, -, -, -, -, e0, e1⟩ := idx_facts1 ⟨16 * ((i 0).val / 512) + 15, hlt⟩
  refine ⟨⟨16 * ((i 0).val / 512) + 15, hlt⟩, (flush1_5 _).mpr (by show (16 * ((i 0).val / 512) + 15) % 16 = 15; omega), ?_⟩
  show i ∈ ((View.whole main_v2_1).slice (win1_5.rect ⟨16 * ((i 0).val / 512) + 15, hlt⟩)).set
  rw [View.set_slice_whole, Rect.mem_set_unit]
  intro a
  match a with
  | ⟨0, _⟩ =>
    show win1_5.index ⟨16 * ((i 0).val / 512) + 15, hlt⟩ (0 : Fin 2) * 512 ≤ (i 0).val
      ∧ (i 0).val < win1_5.index ⟨16 * ((i 0).val / 512) + 15, hlt⟩ (0 : Fin 2) * 512 + 512
    rw [e0]; show (16 * ((i 0).val / 512) + 15) / 16 * 512 ≤ (i 0).val ∧ (i 0).val < (16 * ((i 0).val / 512) + 15) / 16 * 512 + 512
    omega
  | ⟨1, _⟩ =>
    show win1_5.index ⟨16 * ((i 0).val / 512) + 15, hlt⟩ (1 : Fin 2) * 128 ≤ (i 1).val
      ∧ (i 1).val < win1_5.index ⟨16 * ((i 0).val / 512) + 15, hlt⟩ (1 : Fin 2) * 128 + 128
    rw [e1]; omega

end Run

end Val1

-- the buffer contents when the call begins
variable (V : (c : Dev nD) → (b : Ref sig .tc) → Buf (Elt Ideal) ((c : Thread nD τ).loc b))

/-- Window 4's array after the call: one propagation step from `h`, with `A` and `D` the two dense matrices. -/
theorem final1_4 (c : Dev nD) :
    (dat1 V c).arrAt 4 cfg1.N = Cert.Spec.STEP (V c main_v1) (V c main_arg1) (V c main_arg2) (V c main_v1) :=
  (dat1 V c).arrAt_eq_of_cover 4 (Cert.Spec.STEP (Val1.hArr V c) (Val1.aArr V c) (Val1.dArr V c) (Val1.hArr V c))
    (Val1.flushed4_eq V c) Val1.cover4

/-- Window 5's array after the call: the dense product `D · h`. -/
theorem final1_5 (c : Dev nD) : (dat1 V c).arrAt 5 cfg1.N = Cert.Spec.MM (V c main_arg2) (V c main_v1) :=
  (dat1 V c).arrAt_eq_of_cover 5 (Cert.Spec.MM (Val1.dArr V c) (Val1.hArr V c)) (Val1.flushed5_eq V c) Val1.cover5

end Cert.KernelIdeal.Hand

end
-- ==== Proof.KI.Acc2.lean ====
import proofs.«167914_g71622874628668_fold_wed_m_490_1_alg».proof.Proof.KI.R2
import proofs.«167914_g71622874628668_fold_wed_m_490_1_alg».proof.Proof.Spec
import Idealize.ShloMosaic.Lib.Pipeline.Value
import Idealize.ShloMosaic.Lib.ValueIdx
import Idealize.ShloMosaic.PureOps.Ideal.Laws

/-! # The third call's accumulator after a row block's last column block

On the extended reals. Write a position as `16 * i + k`: row block `i`, column block `k`. The accumulator starts
each row block at the zero word and gains, at column block `k`, the product of the block `(i, k)` of the propagation
matrix `A` with row block `k` of `Y1`: at entry `(r, j)` that is the partial sum, over the 512 indices `n` of column
block `k`, of `A (512 * i + r, n) * Y1 (n, j)`. After column block 15 the sixteen partial sums have been added in
order, so the entry is the sum over all 8192 indices: entry `(512 * i + r, j)` of `A * Y1`. -/

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

/-! ## A 512 x 512 block times a 512 x 128 block, at an entry -/

/-- The left operand is read at the result's row `j 0` as its row. -/
theorem dotL0_acc2 (j : S512x128.Idx) (q : dot_S512x512_S512x128_S512x128_1_0_0_1_n_n.contr.Idx) :
    (dot_S512x512_S512x128_S512x128_1_0_0_1_n_n.lhsIdx j q 0).val = (j 0).val := by
  unfold DotDims.lhsIdx
  rw [dif_neg (show ¬(0 : Fin S512x512.rank) ∈ dot_S512x512_S512x128_S512x128_1_0_0_1_n_n.lhsBatch by decide), dif_pos (show (0 : Fin S512x512.rank) ∈ dot_S512x512_S512x128_S512x128_1_0_0_1_n_n.lhsNonContracting by decide)]
  rfl
/-- The left operand is read at the contraction index as its column. -/
theorem dotL1_acc2 (j : S512x128.Idx) (q : dot_S512x512_S512x128_S512x128_1_0_0_1_n_n.contr.Idx) :
    (dot_S512x512_S512x128_S512x128_1_0_0_1_n_n.lhsIdx j q 1).val = (q ⟨0, by decide⟩).val :=
  dot_S512x512_S512x128_S512x128_1_0_0_1_n_n.lhsIdx_val_of_single rfl j q
/-- The right operand is read at the contraction index as its row. -/
theorem dotR0_acc2 (j : S512x128.Idx) (q : dot_S512x512_S512x128_S512x128_1_0_0_1_n_n.contr.Idx) :
    (dot_S512x512_S512x128_S512x128_1_0_0_1_n_n.rhsIdx j q 0).val = (q ⟨0, by decide⟩).val :=
  dot_S512x512_S512x128_S512x128_1_0_0_1_n_n.rhsIdx_val_of_single rfl j q
/-- The right operand is read at the result's column `j 1`. -/
theorem dotR1_acc2 (j : S512x128.Idx) (q : dot_S512x512_S512x128_S512x128_1_0_0_1_n_n.contr.Idx) :
    (dot_S512x512_S512x128_S512x128_1_0_0_1_n_n.rhsIdx j q 1).val = (j 1).val := by
  unfold DotDims.rhsIdx
  rw [dif_neg (show ¬(1 : Fin S512x128.rank) ∈ dot_S512x512_S512x128_S512x128_1_0_0_1_n_n.rhsBatch by decide), dif_pos (show (1 : Fin S512x128.rank) ∈ dot_S512x512_S512x128_S512x128_1_0_0_1_n_n.rhsNonContracting by decide)]
  rfl

/-- The block product into a zero accumulator, at entry `(p, q)`: the sum over `k : Fin 512` of the left block at
    `(p, k)` times the right block at `(k, q)`. -/
theorem prod512_acc2 (a : FVec Ideal S512x512 .f32) (b : FVec Ideal S512x128 .f32) (p : Fin 512) (q : Fin 128) :
    matmul dot_S512x512_S512x128_S512x128_1_0_0_1_n_n none a b (constant (F := Ideal) S512x128 .f32 0x00000000#32) (ix2 p q)
      = ∑ k : Fin 512, a (ix2 p k) * b (ix2 k q) := by
  refine (Ideal.matmul_constant_zero_apply dot_S512x512_S512x128_S512x128_1_0_0_1_n_n none a b (ix2 p q)).trans ?_
  rw [← Equiv.sum_comp (ValueIdx.contrEquiv1 dot_S512x512_S512x128_S512x128_1_0_0_1_n_n 512 rfl rfl).symm]
  refine Finset.sum_congr rfl fun k _ => ?_
  have hk := ValueIdx.contrEquiv1_symm_val dot_S512x512_S512x128_S512x128_1_0_0_1_n_n 512 rfl rfl k
  have el : dot_S512x512_S512x128_S512x128_1_0_0_1_n_n.lhsIdx (ix2 p q) ((ValueIdx.contrEquiv1 dot_S512x512_S512x128_S512x128_1_0_0_1_n_n 512 rfl rfl).symm k) = ix2 p k := funext fun a => Fin.ext (by
    match a with
    | ⟨0, _⟩ => exact dotL0_acc2 _ _
    | ⟨1, _⟩ => exact (dotL1_acc2 _ _).trans hk)
  have er : dot_S512x512_S512x128_S512x128_1_0_0_1_n_n.rhsIdx (ix2 p q) ((ValueIdx.contrEquiv1 dot_S512x512_S512x128_S512x128_1_0_0_1_n_n 512 rfl rfl).symm k) = ix2 k q := funext fun a => Fin.ext (by
    match a with
    | ⟨0, _⟩ => exact (dotR0_acc2 _ _).trans hk
    | ⟨1, _⟩ => exact dotR1_acc2 _ _)
  rw [el, er]

/-- The value the accumulator is reset to is the zero word at every entry. -/
theorem zero_acc2 (j : S512x128.Idx) : (Gen.k2_pay1 (F := Ideal)) j = Ideal.ofBits .f32 0x00000000#32 := by
  unfold Gen.k2_pay1
  simp only [shapeCast_self]
  rfl

/-- The accumulator's update at entry `(p, q)`: the old value `v3` there plus the product of the `A` block `v4` and the
    `Y1` block `v5` there. -/
theorem step_acc2 (v3 : FVec Ideal S512x128 .f32) (v4 : FVec Ideal S512x512 .f32) (v5 : FVec Ideal S512x128 .f32) (p : Fin 512) (q : Fin 128) :
    Gen.k2_pay2 (F := Ideal) v3 v4 v5 (ix2 p q) = v3 (ix2 p q) + ∑ k : Fin 512, v4 (ix2 p k) * v5 (ix2 k q) := by
  unfold Gen.k2_pay2
  simp only [shapeCast_self]
  exact congrArg (v3 (ix2 p q) + ·) (prod512_acc2 v4 v5 p q)

/-! ## The two blocks, read off the arrays the call begins from -/

-- the buffer contents when the call begins, at the ideal values
variable (V : (c : Dev nD) → (b : Ref sig .tc) → Buf (Elt Ideal) ((c : Thread nD τ).loc b))

/-- The propagation matrix `A` as the call finds it, an 8192 x 8192 array of extended reals. -/
abbrev arrA_acc2 (c : Dev nD) : Cert.Spec.Mat 8192 8192 := V c main_arg1
/-- `Y1` as the call finds it, an 8192 x 128 array of extended reals. -/
abbrev arrY_acc2 (c : Dev nD) : Cert.Spec.Mat 8192 128 := V c main_v2_0
/-- The `A` block at position `t`, 512 x 512. -/
abbrev inA_acc2 (c : Dev nD) (t : Fin cfg2.N) : FVec Ideal S512x512 .f32 := iblk2 V c 0 t
/-- The `Y1` contraction block at position `t`, 512 x 128. -/
abbrev inY_acc2 (c : Dev nD) (t : Fin cfg2.N) : FVec Ideal S512x128 .f32 := iblk2 V c 1 t

/-- At position `t` the `A` window is on block `(t / 16, t % 16)` and the `Y1` contraction window on block `(t % 16, 0)`. -/
theorem idx_acc2 : ∀ t : Fin cfg2.N,
    win2_0.index t (0 : Fin 2) = t.val / 16 ∧ win2_0.index t (1 : Fin 2) = t.val % 16
    ∧ win2_1.index t (0 : Fin 2) = t.val % 16 ∧ win2_1.index t (1 : Fin 2) = 0 :=
  (by decide +kernel : ∀ t : Fin grid2.N, _)

/-- Entry `(p, k)` of the `A` block at position `t` is entry `(512 * (t / 16) + p, 512 * (t % 16) + k)` of `A`. -/
theorem blkA_acc2 (c : Dev nD) (t : Fin cfg2.N) (p k : Fin 512) (r n : Fin 8192)
    (hr : r.val = 512 * (t.val / 16) + p.val) (hn : n.val = 512 * (t.val % 16) + k.val) :
    inA_acc2 V c t (ix2 p k) = arrA_acc2 V c (ix2 r n) := by
  show (iblk2 V c 0 t : Vec Ideal S512x512 .f32) (ix2 p k) = (V c main_arg1 : S8192x8192.Idx → EReal) (ix2 r n)
  obtain ⟨e0, e1, -⟩ := idx_acc2 t
  unfold iblk2
  rw [View.read_apply]
  show V c main_arg1 _ = V c main_arg1 _
  refine congrArg (V c main_arg1) (funext fun a => Fin.ext ?_)
  match a with
  | ⟨0, _⟩ => show win2_0.index t (0 : Fin 2) * 512 + 1 * p.val = r.val; rw [e0, hr]; omega
  | ⟨1, _⟩ => show win2_0.index t (1 : Fin 2) * 512 + 1 * k.val = n.val; rw [e1, hn]; omega

/-- Entry `(k, q)` of the `Y1` contraction block at position `t` is entry `(512 * (t % 16) + k, q)` of `Y1`. -/
theorem blkY_acc2 (c : Dev nD) (t : Fin cfg2.N) (k : Fin 512) (q : Fin 128) (n : Fin 8192)
    (hn : n.val = 512 * (t.val % 16) + k.val) :
    inY_acc2 V c t (ix2 k q) = arrY_acc2 V c (ix2 n q) := by
  show (iblk2 V c 1 t : Vec Ideal S512x128 .f32) (ix2 k q) = (V c main_v2_0 : S8192x128.Idx → EReal) (ix2 n q)
  obtain ⟨-, -, e0, e1⟩ := idx_acc2 t
  unfold iblk2
  rw [View.read_apply]
  show V c main_v2_0 _ = V c main_v2_0 _
  refine congrArg (V c main_v2_0) (funext fun a => Fin.ext ?_)
  match a with
  | ⟨0, _⟩ => show win2_1.index t (0 : Fin 2) * 512 + 1 * k.val = n.val; rw [e0, hn]; omega
  | ⟨1, _⟩ => show win2_1.index t (1 : Fin 2) * 128 + 1 * q.val = q.val; rw [e1]; omega

/-! ## The accumulation -/

/-- The terms of the contraction at entry `(r, q)` of `A * Y1`. -/
abbrev term_acc2 (c : Dev nD) (r : Fin 8192) (q : Fin 128) : Fin 8192 → EReal :=
  fun n => arrA_acc2 V c (ix2 r n) * arrY_acc2 V c (ix2 n q)

/-- The accumulator depends on the position through its value only. -/
theorem acc2_congr (c : Dev nD) {n n' : ℕ} (h : n < cfg2.N) (h' : n' < cfg2.N) (e : n = n') :
    acc2 V c n h = acc2 V c n' h' := by subst e; rfl

/-- The block product at position `t`, at entry `(p, q)`, is the partial sum of the contraction's terms over column
    block `t % 16`. -/
theorem part_acc2 (c : Dev nD) (t : Fin cfg2.N) (p : Fin 512) (q : Fin 128) (r : Fin 8192)
    (hr : r.val = 512 * (t.val / 16) + p.val) (kk : Fin 16) (hk : kk.val = t.val % 16) :
    ∑ k : Fin 512, inA_acc2 V c t (ix2 p k) * inY_acc2 V c t (ix2 k q)
      = Cert.Spec.blockSum (term_acc2 V c r q) kk := by
  unfold Cert.Spec.blockSum
  refine Finset.sum_congr rfl fun k _ => ?_
  exact congrArg₂ (· * ·)
    (blkA_acc2 V c t p k r ⟨512 * kk.val + k.val, Cert.Spec.blk_lt kk k⟩ hr (by show 512 * kk.val + k.val = _; rw [hk]))
    (blkY_acc2 V c t k q ⟨512 * kk.val + k.val, Cert.Spec.blk_lt kk k⟩ (by show 512 * kk.val + k.val = _; rw [hk]))

/-- Where a row block opens (`t % 16 = 0`) the accumulator is the zero word plus the first partial sum. -/
theorem open_acc2 (c : Dev nD) (t : Fin cfg2.N) (h0 : t.val % 16 = 0) (p : Fin 512) (q : Fin 128) (r : Fin 8192)
    (hr : r.val = 512 * (t.val / 16) + p.val) (kk : Fin 16) (hk : kk.val = t.val % 16) :
    (acc2 V c t.val t.isLt : Vec Ideal S512x128 .f32) (ix2 p q)
      = Ideal.ofBits .f32 0x00000000#32 + Cert.Spec.blockSum (term_acc2 V c r q) kk := by
  refine (congrFun (acc2_at_reset V c t h0) (ix2 p q)).trans ?_
  refine (step_acc2 (Gen.k2_pay1 (F := Ideal)) (inA_acc2 V c t) (inY_acc2 V c t) p q).trans ?_
  exact congrArg₂ (· + ·) (zero_acc2 (ix2 p q)) (part_acc2 V c t p q r hr kk hk)

/-- Elsewhere in a row block the accumulator is its value after the position before plus this column block's partial
    sum. -/
theorem next_acc2 (c : Dev nD) (t : Fin cfg2.N) (h0 : ¬t.val % 16 = 0) (p : Fin 512) (q : Fin 128) (r : Fin 8192)
    (hr : r.val = 512 * (t.val / 16) + p.val) (kk : Fin 16) (hk : kk.val = t.val % 16)
    (n' : ℕ) (hn' : n' < cfg2.N) (e : n' = t.val - 1) :
    (acc2 V c t.val t.isLt : Vec Ideal S512x128 .f32) (ix2 p q)
      = (acc2 V c n' hn' : Vec Ideal S512x128 .f32) (ix2 p q) + Cert.Spec.blockSum (term_acc2 V c r q) kk := by
  refine (congrFun (acc2_at_step V c t h0) (ix2 p q)).trans ?_
  refine (step_acc2 (acc2 V c (t.val - 1) (Nat.lt_of_le_of_lt (Nat.sub_le _ _) t.isLt)) (inA_acc2 V c t) (inY_acc2 V c t) p q).trans ?_
  exact congrArg₂ (· + ·) (congrFun (acc2_congr V c _ hn' e.symm) (ix2 p q)) (part_acc2 V c t p q r hr kk hk)

/-- After the last column block of row block `i` the accumulator's entry `(r, j)` is the sum over all 8192 indices `n`
    of `A (512 * i + r, n) * Y1 (n, j)`: entry `(512 * i + r, j)` of `A * Y1`. The sixteen partial sums are added in
    order to the zero word, which is zero; addition of extended reals is associative. -/
theorem acc2_last (c : Dev nD) (i : Fin 16) (r : Fin 512) (j : Fin 128) (h : 16 * i.val + 15 < cfg2.N) :
    (acc2 V c (16 * i.val + 15) h : Vec Ideal S512x128 .f32) (ix2 r j)
      = Cert.Spec.MM (V c main_arg1) (V c main_v2_0) (ix2 ⟨512 * i.val + r.val, Cert.Spec.blk_lt i r⟩ j) := by
  rw [Cert.Spec.MM_apply]
  have hN : cfg2.N = 256 := N_2
  have hi := i.isLt
  have hpos : ∀ k : Fin 16, 16 * i.val + k.val < cfg2.N := fun k => by have := k.isLt; omega
  have h0 : (acc2 V c (16 * i.val + (0 : Fin 16).val) (hpos 0) : Vec Ideal S512x128 .f32) (ix2 r j)
      = Ideal.ofBits .f32 0x00000000#32 + Cert.Spec.blockSum (term_acc2 V c ⟨512 * i.val + r.val, Cert.Spec.blk_lt i r⟩ j) 0 :=
    open_acc2 V c ⟨16 * i.val + (0 : Fin 16).val, hpos 0⟩ (by show (16 * i.val + 0) % 16 = 0; omega) r j
      ⟨512 * i.val + r.val, Cert.Spec.blk_lt i r⟩
      (by show 512 * i.val + r.val = 512 * ((16 * i.val + 0) / 16) + r.val; omega) 0 (by show 0 = (16 * i.val + 0) % 16; omega)
  have hs : ∀ (k : ℕ) (hk : k + 1 < 16),
      (acc2 V c (16 * i.val + (⟨k + 1, hk⟩ : Fin 16).val) (hpos ⟨k + 1, hk⟩) : Vec Ideal S512x128 .f32) (ix2 r j)
        = (acc2 V c (16 * i.val + (⟨k, by omega⟩ : Fin 16).val) (hpos ⟨k, by omega⟩) : Vec Ideal S512x128 .f32) (ix2 r j)
          + Cert.Spec.blockSum (term_acc2 V c ⟨512 * i.val + r.val, Cert.Spec.blk_lt i r⟩ j) ⟨k + 1, hk⟩ := fun k hk =>
    next_acc2 V c ⟨16 * i.val + (⟨k + 1, hk⟩ : Fin 16).val, hpos ⟨k + 1, hk⟩⟩
      (by show ¬(16 * i.val + (k + 1)) % 16 = 0; omega) r j ⟨512 * i.val + r.val, Cert.Spec.blk_lt i r⟩
      (by show 512 * i.val + r.val = 512 * ((16 * i.val + (k + 1)) / 16) + r.val; omega) ⟨k + 1, hk⟩
      (by show k + 1 = (16 * i.val + (k + 1)) % 16; omega) _ _
      (by show 16 * i.val + k = 16 * i.val + (k + 1) - 1; omega)
  exact Cert.Spec.acc_last (term_acc2 V c ⟨512 * i.val + r.val, Cert.Spec.blk_lt i r⟩ j)
    (fun k => (acc2 V c (16 * i.val + k.val) (hpos k) : Vec Ideal S512x128 .f32) (ix2 r j)) h0 hs

end Cert.KernelIdeal.Hand
-- ==== Proof.KI.Val2.lean ====
import proofs.«167914_g71622874628668_fold_wed_m_490_1_alg».proof.Proof.KI.R2
import proofs.«167914_g71622874628668_fold_wed_m_490_1_alg».proof.Proof.KI.Acc2
import proofs.«167914_g71622874628668_fold_wed_m_490_1_alg».proof.Proof.Spec
import Idealize.ShloMosaic.Lib.Pipeline.Value
import Idealize.ShloMosaic.Lib.ValueIdx
import Idealize.ShloMosaic.PureOps.Ideal.Laws

/-! # The third call's output array is the second propagation step followed by the last linear layer

At the ideal values, the array the third call writes is `max(Y2, 0) · W + b` where `Y2` is the combination
`(1/2 · Y1 + 1/2 · (A · Y1)) + 1/2 · (D · h)` of the arrays the call reads. The product `A · Y1` is accumulated over
the 16 column blocks of each row block; after the last one the accumulator holds the whole sum over 8192. -/

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen
open scoped BigOperators

-- the buffer contents when the call begins, at the ideal values
variable (V : (c : Dev nD) → (b : Ref sig .tc) → Buf (Elt Ideal) ((c : Thread nD τ).loc b))

/-! ## The arrays the call reads, and where a block's entry sits in its array

Write a position as `16 * i + kk`. Entry `(r, k)` of the row blocks of `Y1` and `D · h` there is entry `(512 * i + r, k)` of the array; the weights
and the bias row are read whole. (The blocks of `A` and the contraction blocks of `Y1` enter only through the accumulator.) -/

/-- The propagation matrix `A`, `Y1`, `D · h`, the last layer's weights and its bias row, as the call finds them. -/
abbrev arrA (c : Dev nD) : Cert.Spec.Mat 8192 8192 := V c main_arg1
abbrev arrY (c : Dev nD) : Cert.Spec.Mat 8192 128 := V c main_v2_0
abbrev arrDh (c : Dev nD) : Cert.Spec.Mat 8192 128 := V c main_v2_1
abbrev arrW (c : Dev nD) : Cert.Spec.Mat 128 64 := V c main_arg5
abbrev arrB (c : Dev nD) : Cert.Spec.Mat 1 64 := V c main_v3

/-- Each window's block index at position `t`, on both axes. -/
theorem idx2 : ∀ t : Fin cfg2.N,
    win2_0.index t (0 : Fin 2) = t.val / 16 ∧ win2_0.index t (1 : Fin 2) = t.val % 16
    ∧ win2_1.index t (0 : Fin 2) = t.val % 16 ∧ win2_1.index t (1 : Fin 2) = 0
    ∧ win2_2.index t (0 : Fin 2) = t.val / 16 ∧ win2_2.index t (1 : Fin 2) = 0
    ∧ win2_3.index t (0 : Fin 2) = t.val / 16 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val / 16 ∧ win2_6.index t (1 : Fin 2) = 0 :=
  (by decide +kernel : ∀ t : Fin grid2.N, _)

/-- A row of a block, as a row of the array. -/
theorem row_lt (i : Fin 16) (r : Fin 512) : 512 * i.val + r.val < 8192 := by
  have := i.isLt; have := r.isLt; omega

theorem blkYi (c : Dev nD) (t : Fin cfg2.N) (i kk : Fin 16) (ht : t.val = 16 * i.val + kk.val) (r : Fin 512) (k : Fin 128) :
    (iblk2 V c 2 t : Vec Ideal S512x128 .f32) (ix2 r k) = arrY V c (ix2 ⟨512 * i.val + r.val, row_lt i r⟩ k) := by
  obtain ⟨-, -, -, -, e0, e1, -⟩ := idx2 t
  have hi := i.isLt; have hk := kk.isLt
  unfold iblk2
  rw [View.read_apply]
  show V c main_v2_0 _ = V c main_v2_0 _
  refine congrArg (V c main_v2_0) (funext fun a => Fin.ext ?_)
  match a with
  | ⟨0, _⟩ => show win2_2.index t (0 : Fin 2) * 512 + 1 * r.val = 512 * i.val + r.val; rw [e0]; omega
  | ⟨1, _⟩ => show win2_2.index t (1 : Fin 2) * 128 + 1 * k.val = k.val; rw [e1]; omega

theorem blkDh (c : Dev nD) (t : Fin cfg2.N) (i kk : Fin 16) (ht : t.val = 16 * i.val + kk.val) (r : Fin 512) (k : Fin 128) :
    (iblk2 V c 3 t : Vec Ideal S512x128 .f32) (ix2 r k) = arrDh V c (ix2 ⟨512 * i.val + r.val, row_lt i r⟩ k) := by
  obtain ⟨-, -, -, -, -, -, e0, e1, -⟩ := idx2 t
  have hi := i.isLt; have hk := kk.isLt
  unfold iblk2
  rw [View.read_apply]
  show V c main_v2_1 _ = V c main_v2_1 _
  refine congrArg (V c main_v2_1) (funext fun a => Fin.ext ?_)
  match a with
  | ⟨0, _⟩ => show win2_3.index t (0 : Fin 2) * 512 + 1 * r.val = 512 * i.val + r.val; rw [e0]; omega
  | ⟨1, _⟩ => show win2_3.index t (1 : Fin 2) * 128 + 1 * k.val = k.val; rw [e1]; omega

theorem blkW (c : Dev nD) (t : Fin cfg2.N) (k : Fin 128) (cc : Fin 64) :
    (iblk2 V c 4 t : Vec Ideal S128x64 .f32) (ix2 k cc) = arrW V c (ix2 k cc) := by
  obtain ⟨-, -, -, -, -, -, -, -, e0, e1, -⟩ := idx2 t
  unfold iblk2
  rw [View.read_apply]
  show V c main_arg5 _ = V c main_arg5 _
  refine congrArg (V c main_arg5) (funext fun a => Fin.ext ?_)
  match a with
  | ⟨0, _⟩ => show win2_4.index t (0 : Fin 2) * 128 + 1 * k.val = k.val; rw [e0]; omega
  | ⟨1, _⟩ => show win2_4.index t (1 : Fin 2) * 64 + 1 * cc.val = cc.val; rw [e1]; omega

theorem blkB (c : Dev nD) (t : Fin cfg2.N) (z : Fin 1) (cc : Fin 64) :
    (iblk2 V c 5 t : Vec Ideal S1x64 .f32) (ix2 z cc) = arrB V c (ix2 z cc) := by
  obtain ⟨-, -, -, -, -, -, -, -, -, -, e0, e1, -⟩ := idx2 t
  unfold iblk2
  rw [View.read_apply]
  show V c main_v3 _ = V c main_v3 _
  refine congrArg (V c main_v3) (funext fun a => Fin.ext ?_)
  match a with
  | ⟨0, _⟩ => show win2_5.index t (0 : Fin 2) * 1 + 1 * z.val = z.val; rw [e0]; omega
  | ⟨1, _⟩ => show win2_5.index t (1 : Fin 2) * 64 + 1 * cc.val = cc.val; rw [e1]; omega

/-! ## The last layer's product at an entry

The product contracts the second axis of its left operand with the first axis of its right operand. At the
output entry `(r, cc)` and the contraction position `k` it reads the left operand at `(r, k)` and the right
operand at `(k, cc)`; its accumulator is the zero word, which is `0`. -/

/-- The left operand's row is the output's row; -/
theorem dW_lhs_row (i : S512x64.Idx) (q : dot_S512x128_S128x64_S512x64_1_0_0_1_n_n.contr.Idx) : (dot_S512x128_S128x64_S512x64_1_0_0_1_n_n.lhsIdx i q 0).val = (i 0).val := by
  unfold DotDims.lhsIdx
  rw [dif_neg (show ¬(0 : Fin S512x128.rank) ∈ dot_S512x128_S128x64_S512x64_1_0_0_1_n_n.lhsBatch by decide),
    dif_pos (show (0 : Fin S512x128.rank) ∈ dot_S512x128_S128x64_S512x64_1_0_0_1_n_n.lhsNonContracting by decide)]
  rfl
/-- the right operand's column is the output's column. -/
theorem dW_rhs_col (i : S512x64.Idx) (q : dot_S512x128_S128x64_S512x64_1_0_0_1_n_n.contr.Idx) : (dot_S512x128_S128x64_S512x64_1_0_0_1_n_n.rhsIdx i q 1).val = (i 1).val := by
  unfold DotDims.rhsIdx
  rw [dif_neg (show ¬(1 : Fin S128x64.rank) ∈ dot_S512x128_S128x64_S512x64_1_0_0_1_n_n.rhsBatch by decide),
    dif_pos (show (1 : Fin S128x64.rank) ∈ dot_S512x128_S128x64_S512x64_1_0_0_1_n_n.rhsNonContracting by decide)]
  rfl

/-- The product into the zero accumulator, at the entry `(r, cc)`: the sum over the 128 contraction positions. -/
theorem prodW_apply (x : FVec Ideal S512x128 .f32) (w : FVec Ideal S128x64 .f32) (r : Fin 512) (cc : Fin 64) :
    matmul (F := Ideal) dot_S512x128_S128x64_S512x64_1_0_0_1_n_n none x w (constant S512x64 .f32 0x00000000#32) (ix2 r cc)
      = ∑ k : Fin 128, x (ix2 r k) * w (ix2 k cc) := by
  simp only [matmul]
  rw [Ideal.matmul_constant_zero_apply, ← Equiv.sum_comp (contrEquiv1 dot_S512x128_S128x64_S512x64_1_0_0_1_n_n 128 rfl rfl).symm]
  refine Finset.sum_congr rfl fun k _ => ?_
  have hk := contrEquiv1_symm_val dot_S512x128_S128x64_S512x64_1_0_0_1_n_n 128 rfl rfl k
  have el : dot_S512x128_S128x64_S512x64_1_0_0_1_n_n.lhsIdx (ix2 r cc) ((contrEquiv1 dot_S512x128_S128x64_S512x64_1_0_0_1_n_n 128 rfl rfl).symm k) = ix2 r k := funext fun a => Fin.ext (by
    match a with
    | ⟨0, _⟩ => exact dW_lhs_row _ _
    | ⟨1, _⟩ => exact (dot_S512x128_S128x64_S512x64_1_0_0_1_n_n.lhsIdx_val_of_single rfl _ _).trans hk)
  have er : dot_S512x128_S128x64_S512x64_1_0_0_1_n_n.rhsIdx (ix2 r cc) ((contrEquiv1 dot_S512x128_S128x64_S512x64_1_0_0_1_n_n 128 rfl rfl).symm k) = ix2 k cc := funext fun a => Fin.ext (by
    match a with
    | ⟨0, _⟩ => exact (dot_S512x128_S128x64_S512x64_1_0_0_1_n_n.rhsIdx_val_of_single rfl _ _).trans hk
    | ⟨1, _⟩ => exact dW_rhs_col _ _)
  rw [el, er]

/-! ## What the body writes, at an entry -/

/-- The bias row, repeated down the 512 rows, reads at `(r, cc)` the row's entry `cc`. -/
theorem biasW_apply (b : Vec Ideal S1x64 .f32) (r : Fin 512) (cc : Fin 64) :
    broadcastTo S512x64 (shapeCast S1x64 b shapeCasts_S1x64_S1x64) broadcasts_S1x64_S512x64 (ix2 r cc)
      = b (ix2 (0 : Fin 1) cc) := by
  rw [shapeCast_self]
  exact broadcastTo_apply b broadcasts_S1x64_S512x64 (ix2 r cc) (ix2 (0 : Fin 1) cc) (fun a => by
    match a with
    | ⟨0, _⟩ => rfl
    | ⟨1, _⟩ => rfl)

/-- The half-weighted combination of three blocks, its positive part, at an entry. -/
theorem combW_apply (yi acc dh : Vec Ideal S512x128 .f32) (r : Fin 512) (k : Fin 128) :
    maximumf (F := Ideal) (addf (addf (mulf (broadcast S512x128 (Scalar.ofBits .f32 0x3F000000#32)) (shapeCast S512x128 yi shapeCasts_S512x128_S512x128))
        (mulf (broadcast S512x128 (Scalar.ofBits .f32 0x3F000000#32)) acc))
        (mulf (broadcast S512x128 (Scalar.ofBits .f32 0x3F000000#32)) (shapeCast S512x128 dh shapeCasts_S512x128_S512x128)))
      (broadcast S512x128 (Scalar.ofBits .f32 0x00000000#32)) (ix2 r k)
      = max ((Cert.Spec.half * yi (ix2 r k) + Cert.Spec.half * acc (ix2 r k)) + Cert.Spec.half * dh (ix2 r k)) 0 := by
  rw [shapeCast_self, shapeCast_self]
  show max ((Cert.Spec.half * yi (ix2 r k) + Cert.Spec.half * acc (ix2 r k)) + Cert.Spec.half * dh (ix2 r k))
      (Ideal.ofBits .f32 0x00000000#32) = _
  rw [Ideal.ofBits_zero_f32]

/-- The body's result at the entry `(r, cc)`: the last layer's weights applied to the positive part of the
    half-weighted combination, plus the bias row's entry `cc`. -/
theorem pay3_apply (yi acc dh : Vec Ideal S512x128 .f32) (w : Vec Ideal S128x64 .f32) (b : Vec Ideal S1x64 .f32)
    (r : Fin 512) (cc : Fin 64) :
    k2_pay3 (F := Ideal) yi acc dh w b (ix2 r cc)
      = (∑ k : Fin 128, max ((Cert.Spec.half * yi (ix2 r k) + Cert.Spec.half * acc (ix2 r k)) + Cert.Spec.half * dh (ix2 r k)) 0
            * w (ix2 k cc))
        + b (ix2 (0 : Fin 1) cc) := by
  unfold k2_pay3
  refine (addf_apply _ _ _).trans ?_
  refine congrArg₂ (· + ·) ?_ (biasW_apply b r cc)
  refine (prodW_apply _ w r cc).trans ?_
  exact Finset.sum_congr rfl fun k _ => congrArg (· * w (ix2 k cc)) (combW_apply yi acc dh r k)

/-! ## The block written at the end of a row block is a block of the result -/

/-- The result, as one function of the arrays the call finds: the last layer of the half-weighted combination of
    `Y1`, `A · Y1` and `D · h`. -/
abbrev res2 (c : Dev nD) : Cert.Spec.Mat 8192 64 :=
  Cert.Spec.OUT (Cert.Spec.COMB (arrY V c) (Cert.Spec.MM (arrA V c) (arrY V c)) (arrDh V c)) (arrW V c)
    (fun j => arrB V c (ix2 (0 : Fin 1) (j 0)))

/-- Entry `(r, cc)` of the output block at position `16 * i + kk` is entry `(512 * i + r, cc)` of the output array. -/
theorem blkOut (c : Dev nD) (G : Cert.Spec.Mat 8192 64) (t : Fin cfg2.N) (i kk : Fin 16) (ht : t.val = 16 * i.val + kk.val)
    (r : Fin 512) (cc : Fin 64) :
    (((cfg2.win 6).blk t).view.read (Elt Ideal) G : Vec Ideal S512x64 .f32) (ix2 r cc)
      = G (ix2 ⟨512 * i.val + r.val, row_lt i r⟩ cc) := by
  obtain ⟨-, -, -, -, -, -, -, -, -, -, -, -, e0, e1⟩ := idx2 t
  have hi := i.isLt; have hk := kk.isLt
  rw [View.read_apply]
  show G _ = G _
  refine congrArg G (funext fun a => Fin.ext ?_)
  match a with
  | ⟨0, _⟩ => show win2_6.index t (0 : Fin 2) * 512 + 1 * r.val = 512 * i.val + r.val; rw [e0]; omega
  | ⟨1, _⟩ => show win2_6.index t (1 : Fin 2) * 64 + 1 * cc.val = cc.val; rw [e1]; omega

/-- What a position that closes a row block writes back is that row block of the result. -/
theorem flushed2_eq (c : Dev nD) (t : Fin cfg2.N) (hf : (cfg2.win 6).flush t = true) :
    (dat2 V c).flushed 6 t = ((cfg2.win 6).blk t).view.read (Elt Ideal) (res2 V c) := by
  have h15 : t.val % 16 = 15 := (flush2_6 t).mp hf
  have hN : t.val < 256 := lt_of_lt_of_eq t.isLt (show cfg2.N = 256 from N_2)
  obtain ⟨i, ht⟩ : ∃ i : Fin 16, t.val = 16 * i.val + (15 : Fin 16).val :=
    ⟨⟨t.val / 16, by omega⟩, by show t.val = 16 * (t.val / 16) + 15; omega⟩
  have ht' : t.val = 16 * i.val + 15 := ht
  show (cfg2.win 6).cut (grid2.coords t) ((dat2 V c).after 6 t) = _
  rw [after2_6 V c t h15]
  funext y
  obtain ⟨r, cc, rfl⟩ : ∃ (r : Fin 512) (cc : Fin 64), y = ix2 r cc := ⟨y 0, y 1, eq_ix2 y⟩
  refine Eq.trans ?_ (blkOut c (res2 V c) t i 15 ht r cc).symm
  show k2_pay3 (F := Ideal) (iblk2 V c 2 t) (acc2 V c t.val t.isLt) (iblk2 V c 3 t) (iblk2 V c 4 t) (iblk2 V c 5 t) (ix2 r cc) = _
  refine (pay3_apply _ _ _ _ _ r cc).trans ?_
  refine Eq.trans ?_ (Cert.Spec.OUT_apply _ _ _ ⟨512 * i.val + r.val, row_lt i r⟩ cc).symm
  refine congrArg₂ (· + ·) (Finset.sum_congr rfl fun k _ => ?_) (blkB V c t 0 cc)
  have eY := blkYi V c t i 15 ht r k
  have eD := blkDh V c t i 15 ht r k
  have eW := blkW V c t k cc
  have eA : (acc2 V c t.val t.isLt : Vec Ideal S512x128 .f32) (ix2 r k)
      = Cert.Spec.MM (arrA V c) (arrY V c) (ix2 ⟨512 * i.val + r.val, row_lt i r⟩ k) :=
    (congrFun (acc2_congr V c t.isLt (by omega) ht') (ix2 r k)).trans (acc2_last V c i r k (by omega))
  rw [eY, eD, eW, eA]
  rfl

/-! ## The sixteen closing positions cover the output array -/

/-- An entry whose row lies in row block `q` is in the block that position `16 * q + 15` writes back. -/
theorem mem_blk6 (t : Fin cfg2.N) (i : S8192x64.Idx) (q : Fin 16) (ht : t.val = 16 * q.val + 15)
    (h : 512 * q.val ≤ (i 0).val ∧ (i 0).val < 512 * q.val + 512) : i ∈ ((cfg2.win 6).blk t).view.set := by
  obtain ⟨-, -, -, -, -, -, -, -, -, -, -, -, e0, e1⟩ := idx2 t
  have hq := q.isLt
  have h1 : (i 1).val < 64 := (i 1).isLt
  show i ∈ ((View.whole main_v4).slice (win2_6.rect t)).set
  rw [View.set_slice_whole, Rect.mem_set_unit]
  intro a
  match a with
  | ⟨0, _⟩ =>
    show win2_6.index t (0 : Fin 2) * 512 ≤ (i 0).val ∧ (i 0).val < win2_6.index t (0 : Fin 2) * 512 + 512
    rw [e0]; omega
  | ⟨1, _⟩ =>
    show win2_6.index t (1 : Fin 2) * 64 ≤ (i 1).val ∧ (i 1).val < win2_6.index t (1 : Fin 2) * 64 + 64
    rw [e1]; omega

/-- Every entry of the output array is in the block some closing position writes back. -/
theorem cover2 (i : S8192x64.Idx) :
    ∃ t : Fin cfg2.N, (cfg2.win 6).flush t = true ∧ i ∈ ((cfg2.win 6).blk t).view.set := by
  have h0 : (i 0).val < 8192 := (i 0).isLt
  have hN : cfg2.N = 256 := N_2
  have hlt : 16 * ((i 0).val / 512) + 15 < cfg2.N := by rw [hN]; omega
  have hq : (i 0).val / 512 < 16 := by omega
  refine ⟨⟨16 * ((i 0).val / 512) + 15, hlt⟩, (flush2_6 _).mpr ?_, mem_blk6 _ i ⟨(i 0).val / 512, hq⟩ rfl ?_⟩
  · show (16 * ((i 0).val / 512) + 15) % 16 = 15
    omega
  · show 512 * ((i 0).val / 512) ≤ (i 0).val ∧ (i 0).val < 512 * ((i 0).val / 512) + 512
    omega

/-! ## The output array after the call -/

/-- After the call, the output array is the last linear layer, after the positive part, of the second propagation step. -/
theorem final2 (c : Dev nD) : (dat2 V c).arrAt 6 cfg2.N = Cert.Spec.OUT (Cert.Spec.COMB (V c main_v2_0) (Cert.Spec.MM (V c main_arg1) (V c main_v2_0)) (V c main_v2_1)) (V c main_arg5) (fun j => V c main_v3 (ValueIdx.ix2 (0 : Fin 1) (j 0))) :=
  (dat2 V c).arrAt_eq_of_cover 6 (res2 V c) (flushed2_eq V c) fun i => cover2 i

end Cert.KernelIdeal.Hand
-- ==== Proof.KI.Value.lean ====
/-
  The program's result array as ONE function of the launch contents.

  The run ends with the result buffer at the last valuation, which unfolds, call by call, to what each call's
  write-backs leave: the third call's output is the last layer `OUT` of the second propagation step taken from the
  second call's two outputs (the first step `STEP h A D h` and the product `D·h`), whose `h` is the first call's
  output `H x W_bef b_bef`. Every other buffer a call reads is an argument, which no item writes, so it is read at
  its launch contents; the two biases reach their calls reshaped from a vector to a one-row matrix, and a one-row
  matrix read at row 0 is the vector.
-/
import proofs.«167914_g71622874628668_fold_wed_m_490_1_alg».proof.Proof.KI.Run
import proofs.«167914_g71622874628668_fold_wed_m_490_1_alg».proof.Proof.KI.Val0
import proofs.«167914_g71622874628668_fold_wed_m_490_1_alg».proof.Proof.KI.Val1
import proofs.«167914_g71622874628668_fold_wed_m_490_1_alg».proof.Proof.KI.Val2
import proofs.«167914_g71622874628668_fold_wed_m_490_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-! ## Buffers no item has written yet are read at their launch contents -/

theorem V1_of (c : Dev nD) (b : Ref sig .tc) (h0 : b ≠ main_v0) : V1 m c b = m ((c : Thread nD τ).loc b) :=
  W1_of m c b h0
theorem V2_of (c : Dev nD) (b : Ref sig .tc) (hw : ∀ w, Pipeline.arrRef spec0 w ≠ b) (h0 : b ≠ main_v0) :
    V2 m c b = m ((c : Thread nD τ).loc b) :=
  (W2_of_ne m c b hw).trans (W1_of m c b h0)
theorem V3_of (c : Dev nD) (b : Ref sig .tc) (h20 : b ≠ main_v2_0) (h21 : b ≠ main_v2_1)
    (hw : ∀ w, Pipeline.arrRef spec0 w ≠ b) (h0 : b ≠ main_v0) : V3 m c b = m ((c : Thread nD τ).loc b) :=
  (W3_of_ne m c b h20 h21).trans (V2_of m c b hw h0)
theorem V4_of (c : Dev nD) (b : Ref sig .tc) (h3 : b ≠ main_v3) (h20 : b ≠ main_v2_0) (h21 : b ≠ main_v2_1)
    (hw : ∀ w, Pipeline.arrRef spec0 w ≠ b) (h0 : b ≠ main_v0) : V4 m c b = m ((c : Thread nD τ).loc b) :=
  (W4_of m c b h3).trans (V3_of m c b h20 h21 hw h0)

/-! ## The two reshaped biases, read at row 0 -/

/-- The first bias as the first call finds it is the launch vector laid out as one row. -/
theorem row_bias0 (c : Dev nD) :
    (V1 m c main_v0 : S1x128.Idx → EReal)
      = shapeCast S1x128 (m ((c : Thread nD τ).loc main_arg4) : S128.Idx → EReal) shapeCasts_S128_S1x128 := by
  show StableHlo.after hostOps0 (W0 m c) (Proc.devRef .tc main_v0) = _
  after_results
  rfl

/-- Read at row 0, that one-row matrix is the vector. -/
theorem bias0 (c : Dev nD) :
    (fun j : (⟨1, ![128]⟩ : Shape).Idx => V1 m c main_v0 (ix2 (0 : Fin 1) (j 0))) = m ((c : Thread nD τ).loc main_arg4) := by
  funext j
  refine (congrFun (row_bias0 m c) (ix2 (0 : Fin 1) (j 0))).trans ?_
  refine (shapeCast_a_1a_apply (a := 128) _ shapeCasts_S128_S1x128 (0 : Fin 1) (j 0)).trans ?_
  exact congrArg (m ((c : Thread nD τ).loc main_arg4)) (eq_ix1 j).symm

/-- The second bias as the third call finds it is the launch vector laid out as one row: the vector itself is no
    call's output and no earlier item's result. -/
theorem row_bias3 (c : Dev nD) :
    (V4 m c main_v3 : S1x64.Idx → EReal)
      = shapeCast S1x64 (m ((c : Thread nD τ).loc main_arg6) : S64.Idx → EReal) shapeCasts_S64_S1x64 := by
  refine Eq.trans (b := shapeCast S1x64 (V3 m c main_arg6 : S64.Idx → EReal) shapeCasts_S64_S1x64) ?_ ?_
  · show StableHlo.after hostOps2 (W3 m c) (Proc.devRef .tc main_v3) = _
    after_results
    rfl
  · rw [V3_of m c main_arg6 (by decide) (by decide) (by decide) (by decide)]

/-- Read at row 0, it is the vector. -/
theorem bias3 (c : Dev nD) :
    (fun j : (⟨1, ![64]⟩ : Shape).Idx => V4 m c main_v3 (ix2 (0 : Fin 1) (j 0))) = m ((c : Thread nD τ).loc main_arg6) := by
  funext j
  refine (congrFun (row_bias3 m c) (ix2 (0 : Fin 1) (j 0))).trans ?_
  refine (shapeCast_a_1a_apply (a := 64) _ shapeCasts_S64_S1x64 (0 : Fin 1) (j 0)).trans ?_
  exact congrArg (m ((c : Thread nD τ).loc main_arg6)) (eq_ix1 j).symm

/-! ## Call by call -/

/-- After the first call `h` holds the first layer of the launch contents. -/
theorem h_eq (c : Dev nD) :
    V2 m c main_v1 = Cert.Spec.H (m ((c : Thread nD τ).loc main_arg0)) (m ((c : Thread nD τ).loc main_arg3)) (m ((c : Thread nD τ).loc main_arg4)) := by
  refine ((W2_arr m c 3).trans (final0 (V1 m) c)).trans ?_
  rw [bias0 m c, V1_of m c main_arg0 (by decide), V1_of m c main_arg3 (by decide)]

/-- After the second call: the first propagation step, and the product `D·h`. -/
theorem y1_eq (c : Dev nD) :
    V4 m c main_v2_0 = Cert.Spec.STEP (V2 m c main_v1) (m ((c : Thread nD τ).loc main_arg1)) (m ((c : Thread nD τ).loc main_arg2)) (V2 m c main_v1) := by
  refine (W4_of m c main_v2_0 (by decide)).trans (((W3_v2_0 m c).trans (final1_4 (V2 m) c)).trans ?_)
  rw [V2_of m c main_arg1 (by decide) (by decide), V2_of m c main_arg2 (by decide) (by decide)]
theorem dh_eq (c : Dev nD) :
    V4 m c main_v2_1 = Cert.Spec.MM (m ((c : Thread nD τ).loc main_arg2)) (V2 m c main_v1) := by
  refine (W4_of m c main_v2_1 (by decide)).trans (((W3_v2_1 m c).trans (final1_5 (V2 m) c)).trans ?_)
  rw [V2_of m c main_arg2 (by decide) (by decide)]

/-- The result buffer at the end of the run is the specification's function of the launch contents. -/
theorem kernel_value (c : Dev nD) :
    W5 m c (Proc.devRef .tc main_v4)
      = Cert.Spec.RESULT (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6)) := by
  refine ((W5_v4 m c).trans (final2 (V4 m) c)).trans ?_
  rw [bias3 m c, y1_eq m c, dh_eq m c, h_eq m c,
    V4_of m c main_arg1 (by decide) (by decide) (by decide) (by decide) (by decide),
    V4_of m c main_arg5 (by decide) (by decide) (by decide) (by decide) (by decide)]
  rfl

end Cert.KernelIdeal.Hand

end
-- ==== Proof.RefValue.lean ====
import proofs.«167914_g71622874628668_fold_wed_m_490_1_alg».proof.Proof.Spec
import proofs.«167914_g71622874628668_fold_wed_m_490_1_alg».proof.Proof.Gen.ReferenceIdeal.Read
import Idealize.ShloMosaic.PureOps.Ideal.Laws
import Idealize.ShloMosaic.Lib.ValueIdx

/-! # The reference computes the propagation network

The reference's last array, read entry by entry through its operations, is `Cert.Spec.RESULT` of its seven
argument arrays. The proof goes array by array: the first layer's output `h`, the two dense products that use it,
the first step, the dense product of the first step's output, the second step, the positive part, the second layer. -/

noncomputable section

namespace Cert.ReferenceIdeal.RefValue

open Cert.ReferenceIdeal Cert.ReferenceIdeal.Read Idealize.ShloMosaic Idealize.ShloMosaic.TcCoe Idealize.SL.Sem
open Idealize.ShloMosaic.ValueIdx
open scoped BigOperators

/-! ## The operand positions of each contraction and each bias, by coordinates -/

theorem lpos_h (i : S8192x128.Idx) (k : Fin 256) : lidx_main_v0 i k = (ix2 (i 0) k : S8192x256.Idx) :=
  funext fun a => Fin.ext (by match a with | ⟨0, _⟩ => rfl | ⟨1, _⟩ => rfl)
theorem rpos_h (i : S8192x128.Idx) (k : Fin 256) : ridx_main_v0 i k = (ix2 k (i 1) : S256x128.Idx) :=
  funext fun a => Fin.ext (by match a with | ⟨0, _⟩ => rfl | ⟨1, _⟩ => rfl)
theorem lpos_Ah (i : S8192x128.Idx) (k : Fin 8192) : lidx_main_v6 i k = (ix2 (i 0) k : S8192x8192.Idx) :=
  funext fun a => Fin.ext (by match a with | ⟨0, _⟩ => rfl | ⟨1, _⟩ => rfl)
theorem rpos_Ah (i : S8192x128.Idx) (k : Fin 8192) : ridx_main_v6 i k = (ix2 k (i 1) : S8192x128.Idx) :=
  funext fun a => Fin.ext (by match a with | ⟨0, _⟩ => rfl | ⟨1, _⟩ => rfl)
theorem lpos_Dh (i : S8192x128.Idx) (k : Fin 8192) : lidx_main_v10 i k = (ix2 (i 0) k : S8192x8192.Idx) :=
  funext fun a => Fin.ext (by match a with | ⟨0, _⟩ => rfl | ⟨1, _⟩ => rfl)
theorem rpos_Dh (i : S8192x128.Idx) (k : Fin 8192) : ridx_main_v10 i k = (ix2 k (i 1) : S8192x128.Idx) :=
  funext fun a => Fin.ext (by match a with | ⟨0, _⟩ => rfl | ⟨1, _⟩ => rfl)
theorem lpos_AY (i : S8192x128.Idx) (k : Fin 8192) : lidx_main_v16 i k = (ix2 (i 0) k : S8192x8192.Idx) :=
  funext fun a => Fin.ext (by match a with | ⟨0, _⟩ => rfl | ⟨1, _⟩ => rfl)
theorem rpos_AY (i : S8192x128.Idx) (k : Fin 8192) : ridx_main_v16 i k = (ix2 k (i 1) : S8192x128.Idx) :=
  funext fun a => Fin.ext (by match a with | ⟨0, _⟩ => rfl | ⟨1, _⟩ => rfl)
theorem lpos_Dh' (i : S8192x128.Idx) (k : Fin 8192) : lidx_main_v20 i k = (ix2 (i 0) k : S8192x8192.Idx) :=
  funext fun a => Fin.ext (by match a with | ⟨0, _⟩ => rfl | ⟨1, _⟩ => rfl)
theorem rpos_Dh' (i : S8192x128.Idx) (k : Fin 8192) : ridx_main_v20 i k = (ix2 k (i 1) : S8192x128.Idx) :=
  funext fun a => Fin.ext (by match a with | ⟨0, _⟩ => rfl | ⟨1, _⟩ => rfl)
theorem lpos_out (i : S8192x64.Idx) (k : Fin 128) : lidx_main_v25 i k = (ix2 (i 0) k : S8192x128.Idx) :=
  funext fun a => Fin.ext (by match a with | ⟨0, _⟩ => rfl | ⟨1, _⟩ => rfl)
theorem rpos_out (i : S8192x64.Idx) (k : Fin 128) : ridx_main_v25 i k = (ix2 k (i 1) : S128x64.Idx) :=
  funext fun a => Fin.ext (by match a with | ⟨0, _⟩ => rfl | ⟨1, _⟩ => rfl)
theorem pos_bias_h (i : S8192x128.Idx) : idx_main_v1 (idx_main_v2 i) = (ix1 (i 1) : S128.Idx) :=
  funext fun a => Fin.ext (by match a with | ⟨0, _⟩ => rfl)
theorem pos_bias_out (i : S8192x64.Idx) : idx_main_v26 (idx_main_v27 i) = (ix1 (i 1) : S64.Idx) :=
  funext fun a => Fin.ext (by match a with | ⟨0, _⟩ => rfl)

variable (x : Spec.Mat 8192 256) (A D : Spec.Mat 8192 8192) (Wb : Spec.Mat 256 128) (bb : Spec.Row 128)
  (Wa : Spec.Mat 128 64) (ba : Spec.Row 64)

/-! ## The biases and the step weight at an entry -/

/-- The first bias, broadcast over the rows, at an entry is the bias at the entry's column. -/
theorem bias_h (i : S8192x128.Idx) : val_main_v2 (F := Ideal) bb i = bb (ix1 (i 1)) := by
  rw [val_main_v2_apply, val_main_v1_apply, pos_bias_h]

/-- The second bias likewise. -/
theorem bias_out (i : S8192x64.Idx) : val_main_v27 (F := Ideal) ba i = ba (ix1 (i 1)) := by
  rw [val_main_v27_apply, val_main_v26_apply, pos_bias_out]

/-- Each of the six broadcasts of the step weight is the weight's word at every entry. -/
theorem weight_1 (i : S8192x128.Idx) : val_main_v4 (F := Ideal) i = Spec.half := by
  rw [val_main_v4_apply, val_main_cst_apply]; rfl
theorem weight_2 (i : S8192x128.Idx) : val_main_v7 (F := Ideal) i = Spec.half := by
  rw [val_main_v7_apply, val_main_cst_0_apply]; rfl
theorem weight_3 (i : S8192x128.Idx) : val_main_v11 (F := Ideal) i = Spec.half := by
  rw [val_main_v11_apply, val_main_cst_1_apply]; rfl
theorem weight_4 (i : S8192x128.Idx) : val_main_v14 (F := Ideal) i = Spec.half := by
  rw [val_main_v14_apply, val_main_cst_2_apply]; rfl
theorem weight_5 (i : S8192x128.Idx) : val_main_v17 (F := Ideal) i = Spec.half := by
  rw [val_main_v17_apply, val_main_cst_3_apply]; rfl
theorem weight_6 (i : S8192x128.Idx) : val_main_v21 (F := Ideal) i = Spec.half := by
  rw [val_main_v21_apply, val_main_cst_4_apply]; rfl

/-! ## Array by array -/

/-- The first layer's output is `H`. -/
theorem layer_one : val_main_v3 (F := Ideal) x Wb bb = Spec.H x Wb bb := by
  funext i
  rw [val_main_v3_apply, val_main_v0_apply, bias_h]
  show (∑ k : Fin 256, x (lidx_main_v0 i k) * Wb (ridx_main_v0 i k)) + bb (ix1 (i 1))
    = (∑ k : Fin 256, x (ix2 (i 0) k) * Wb (ix2 k (i 1))) + bb (ix1 (i 1))
  exact congrArg (· + bb (ix1 (i 1))) (Finset.sum_congr rfl fun k _ => by rw [lpos_h, rpos_h])

/-- The first dense product with `A` is `A · h`. -/
theorem prod_A_h : val_main_v6 (F := Ideal) x A Wb bb = Spec.MM A (Spec.H x Wb bb) := by
  funext i
  rw [val_main_v6_apply, layer_one]
  show (∑ k : Fin 8192, A (lidx_main_v6 i k) * Spec.H x Wb bb (ridx_main_v6 i k))
    = ∑ k : Fin 8192, A (ix2 (i 0) k) * Spec.H x Wb bb (ix2 k (i 1))
  exact Finset.sum_congr rfl fun k _ => by rw [lpos_Ah, rpos_Ah]

/-- The first dense product with `D` is `D · h`. -/
theorem prod_D_h : val_main_v10 (F := Ideal) x D Wb bb = Spec.MM D (Spec.H x Wb bb) := by
  funext i
  rw [val_main_v10_apply, layer_one]
  show (∑ k : Fin 8192, D (lidx_main_v10 i k) * Spec.H x Wb bb (ridx_main_v10 i k))
    = ∑ k : Fin 8192, D (ix2 (i 0) k) * Spec.H x Wb bb (ix2 k (i 1))
  exact Finset.sum_congr rfl fun k _ => by rw [lpos_Dh, rpos_Dh]

/-- The second dense product with `D` is the same `D · h`. -/
theorem prod_D_h' : val_main_v20 (F := Ideal) x D Wb bb = Spec.MM D (Spec.H x Wb bb) := by
  funext i
  rw [val_main_v20_apply, layer_one]
  show (∑ k : Fin 8192, D (lidx_main_v20 i k) * Spec.H x Wb bb (ridx_main_v20 i k))
    = ∑ k : Fin 8192, D (ix2 (i 0) k) * Spec.H x Wb bb (ix2 k (i 1))
  exact Finset.sum_congr rfl fun k _ => by rw [lpos_Dh', rpos_Dh']

/-- The first step's output is `STEP` from `h`. -/
theorem step_one :
    val_main_v13 (F := Ideal) x A D Wb bb = Spec.STEP (Spec.H x Wb bb) A D (Spec.H x Wb bb) := by
  funext i
  rw [val_main_v13_apply, val_main_v9_apply, val_main_v5_apply, val_main_v8_apply, val_main_v12_apply,
    weight_1, weight_2, weight_3, layer_one, prod_A_h, prod_D_h]
  rfl

/-- The dense product of the first step's output with `A`. -/
theorem prod_A_Y :
    val_main_v16 (F := Ideal) x A D Wb bb = Spec.MM A (Spec.STEP (Spec.H x Wb bb) A D (Spec.H x Wb bb)) := by
  funext i
  rw [val_main_v16_apply, step_one]
  show (∑ k : Fin 8192, A (lidx_main_v16 i k) * Spec.STEP (Spec.H x Wb bb) A D (Spec.H x Wb bb) (ridx_main_v16 i k))
    = ∑ k : Fin 8192, A (ix2 (i 0) k) * Spec.STEP (Spec.H x Wb bb) A D (Spec.H x Wb bb) (ix2 k (i 1))
  exact Finset.sum_congr rfl fun k _ => by rw [lpos_AY, rpos_AY]

/-- The second step's output is `STEP` from the first step's. -/
theorem step_two :
    val_main_v23 (F := Ideal) x A D Wb bb
      = Spec.STEP (Spec.H x Wb bb) A D (Spec.STEP (Spec.H x Wb bb) A D (Spec.H x Wb bb)) := by
  funext i
  rw [val_main_v23_apply, val_main_v19_apply, val_main_v15_apply, val_main_v18_apply, val_main_v22_apply,
    weight_4, weight_5, weight_6, step_one, prod_A_Y, prod_D_h']
  rfl

/-- The positive part at an entry: the maximum with the zero word is the maximum with `0`. -/
theorem positive_part (j : S8192x128.Idx) :
    val_main_v24 (F := Ideal) x A D Wb bb j
      = max (Spec.STEP (Spec.H x Wb bb) A D (Spec.STEP (Spec.H x Wb bb) A D (Spec.H x Wb bb)) j) 0 := by
  rw [val_main_v24_apply, val_main_call0_v0_apply, val_main_call0_cst_apply, step_two]
  show max _ (Ideal.ofBits .f32 0x00000000#32) = _
  rw [Ideal.ofBits_zero_f32]

/-- THE REFERENCE IS `RESULT`: its last array is the network of its seven argument arrays. -/
theorem result_eq : val_main_v28 (F := Ideal) x A D Wb bb Wa ba = Spec.RESULT x A D Wb bb Wa ba := by
  funext i
  rw [val_main_v28_apply, val_main_v25_apply, bias_out]
  show (∑ k : Fin 128, val_main_v24 (F := Ideal) x A D Wb bb (lidx_main_v25 i k) * Wa (ridx_main_v25 i k)) + ba (ix1 (i 1))
    = (∑ k : Fin 128, max (Spec.STEP (Spec.H x Wb bb) A D (Spec.STEP (Spec.H x Wb bb) A D (Spec.H x Wb bb)) (ix2 (i 0) k)) 0
          * Wa (ix2 k (i 1))) + ba (ix1 (i 1))
  exact congrArg (· + ba (ix1 (i 1))) (Finset.sum_congr rfl fun k _ => by rw [positive_part, lpos_out, rpos_out])

/-! ## The run -/

/-- Every execution of the reference ends with its result array at `RESULT` of the arrays it was started on, and
    those seven arrays unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v28) = Cert.Spec.RESULT (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)) :=
  (θ_run Cert.ReferenceIdeal.defs _ _).mono
    (fun _ h c => ⟨(h c).1.trans ((val_main_v28_eq m' c).trans (result_eq _ _ _ _ _ _ _)), (h c).2⟩)
    (Cert.ReferenceIdeal.Value.run (F := Ideal) m' ρ')

end Cert.ReferenceIdeal.RefValue

end
-- ==== Proof.lean ====
/-
  The certificate's claim: the three-call kernel (h = x·W_bef + b_bef; two propagation steps
  Y ↦ ½·Y + ½·(A·Y) + ½·(D·h) accumulated block by block over a 16×16 grid; relu and the last projection fused into
  the second step's last block) against the plain reference.

  Frames. Each program's run is the several-calls launch over its five items (the two bias reshapes and the three
  calls), every call a segment whose arrays are split out of the core's buffers on entry — an array two windows read
  into its two half shares — and rejoined on exit; the accumulators live in the call's invariant from one grid point
  to the next. The run names every buffer's final contents, so the frame claim is the run with the result dropped; it
  is proved once, for any float instance, and read at the word-level instance for the printed kernel and at the
  ideal instance for its idealization. The reference has no kernel: its frame is its generated run with the result
  dropped.

  Value. At the ideal instance the kernel's result unfolds call by call to one function of the launch contents
  (`Cert.Spec.RESULT`): a block's accumulator after its sixteenth contraction block is the whole row-by-column sum
  (a sum over 16 blocks of 512 is the sum over 8192; additions only, so no finiteness is used), and the epilogues are
  pointwise. The reference's run ends at the same function, operation by operation. The two idealized programs share
  every literal (the weight ½ as the same word, never evaluated), so the ledger is empty and `preserves` is trivial.
-/
import proofs.«167914_g71622874628668_fold_wed_m_490_1_alg».proof.Defs
import proofs.«167914_g71622874628668_fold_wed_m_490_1_alg».proof.Proof.Gen.Kernel
import proofs.«167914_g71622874628668_fold_wed_m_490_1_alg».proof.Proof.Gen.KernelIdeal
import proofs.«167914_g71622874628668_fold_wed_m_490_1_alg».proof.Proof.Gen.ReferenceIdeal
import proofs.«167914_g71622874628668_fold_wed_m_490_1_alg».proof.Proof.Gen.Pre_finite_inputs
import proofs.«167914_g71622874628668_fold_wed_m_490_1_alg».proof.Proof.Gen.ReferenceIdeal.Run
import proofs.«167914_g71622874628668_fold_wed_m_490_1_alg».proof.Proof.K.Run
import proofs.«167914_g71622874628668_fold_wed_m_490_1_alg».proof.Proof.KI.Run
import proofs.«167914_g71622874628668_fold_wed_m_490_1_alg».proof.Proof.KI.Value
import proofs.«167914_g71622874628668_fold_wed_m_490_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at the specification's function of the launch contents, which
    agree on the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.RESULT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.kernel_value m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.RefValue.ref_run m' ρ')
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
